-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg6 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 100000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S100000x128 .f32) (main_arg1 : IVec S2x800000 32) (main_arg2 : IVec S100000 32) (main_arg3 : FVec F S128x128 .f32) (main_arg4 : FVec F S128 .f32) (main_arg5 : FVec F S128x2 .f32) (main_arg6 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg1 main_arg6 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x128 : Shape := ⟨2, ![10000, 128]⟩
abbrev S1 : Shape := ⟨1, ![1]⟩
abbrev S1x1 : Shape := ⟨2, ![1, 1]⟩
abbrev S900000x128 : Shape := ⟨2, ![900000, 128]⟩
abbrev S9000x128 : Shape := ⟨2, ![9000, 128]⟩
abbrev S9000x1 : Shape := ⟨2, ![9000, 1]⟩
abbrev S1x128 : Shape := ⟨2, ![1, 128]⟩
abbrev S100000x2 : Shape := ⟨2, ![100000, 2]⟩
abbrev S10000x2 : Shape := ⟨2, ![10000, 2]⟩
abbrev S900000x2 : Shape := ⟨2, ![900000, 2]⟩
abbrev S9000x2 : Shape := ⟨2, ![9000, 2]⟩
abbrev S1x2 : Shape := ⟨2, ![1, 2]⟩
abbrev S100000x1 : Shape := ⟨2, ![100000, 1]⟩
abbrev S16x2 : Shape := ⟨2, ![16, 2]⟩
abbrev S10000x1 : Shape := ⟨2, ![10000, 1]⟩
abbrev S16x1 : Shape := ⟨2, ![16, 1]⟩
abbrev S10000x16 : Shape := ⟨2, ![10000, 16]⟩
abbrev S16 : Shape := ⟨1, ![16]⟩

abbrev nBuf : Space → Nat
  | .hbm => 113
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S100000x128, .f32⟩
  | .hbm, ⟨48, _⟩ => ⟨S_, .i32⟩
  | .hbm, ⟨49, _⟩ => ⟨S900000, .i32⟩
  | .hbm, ⟨50, _⟩ => ⟨S900000, .i1⟩
  | .hbm, ⟨51, _⟩ => ⟨S_, .i32⟩
  | .hbm, ⟨52, _⟩ => ⟨S900000, .i32⟩
  | .hbm, ⟨53, _⟩ => ⟨S900000, .i32⟩
  | .hbm, ⟨54, _⟩ => ⟨S900000, .i32⟩
  | .hbm, ⟨55, _⟩ => ⟨S900000x1, .i32⟩
  | .hbm, ⟨56, _⟩ => ⟨S1, .i32⟩
  | .hbm, ⟨57, _⟩ => ⟨S_, .i32⟩
  | .hbm, ⟨58, _⟩ => ⟨S900000x1, .i32⟩
  | .hbm, ⟨59, _⟩ => ⟨S900000x1, .i1⟩
  | .hbm, ⟨60, _⟩ => ⟨S1x1, .i32⟩
  | .hbm, ⟨61, _⟩ => ⟨S900000x1, .i32⟩
  | .hbm, ⟨62, _⟩ => ⟨S900000x1, .i1⟩
  | .hbm, ⟨63, _⟩ => ⟨S900000x1, .i1⟩
  | .hbm, ⟨64, _⟩ => ⟨S_, .i1⟩
  | .hbm, ⟨65, _⟩ => ⟨S900000, .i1⟩
  | .hbm, ⟨66, _⟩ => ⟨S900000x128, .f32⟩
  | .hbm, ⟨67, _⟩ => ⟨S900000x128, .i1⟩
  | .hbm, ⟨68, _⟩ => ⟨S_, .f32⟩
  | .hbm, ⟨69, _⟩ => ⟨S900000x128, .f32⟩
  | .hbm, ⟨70, _⟩ => ⟨S900000x128, .f32⟩
  | .hbm, ⟨71, _⟩ => ⟨S900000x1, .f32⟩
  | .hbm, ⟨72, _⟩ => ⟨S900000x128, .f32⟩
  | .hbm, ⟨73, _⟩ => ⟨S_, .f32⟩
  | .hbm, ⟨74, _⟩ => ⟨S100000x128, .f32⟩
  | .hbm, ⟨75, _⟩ => ⟨S900000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x2, .f32⟩
  | .hbm, ⟨80, _⟩ => ⟨S_, .i32⟩
  | .hbm, ⟨81, _⟩ => ⟨S900000, .i32⟩
  | .hbm, ⟨82, _⟩ => ⟨S900000, .i1⟩
  | .hbm, ⟨83, _⟩ => ⟨S_, .i32⟩
  | .hbm, ⟨84, _⟩ => ⟨S900000, .i32⟩
  | .hbm, ⟨85, _⟩ => ⟨S900000, .i32⟩
  | .hbm, ⟨86, _⟩ => ⟨S900000, .i32⟩
  | .hbm, ⟨87, _⟩ => ⟨S900000x1, .i32⟩
  | .hbm, ⟨88, _⟩ => ⟨S1, .i32⟩
  | .hbm, ⟨89, _⟩ => ⟨S_, .i32⟩
  | .hbm, ⟨90, _⟩ => ⟨S900000x1, .i32⟩
  | .hbm, ⟨91, _⟩ => ⟨S900000x1, .i1⟩
  | .hbm, ⟨92, _⟩ => ⟨S1x1, .i32⟩
  | .hbm, ⟨93, _⟩ => ⟨S900000x1, .i32⟩
  | .hbm, ⟨94, _⟩ => ⟨S900000x1, .i1⟩
  | .hbm, ⟨95, _⟩ => ⟨S900000x1, .i1⟩
  | .hbm, ⟨96, _⟩ => ⟨S_, .i1⟩
  | .hbm, ⟨97, _⟩ => ⟨S900000, .i1⟩
  | .hbm, ⟨98, _⟩ => ⟨S900000x2, .f32⟩
  | .hbm, ⟨99, _⟩ => ⟨S900000x2, .i1⟩
  | .hbm, ⟨100, _⟩ => ⟨S_, .f32⟩
  | .hbm, ⟨101, _⟩ => ⟨S900000x2, .f32⟩
  | .hbm, ⟨102, _⟩ => ⟨S900000x2, .f32⟩
  | .hbm, ⟨103, _⟩ => ⟨S900000x1, .f32⟩
  | .hbm, ⟨104, _⟩ => ⟨S900000x2, .f32⟩
  | .hbm, ⟨105, _⟩ => ⟨S_, .f32⟩
  | .hbm, ⟨106, _⟩ => ⟨S100000x2, .f32⟩
  | .hbm, ⟨107, _⟩ => ⟨S900000x1, .i32⟩
  | .hbm, ⟨108, _⟩ => ⟨S100000x2, .f32⟩
  | .hbm, ⟨109, _⟩ => ⟨S1x2, .f32⟩
  | .hbm, ⟨110, _⟩ => ⟨S100000x2, .f32⟩
  | .hbm, ⟨111, _⟩ => ⟨S100000x1, .i32⟩
  | .hbm, ⟨112, _⟩ => ⟨S16x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S9000x128, .f32⟩
  | .local _ .vmem, ⟨6, _⟩ => ⟨S9000x128, .f32⟩
  | .local _ .vmem, ⟨7, _⟩ => ⟨S9000x1, .f32⟩
  | .local _ .vmem, ⟨8, _⟩ => ⟨S9000x1, .f32⟩
  | .local _ .vmem, ⟨9, _⟩ => ⟨S9000x128, .f32⟩
  | .local _ .vmem, ⟨10, _⟩ => ⟨S9000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x2, .f32⟩
  | .local _ .vmem, ⟨19, _⟩ => ⟨S10000x2, .f32⟩
  | .local _ .vmem, ⟨20, _⟩ => ⟨S10000x2, .f32⟩
  | .local _ .vmem, ⟨21, _⟩ => ⟨S9000x2, .f32⟩
  | .local _ .vmem, ⟨22, _⟩ => ⟨S9000x2, .f32⟩
  | .local _ .vmem, ⟨23, _⟩ => ⟨S9000x1, .f32⟩
  | .local _ .vmem, ⟨24, _⟩ => ⟨S9000x1, .f32⟩
  | .local _ .vmem, ⟨25, _⟩ => ⟨S9000x2, .f32⟩
  | .local _ .vmem, ⟨26, _⟩ => ⟨S9000x2, .f32⟩
  | .local _ .vmem, ⟨27, _⟩ => ⟨S10000x2, .f32⟩
  | .local _ .vmem, ⟨28, _⟩ => ⟨S10000x2, .f32⟩
  | .local _ .vmem, ⟨29, _⟩ => ⟨S1x2, .f32⟩
  | .local _ .vmem, ⟨30, _⟩ => ⟨S10000x2, .f32⟩
  | .local _ .vmem, ⟨31, _⟩ => ⟨S10000x2, .f32⟩
  | .local _ .vmem, ⟨32, _⟩ => ⟨S10000x2, .f32⟩
  | .local _ .vmem, ⟨33, _⟩ => ⟨S10000x2, .f32⟩
  | .local _ .vmem, ⟨34, _⟩ => ⟨S10000x1, .i32⟩
  | .local _ .vmem, ⟨35, _⟩ => ⟨S10000x1, .i32⟩
  | .local _ .vmem, ⟨36, _⟩ => ⟨S16x2, .f32⟩
  | .local _ .vmem, ⟨37, _⟩ => ⟨S16x2, .f32⟩
  | .local _ .vmem, ⟨38, _⟩ => ⟨S16x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_7 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_scratch0 : Ref sig .tc := ⟨.vmem, 37, rfl⟩
abbrev cc6_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S9000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S9000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S900000x1 : S_.BroadcastsInDim S900000x1 (![] : Fin 0 → Fin S900000x1.rank)
  bcast_S1_S1x1_1 : S1.BroadcastsInDim S1x1 (![1] : Fin 1 → Fin S1x1.rank)
  bcast_S1x1_S900000x1_0_1 : S1x1.BroadcastsInDim S900000x1 (![0, 1] : Fin 2 → Fin S900000x1.rank)
  reducesTo_S900000x1_S900000_d1 : S900000x1.ReducesTo [1] S900000
  h_S_ : 0 < S_.numel
  bcast_S900000_S900000x128_0 : S900000.BroadcastsInDim S900000x128 (![0] : Fin 1 → Fin S900000x128.rank)
  bcast_S_S900000x128 : S_.BroadcastsInDim S900000x128 (![] : Fin 0 → Fin S900000x128.rank)
  shapeCasts_S900000_S900000x1 : S900000.ShapeCasts S900000x1
  inb_S9000x128_S9000x128_0_0 : ∀ a, (![0, 0] : Fin 2 → Nat) a + S9000x128.size a ≤ S9000x128.size a
  h_S9000x128 : 0 < S9000x128.numel
  shapeCasts_S9000x128_S9000x128 : S9000x128.ShapeCasts S9000x128
  inb_S9000x1_S9000x1_0_0 : ∀ a, (![0, 0] : Fin 2 → Nat) a + S9000x1.size a ≤ S9000x1.size a
  h_S9000x1 : 0 < S9000x1.numel
  shapeCasts_S9000x1_S9000x1 : S9000x1.ShapeCasts S9000x1
  broadcasts_S9000x1_S9000x128 : S9000x1.Broadcasts S9000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  inb_S10000x2_S10000x2_0_0 : ∀ a, (![0, 0] : Fin 2 → Nat) a + S10000x2.size a ≤ S10000x2.size a
  h_S10000x2 : 0 < S10000x2.numel
  bcast_S900000_S900000x2_0 : S900000.BroadcastsInDim S900000x2 (![0] : Fin 1 → Fin S900000x2.rank)
  bcast_S_S900000x2 : S_.BroadcastsInDim S900000x2 (![] : Fin 0 → Fin S900000x2.rank)
  inb_S9000x2_S9000x2_0_0 : ∀ a, (![0, 0] : Fin 2 → Nat) a + S9000x2.size a ≤ S9000x2.size a
  h_S9000x2 : 0 < S9000x2.numel
  shapeCasts_S9000x2_S9000x2 : S9000x2.ShapeCasts S9000x2
  broadcasts_S9000x1_S9000x2 : S9000x1.Broadcasts S9000x2
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  shapeCasts_S100000_S100000x1 : S100000.ShapeCasts S100000x1
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x16_d1_w32 : S10000x16.Iotas .tc 32 [1]
  broadcasts_S10000x1_S10000x16 : S10000x1.Broadcasts S10000x16
  natLt_1_32 : 1 < 32
  broadcasts_S16x1_S16x2 : S16x1.Broadcasts S16x2
  reduces_S16x2_S16 : S16x2.Reduces [1] S16
  shapeCasts_S16_S16x1 : S16.ShapeCasts S16x1
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x128_S10000x128_1_0_0_1_n_n_wf : DotDims.WF S10000x128 S128x128 S10000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S10000x128_S128x2_S10000x2_1_0_0_1_n_n_wf : DotDims.WF S10000x128 S128x2 S10000x2 [1] [0] [0] [1] [] []
  gather_S100000x2_S900000x1_S900000x2_1_0_n_n_0_1_12_wf : GatherDims.WF S100000x2 S900000x1 S900000x2 [1] [0] [] [0] [] 1 ![1, 2]
  scatter_S100000x2_S900000x1_S900000x2_1_0_0_1_wf : ScatterDims.WF S100000x2 S900000x1 S900000x2 [1] [0] [0] 1
  dot_S10000x16_S10000x2_S16x2_0_0_1_1_n_n_wf : DotDims.WF S10000x16 S10000x2 S16x2 [0] [0] [1] [1] [] []
  dot_S10000x16_S10000x1_S16x1_0_0_1_1_n_n_wf : DotDims.WF S10000x16 S10000x1 S16x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9000x128.size a ≤ S900000x128.size a
  hwx1_0 : ∀ i : grid1.Coords, EltTy.bits .f32 = 32 ∨ (Rect.block (s := S900000x128) S9000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9000x1.size a ≤ S900000x1.size a
  hwx1_1 : ∀ i : grid1.Coords, EltTy.bits .f32 = 32 ∨ (Rect.block (s := S900000x1) S9000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9000x128.size a ≤ S900000x128.size a
  hwx1_2 : ∀ i : grid1.Coords, EltTy.bits .f32 = 32 ∨ (Rect.block (s := S900000x128) S9000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9000x2.size a ≤ S900000x2.size a
  hwx4_0 : ∀ i : grid4.Coords, EltTy.bits .f32 = 32 ∨ (Rect.block (s := S900000x2) S9000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S9000x1.size a ≤ S900000x1.size a
  hwx4_1 : ∀ i : grid4.Coords, EltTy.bits .f32 = 32 ∨ (Rect.block (s := S900000x1) S9000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S9000x2.size a ≤ S900000x2.size a
  hwx4_2 : ∀ i : grid4.Coords, EltTy.bits .f32 = 32 ∨ (Rect.block (s := S900000x2) S9000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x2.size a ≤ S100000x2.size a
  hwx6_0 : ∀ i : grid6.Coords, EltTy.bits .f32 = 32 ∨ (Rect.block (s := S100000x2) S10000x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x2.size a ≤ S16x2.size a
  hwx6_2 : ∀ i : grid6.Coords, EltTy.bits .f32 = 32 ∨ (Rect.block (s := S16x2) S16x2.size (cc6_transform_2 i) (hinb6_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S100000x2_S900000x1_S900000x2_1_0_n_n_0_1_12 : GatherDims S100000x2 S900000x1 S900000x2 where
  offsetDims := [1]
  collapsedSliceDims := [0]
  operandBatchingDims := []
  startIndicesBatchingDims := []
  startIndexMap := [0]
  indexVectorDim := 1
  sliceSizes := ![1, 2]
  wf := gather_S100000x2_S900000x1_S900000x2_1_0_n_n_0_1_12_wf
def scatter_S100000x2_S900000x1_S900000x2_1_0_0_1 : ScatterDims S100000x2 S900000x1 S900000x2 where
  updateWindowDims := [1]
  insertedWindowDims := [0]
  scatterDimsToOperandDims := [0]
  indexVectorDim := 1
  wf := scatter_S100000x2_S900000x1_S900000x2_1_0_0_1_wf
def dot_S10000x16_S10000x2_S16x2_0_0_1_1_n_n : DotDims S10000x16 S10000x2 S16x2 where
  lhsContracting := [0]
  rhsContracting := [0]
  lhsNonContracting := [1]
  rhsNonContracting := [1]
  lhsBatch := []
  rhsBatch := []
  wf := dot_S10000x16_S10000x2_S16x2_0_0_1_1_n_n_wf
def dot_S10000x16_S10000x1_S16x1_0_0_1_1_n_n : DotDims S10000x16 S10000x1 S16x1 where
  lhsContracting := [0]
  rhsContracting := [0]
  lhsNonContracting := [1]
  rhsNonContracting := [1]
  lhsBatch := []
  rhsBatch := []
  wf := dot_S10000x16_S10000x1_S16x1_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S9000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S9000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S9000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S9000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S9000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S9000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S10000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v48) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v49) S16x2.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x2 : Shape := ⟨2, ![100000, 2]⟩
abbrev S900000x2 : Shape := ⟨2, ![900000, 2]⟩
abbrev S1x2 : Shape := ⟨2, ![1, 2]⟩
abbrev S16x2 : Shape := ⟨2, ![16, 2]⟩
abbrev S100000x1 : Shape := ⟨2, ![100000, 1]⟩
abbrev S16 : Shape := ⟨1, ![16]⟩
abbrev S16x1 : Shape := ⟨2, ![16, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S100000x128, .f32⟩
  | .hbm, ⟨48, _⟩ => ⟨S_, .i32⟩
  | .hbm, ⟨49, _⟩ => ⟨S900000, .i32⟩
  | .hbm, ⟨50, _⟩ => ⟨S900000, .i1⟩
  | .hbm, ⟨51, _⟩ => ⟨S_, .i32⟩
  | .hbm, ⟨52, _⟩ => ⟨S900000, .i32⟩
  | .hbm, ⟨53, _⟩ => ⟨S900000, .i32⟩
  | .hbm, ⟨54, _⟩ => ⟨S900000, .i32⟩
  | .hbm, ⟨55, _⟩ => ⟨S900000x1, .i32⟩
  | .hbm, ⟨56, _⟩ => ⟨S900000x128, .f32⟩
  | .hbm, ⟨57, _⟩ => ⟨S900000x1, .f32⟩
  | .hbm, ⟨58, _⟩ => ⟨S900000x128, .f32⟩
  | .hbm, ⟨59, _⟩ => ⟨S900000x128, .f32⟩
  | .hbm, ⟨60, _⟩ => ⟨S_, .f32⟩
  | .hbm, ⟨61, _⟩ => ⟨S100000x128, .f32⟩
  | .hbm, ⟨62, _⟩ => ⟨S900000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x2, .f32⟩
  | .hbm, ⟨71, _⟩ => ⟨S_, .i32⟩
  | .hbm, ⟨72, _⟩ => ⟨S900000, .i32⟩
  | .hbm, ⟨73, _⟩ => ⟨S900000, .i1⟩
  | .hbm, ⟨74, _⟩ => ⟨S_, .i32⟩
  | .hbm, ⟨75, _⟩ => ⟨S900000, .i32⟩
  | .hbm, ⟨76, _⟩ => ⟨S900000, .i32⟩
  | .hbm, ⟨77, _⟩ => ⟨S900000, .i32⟩
  | .hbm, ⟨78, _⟩ => ⟨S900000x1, .i32⟩
  | .hbm, ⟨79, _⟩ => ⟨S900000x2, .f32⟩
  | .hbm, ⟨80, _⟩ => ⟨S900000x1, .f32⟩
  | .hbm, ⟨81, _⟩ => ⟨S900000x2, .f32⟩
  | .hbm, ⟨82, _⟩ => ⟨S900000x2, .f32⟩
  | .hbm, ⟨83, _⟩ => ⟨S_, .f32⟩
  | .hbm, ⟨84, _⟩ => ⟨S100000x2, .f32⟩
  | .hbm, ⟨85, _⟩ => ⟨S900000x1, .i32⟩
  | .hbm, ⟨86, _⟩ => ⟨S100000x2, .f32⟩
  | .hbm, ⟨87, _⟩ => ⟨S1x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S16x2, .f32⟩
  | .hbm, ⟨92, _⟩ => ⟨S100000x1, .i32⟩
  | .hbm, ⟨93, _⟩ => ⟨S16x2, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S16, .f32⟩
  | .hbm, ⟨98, _⟩ => ⟨S100000x1, .i32⟩
  | .hbm, ⟨99, _⟩ => ⟨S16, .f32⟩
  | .hbm, ⟨100, _⟩ => ⟨S_, .f32⟩
  | .hbm, ⟨101, _⟩ => ⟨S16, .f32⟩
  | .hbm, ⟨102, _⟩ => ⟨S16, .f32⟩
  | .hbm, ⟨103, _⟩ => ⟨S16x1, .f32⟩
  | .hbm, ⟨104, _⟩ => ⟨S16x2, .f32⟩
  | .hbm, ⟨105, _⟩ => ⟨S16x2, .f32⟩
  | .hbm, ⟨106, _⟩ => ⟨S_, .f32⟩
  | .hbm, ⟨107, _⟩ => ⟨S16, .f32⟩
  | .hbm, ⟨108, _⟩ => ⟨S_, .f32⟩
  | .hbm, ⟨109, _⟩ => ⟨S16, .f32⟩
  | .hbm, ⟨110, _⟩ => ⟨S16, .f32⟩
  | .hbm, ⟨111, _⟩ => ⟨S16x1, .f32⟩
  | .hbm, ⟨112, _⟩ => ⟨S16x2, .f32⟩
  | .hbm, ⟨113, _⟩ => ⟨S16x2, .f32⟩
  | .hbm, ⟨114, _⟩ => ⟨S16x2, .f32⟩
  | .hbm, ⟨115, _⟩ => ⟨S_, .f32⟩
  | .hbm, ⟨116, _⟩ => ⟨S16, .f32⟩
  | .hbm, ⟨117, _⟩ => ⟨S16x1, .f32⟩
  | .hbm, ⟨118, _⟩ => ⟨S16x1, .f32⟩
  | .hbm, ⟨119, _⟩ => ⟨S16x2, .f32⟩
  | .hbm, ⟨120, _⟩ => ⟨S16x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_v77 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x2_0_1 : S900000x1.BroadcastsInDim S900000x2 (![0, 1] : Fin 2 → Fin S900000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S16x2 : S_.BroadcastsInDim S16x2 (![] : Fin 0 → Fin S16x2.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x2_0_1 : S16x1.BroadcastsInDim S16x2 (![0, 1] : Fin 2 → Fin S16x2.rank)
  reducesTo_S16x2_S16_d1 : S16x2.ReducesTo [1] S16
  h_S_ : 0 < S_.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x2_S100000x2_1_0_0_1_n_n_wf : DotDims.WF S100000x128 S128x2 S100000x2 [1] [0] [0] [1] [] []
  gather_S100000x2_S900000x1_S900000x2_1_0_n_n_0_1_12_wf : GatherDims.WF S100000x2 S900000x1 S900000x2 [1] [0] [] [0] [] 1 ![1, 2]
  scatter_S100000x2_S900000x1_S900000x2_1_0_0_1_wf : ScatterDims.WF S100000x2 S900000x1 S900000x2 [1] [0] [0] 1
  scatter_S16x2_S100000x1_S100000x2_1_0_0_1_wf : ScatterDims.WF S16x2 S100000x1 S100000x2 [1] [0] [0] 1
  scatter_S16_S100000x1_S100000_n_0_0_1_wf : ScatterDims.WF S16 S100000x1 S100000 [] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S900000x1_S900000x2_1_0_n_n_0_1_12 : GatherDims S100000x2 S900000x1 S900000x2 where
  offsetDims := [1]
  collapsedSliceDims := [0]
  operandBatchingDims := []
  startIndicesBatchingDims := []
  startIndexMap := [0]
  indexVectorDim := 1
  sliceSizes := ![1, 2]
  wf := gather_S100000x2_S900000x1_S900000x2_1_0_n_n_0_1_12_wf
def scatter_S100000x2_S900000x1_S900000x2_1_0_0_1 : ScatterDims S100000x2 S900000x1 S900000x2 where
  updateWindowDims := [1]
  insertedWindowDims := [0]
  scatterDimsToOperandDims := [0]
  indexVectorDim := 1
  wf := scatter_S100000x2_S900000x1_S900000x2_1_0_0_1_wf
def scatter_S16x2_S100000x1_S100000x2_1_0_0_1 : ScatterDims S16x2 S100000x1 S100000x2 where
  updateWindowDims := [1]
  insertedWindowDims := [0]
  scatterDimsToOperandDims := [0]
  indexVectorDim := 1
  wf := scatter_S16x2_S100000x1_S100000x2_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

class Facts : Prop extends Facts₀ where

variable [Facts]
-- ==== Proof.KB.Reg0.lean ====
/-
  Kernel region 0 of the program (the call of cc0__matmul_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whether the point fetched it or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rin0_0 : Rect S10000x128 := Rect.unit (s := S10000x128) ![0, 0] S10000x128.size inb_S10000x128_S10000x128_0_0
abbrev rin0_1 : Rect S128x128 := Rect.unit (s := S128x128) ![0, 0] S128x128.size inb_S128x128_S128x128_0_0
abbrev rout0 : Rect S10000x128 := Rect.unit (s := S10000x128) ![0, 0] S10000x128.size inb_S10000x128_S10000x128_0_0

/-- The output's staging buffer after the body: one store, of the body's value of the two loaded blocks. -/
def out0_2 (x0 : Vec F S10000x128 .f32) (x1 : Vec F S128x128 .f32) : Vec F S10000x128 .f32 :=
  View.canon [⟨rout0, k0_pay1 (View.ld x0 rin0_0) (View.ld x1 rin0_1)⟩]

/-- The one store covers the buffer. -/
theorem cover0_2 (p0 : Vec F S10000x128 .f32) (y : S10000x128.Idx) :
    ∃ pc ∈ ([⟨rout0, p0⟩] : List (View.Piece (Elt F) S10000x128 .f32)), y ∈ pc.1.set :=
  View.cover_of_tiled [⟨rout0, p0⟩] S10000x128.size (by rfl) y

set_option maxHeartbeats 1000000 in
/-- The body on whole staging memrefs: the inputs at contents x0, x1 and the output at anything run to the inputs
    as they were and the output at the value above. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body at a point each input's
    buffer at its block and the output's at the body's value of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Reg1.lean ====
/-
  Kernel region 1 of the program (the call of cc1__scale_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether the point fetched it or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rin1_0 : Rect S9000x128 := Rect.unit (s := S9000x128) ![0, 0] S9000x128.size inb_S9000x128_S9000x128_0_0
abbrev rin1_1 : Rect S9000x1 := Rect.unit (s := S9000x1) ![0, 0] S9000x1.size inb_S9000x1_S9000x1_0_0
abbrev rout1 : Rect S9000x128 := Rect.unit (s := S9000x128) ![0, 0] S9000x128.size inb_S9000x128_S9000x128_0_0

/-- The output's staging buffer after the body: one store, of the body's value of the two loaded blocks. -/
def out1_2 (x0 : Vec F S9000x128 .f32) (x1 : Vec F S9000x1 .f32) : Vec F S9000x128 .f32 :=
  View.canon [⟨rout1, k1_pay1 (View.ld x0 rin1_0) (View.ld x1 rin1_1)⟩]

/-- The one store covers the buffer. -/
theorem cover1_2 (p0 : Vec F S9000x128 .f32) (y : S9000x128.Idx) :
    ∃ pc ∈ ([⟨rout1, p0⟩] : List (View.Piece (Elt F) S9000x128 .f32)), y ∈ pc.1.set :=
  View.cover_of_tiled [⟨rout1, p0⟩] S9000x128.size (by rfl) y

set_option maxHeartbeats 1000000 in
/-- The body on whole staging memrefs: the inputs at contents x0, x1 and the output at anything run to the inputs
    as they were and the output at the value above. -/
theorem sound_kernel1 (c : Dev nD) (E : Set ℕ) (i : grid1.Coords) (arg1 : Memref sig .tc .vmem S9000x128 .f32) (harg1 : arg1.IsWhole)
    (arg2 : Memref sig .tc .vmem S9000x1 .f32) (harg2 : arg2.IsWhole) (arg3 : Memref sig .tc .vmem S9000x128 .f32) (harg3 : arg3.IsWhole)
    (x0 : Vec F S9000x128 .f32) (x1 : Vec F S9000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at a point each input's
    buffer at its block and the output's at the body's value of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Reg2.lean ====
/-
  Kernel region 2 of the program (the call of cc2__bias_act_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether the point fetched it or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rin2_0 : Rect S10000x128 := Rect.unit (s := S10000x128) ![0, 0] S10000x128.size inb_S10000x128_S10000x128_0_0
abbrev rin2_1 : Rect S1x128 := Rect.unit (s := S1x128) ![0, 0] S1x128.size inb_S1x128_S1x128_0_0
abbrev rout2 : Rect S10000x128 := Rect.unit (s := S10000x128) ![0, 0] S10000x128.size inb_S10000x128_S10000x128_0_0

/-- The output's staging buffer after the body: one store, of the body's value of the two loaded blocks. -/
def out2_2 (x0 : Vec F S10000x128 .f32) (x1 : Vec F S1x128 .f32) : Vec F S10000x128 .f32 :=
  View.canon [⟨rout2, k2_pay1 (View.ld x0 rin2_0) (View.ld x1 rin2_1)⟩]

/-- The one store covers the buffer. -/
theorem cover2_2 (p0 : Vec F S10000x128 .f32) (y : S10000x128.Idx) :
    ∃ pc ∈ ([⟨rout2, p0⟩] : List (View.Piece (Elt F) S10000x128 .f32)), y ∈ pc.1.set :=
  View.cover_of_tiled [⟨rout2, p0⟩] S10000x128.size (by rfl) y

set_option maxHeartbeats 1000000 in
/-- The body on whole staging memrefs: the inputs at contents x0, x1 and the output at anything run to the inputs
    as they were and the output at the value above. -/
theorem sound_kernel2 (c : Dev nD) (E : Set ℕ) (i : grid2.Coords) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core c: the arrays as the region finds them; after the body at a point each input's
    buffer at its block and the output's at the body's value of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KB.Reg3.lean ====
/-
  Kernel region 3 of the program (the call of cc3__matmul_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, whether the point fetched it or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rin3_0 : Rect S10000x128 := Rect.unit (s := S10000x128) ![0, 0] S10000x128.size inb_S10000x128_S10000x128_0_0
abbrev rin3_1 : Rect S128x2 := Rect.unit (s := S128x2) ![0, 0] S128x2.size inb_S128x2_S128x2_0_0
abbrev rout3 : Rect S10000x2 := Rect.unit (s := S10000x2) ![0, 0] S10000x2.size inb_S10000x2_S10000x2_0_0

/-- The output's staging buffer after the body: one store, of the body's value of the two loaded blocks. -/
def out3_2 (x0 : Vec F S10000x128 .f32) (x1 : Vec F S128x2 .f32) : Vec F S10000x2 .f32 :=
  View.canon [⟨rout3, k3_pay1 (View.ld x0 rin3_0) (View.ld x1 rin3_1)⟩]

/-- The one store covers the buffer. -/
theorem cover3_2 (p0 : Vec F S10000x2 .f32) (y : S10000x2.Idx) :
    ∃ pc ∈ ([⟨rout3, p0⟩] : List (View.Piece (Elt F) S10000x2 .f32)), y ∈ pc.1.set :=
  View.cover_of_tiled [⟨rout3, p0⟩] S10000x2.size (by rfl) y

set_option maxHeartbeats 1000000 in
/-- The body on whole staging memrefs: the inputs at contents x0, x1 and the output at anything run to the inputs
    as they were and the output at the value above. -/
theorem sound_kernel3 (c : Dev nD) (E : Set ℕ) (i : grid3.Coords) (arg1 : Memref sig .tc .vmem S10000x128 .f32) (harg1 : arg1.IsWhole)
    (arg2 : Memref sig .tc .vmem S128x2 .f32) (harg2 : arg2.IsWhole) (arg3 : Memref sig .tc .vmem S10000x2 .f32) (harg3 : arg3.IsWhole)
    (x0 : Vec F S10000x128 .f32) (x1 : Vec F S128x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core c: the arrays as the region finds them; after the body at a point each input's
    buffer at its block and the output's at the body's value of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KB.Reg4.lean ====
/-
  Kernel region 4 of the program (the call of cc4__scale_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point, whether the point fetched it or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input's staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rin4_0 : Rect S9000x2 := Rect.unit (s := S9000x2) ![0, 0] S9000x2.size inb_S9000x2_S9000x2_0_0
abbrev rin4_1 : Rect S9000x1 := Rect.unit (s := S9000x1) ![0, 0] S9000x1.size inb_S9000x1_S9000x1_0_0
abbrev rout4 : Rect S9000x2 := Rect.unit (s := S9000x2) ![0, 0] S9000x2.size inb_S9000x2_S9000x2_0_0

/-- The output's staging buffer after the body: one store, of the body's value of the two loaded blocks. -/
def out4_2 (x0 : Vec F S9000x2 .f32) (x1 : Vec F S9000x1 .f32) : Vec F S9000x2 .f32 :=
  View.canon [⟨rout4, k4_pay1 (View.ld x0 rin4_0) (View.ld x1 rin4_1)⟩]

/-- The one store covers the buffer. -/
theorem cover4_2 (p0 : Vec F S9000x2 .f32) (y : S9000x2.Idx) :
    ∃ pc ∈ ([⟨rout4, p0⟩] : List (View.Piece (Elt F) S9000x2 .f32)), y ∈ pc.1.set :=
  View.cover_of_tiled [⟨rout4, p0⟩] S9000x2.size (by rfl) y

set_option maxHeartbeats 1000000 in
/-- The body on whole staging memrefs: the inputs at contents x0, x1 and the output at anything run to the inputs
    as they were and the output at the value above. -/
theorem sound_kernel4 (c : Dev nD) (E : Set ℕ) (i : grid4.Coords) (arg1 : Memref sig .tc .vmem S9000x2 .f32) (harg1 : arg1.IsWhole)
    (arg2 : Memref sig .tc .vmem S9000x1 .f32) (harg2 : arg2.IsWhole) (arg3 : Memref sig .tc .vmem S9000x2 .f32) (harg3 : arg3.IsWhole)
    (x0 : Vec F S9000x2 .f32) (x1 : Vec F S9000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core c: the arrays as the region finds them; after the body at a point each input's
    buffer at its block and the output's at the body's value of the two blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Reg5.lean ====
/-
  Kernel region 5 of the program (the call of cc5__bias_act_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The first input's staging buffer holds its block at every point, whether the point fetched it or kept it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The second input's staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev rin5_0 : Rect S10000x2 := Rect.unit (s := S10000x2) ![0, 0] S10000x2.size inb_S10000x2_S10000x2_0_0
abbrev rin5_1 : Rect S1x2 := Rect.unit (s := S1x2) ![0, 0] S1x2.size inb_S1x2_S1x2_0_0
abbrev rout5 : Rect S10000x2 := Rect.unit (s := S10000x2) ![0, 0] S10000x2.size inb_S10000x2_S10000x2_0_0

/-- The output's staging buffer after the body: one store, of the body's value of the two loaded blocks. -/
def out5_2 (x0 : Vec F S10000x2 .f32) (x1 : Vec F S1x2 .f32) : Vec F S10000x2 .f32 :=
  View.canon [⟨rout5, k5_pay1 (View.ld x0 rin5_0) (View.ld x1 rin5_1)⟩]

/-- The one store covers the buffer. -/
theorem cover5_2 (p0 : Vec F S10000x2 .f32) (y : S10000x2.Idx) :
    ∃ pc ∈ ([⟨rout5, p0⟩] : List (View.Piece (Elt F) S10000x2 .f32)), y ∈ pc.1.set :=
  View.cover_of_tiled [⟨rout5, p0⟩] S10000x2.size (by rfl) y

set_option maxHeartbeats 1000000 in
/-- The body on whole staging memrefs: the inputs at contents x0, x1 and the output at anything run to the inputs
    as they were and the output at the value above. -/
theorem sound_kernel5 (c : Dev nD) (E : Set ℕ) (i : grid5.Coords) (arg1 : Memref sig .tc .vmem S10000x2 .f32) (harg1 : arg1.IsWhole)
    (arg2 : Memref sig .tc .vmem S1x2 .f32) (harg2 : arg2.IsWhole) (arg3 : Memref sig .tc .vmem S10000x2 .f32) (harg3 : arg3.IsWhole)
    (x0 : Vec F S10000x2 .f32) (x1 : Vec F S1x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core c: the arrays as the region finds them; after the body at a point each input's
    buffer at its block and the output's at the body's value of the two blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KB.Reg6.lean ====
/-
  Kernel region 6 of the program (the call of cc6__pool_kernel): the half of its frame that concerns the body.
  The grid has ten points. The body keeps two running values in the call's two scratch buffers: at the first point it
  zeroes both; at every point it loads the point's two input blocks and folds them into the two buffers; at the last
  point it stores one value of the two buffers over the output block. So the scratch buffers after point t hold the
  fold of the first t + 1 pairs of blocks from zero, the invariant between points carries them at that, and the
  output's staging buffer, idle at every point but the last, holds after the last point the value of the two full folds.
-/
import proofs.«424645_j84567906058949_2_alg».proof.Proof.Gen.Kernel.Launch
import proofs.«424645_j84567906058949_2_alg».proof.Proof.Gen.Kernel.Skeleton
import proofs.«424645_j84567906058949_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem lt_N6 {n : ℕ} (h : n < 10) : n < cfg6.N := by rw [show cfg6.N = 10 from N_6]; exact h

/-- The first running value before point n: zero, then each point's pair of blocks folded in. -/
def sums6 (c : Dev nD) : ℕ → Vec F S16x2 .f32
  | 0 => k6_pay1
  | n + 1 => if h : n < 10 then k6_pay4 (iblk6 V c 1 ⟨n, lt_N6 h⟩) (iblk6 V c 0 ⟨n, lt_N6 h⟩) (sums6 c n) else sums6 c n

/-- The second running value before point n. -/
def cnts6 (c : Dev nD) : ℕ → Vec F S16x1 .f32
  | 0 => k6_pay2
  | n + 1 => if h : n < 10 then k6_pay5 (iblk6 V c 1 ⟨n, lt_N6 h⟩) (cnts6 c n) else cnts6 c n

theorem sums6_zero (c : Dev nD) : sums6 V c 0 = k6_pay1 := rfl
theorem cnts6_zero (c : Dev nD) : cnts6 V c 0 = k6_pay2 := rfl

theorem sums6_succ (c : Dev nD) (n : ℕ) (h : n < 10) :
    sums6 V c (n + 1) = k6_pay4 (iblk6 V c 1 ⟨n, lt_N6 h⟩) (iblk6 V c 0 ⟨n, lt_N6 h⟩) (sums6 V c n) := by
  rw [sums6, dif_pos h]

theorem cnts6_succ (c : Dev nD) (n : ℕ) (h : n < 10) :
    cnts6 V c (n + 1) = k6_pay5 (iblk6 V c 1 ⟨n, lt_N6 h⟩) (cnts6 V c n) := by
  rw [cnts6, dif_pos h]

/-- The two scratch buffers before point n: at anything before the first, then at the two running values. -/
def scr6 (c : Dev nD) (n : ℕ) : sProp 𝕄 :=
  if n = 0 then
    iprop((∃ f : Buf (Elt F) ((c : Thread nD τ).loc cc6_scratch0), ((c : Thread nD τ).loc cc6_scratch0) ↦{fullShare} f)
      ∗ (∃ f : Buf (Elt F) ((c : Thread nD τ).loc cc6_scratch1), ((c : Thread nD τ).loc cc6_scratch1) ↦{fullShare} f))
  else
    iprop(owns (c : Thread nD τ) (Memref.whole cc6_scratch0 : Memref sig .tc .vmem S16x2 .f32) fullShare (sums6 V c n)
      ∗ owns (c : Thread nD τ) (Memref.whole cc6_scratch1 : Memref sig .tc .vmem S16x1 .f32) fullShare (cnts6 V c n))

/-- The invariant before point t: the scratch buffers as above, every other scoped buffer unopened, the generator register. -/
def Φ6 (c : Dev nD) (t : Fin (cfg6.N + 1)) : sProp 𝕄 :=
  iprop(scr6 V c t.val
    ∗ Pipeline.scopedRestBut (Ix := Unit) (Name := ℕ) (U := UR sig nD τ) (Lvl := ℕ) (Val := Elt F) spec6 c [cc6_scratch0, cc6_scratch1]
    ∗ ∃ r, prngReg c r)

/-- The region's proof data on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay6 (sums6 V c 10) (cnts6 V c 10)
  Φ t := Φ6 V c t
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay6 (sums6 V c 10) (cnts6 V c 10) := by dsimp only [dat6]
theorem owed6 (c : Dev nD) (t : Fin (cfg6.N + 1)) : (dat6 V c).owed t = 0 := by dsimp only [dat6]
theorem Φ_eq6 (c : Dev nD) (t : Fin (cfg6.N + 1)) : (dat6 V c).Φ t = Φ6 V c t := by dsimp only [dat6]

theorem sums6_zero' (c : Dev nD) {n : ℕ} (h : n = 0) : sums6 V c n = k6_pay1 := by subst h; rfl
theorem cnts6_zero' (c : Dev nD) {n : ℕ} (h : n = 0) : cnts6 V c n = k6_pay2 := by subst h; rfl

/-- The condition of the body's first conditional, from the grid coordinates. -/
abbrev cond6_1 (i : grid6.Coords) : Prop :=
  (Scalar.cmpi .ne (Scalar.extui (Scalar.cmpi .eq (BitVec.ofNat 32 (i 0).val) 0#32)) 0#32) = 1#1

/-- It holds at the first point only. -/
theorem hcond6_1 : ∀ t : Fin cfg6.N, cond6_1 (grid6.coords t) ↔ t.val = 0 :=
  (by decide +kernel : ∀ t : Fin grid6.N, cond6_1 (grid6.coords t) ↔ t.val = 0)

/-- The second conditional's holds at the last point only. -/
theorem hcond6_2 : ∀ t : Fin cfg6.N, k6_cond2 (grid6.coords t) = 1#1 ↔ t.val = 9 :=
  (by decide +kernel : ∀ t : Fin grid6.N, k6_cond2 (grid6.coords t) = 1#1 ↔ t.val = 9)

/-- The output window is idle at every point but the last. -/
theorem hidle6_2 : ∀ t : Fin cfg6.N, cfg6.idle 2 (cfg6.grid.coords t) = !decide (t.val = 9) :=
  (by decide +kernel : ∀ t : Fin grid6.N, idle6 2 (grid6.coords t) = !decide (t.val = 9))

theorem zeros2 : (![0, 0] : Fin 2 → ℕ) = fun _ => 0 := by funext a; fin_cases a <;> rfl

/-- The whole-block rectangles the body loads and stores through. -/
abbrev rh6 : Rect S10000x2 := Rect.unit (s := S10000x2) ![0, 0] S10000x2.size inb_S10000x2_S10000x2_0_0
abbrev rb6 : Rect S10000x1 := Rect.unit (s := S10000x1) ![0, 0] S10000x1.size inb_S10000x1_S10000x1_0_0
abbrev rs6 : Rect S16x2 := Rect.unit (s := S16x2) ![0, 0] S16x2.size inb_S16x2_S16x2_0_0
abbrev rc6 : Rect S16x1 := Rect.unit (s := S16x1) ![0, 0] S16x1.size inb_S16x1_S16x1_0_0

/-- A load through a whole-block rectangle reads the buffer's contents. -/
theorem ldh6 (v : View sig .tc .vmem S10000x2 .f32) (f : v.ty.Contents (Elt F)) :
    View.readAt (Elt F) v rh6.toLoadRect f = View.read (Elt F) v f :=
  (View.readAt_eq_ld v f rh6).trans (View.ld_unit_zero (S := S10000x2) zeros2 inb_S10000x2_S10000x2_0_0 (View.read (Elt F) v f))
theorem ldb6 (v : View sig .tc .vmem S10000x1 .i32) (f : v.ty.Contents (Elt F)) :
    View.readAt (Elt F) v rb6.toLoadRect f = View.read (Elt F) v f :=
  (View.readAt_eq_ld v f rb6).trans (View.ld_unit_zero (S := S10000x1) zeros2 inb_S10000x1_S10000x1_0_0 (View.read (Elt F) v f))
theorem lds6 (v : View sig .tc .vmem S16x2 .f32) (f : v.ty.Contents (Elt F)) :
    View.readAt (Elt F) v rs6.toLoadRect f = View.read (Elt F) v f :=
  (View.readAt_eq_ld v f rs6).trans (View.ld_unit_zero (S := S16x2) zeros2 inb_S16x2_S16x2_0_0 (View.read (Elt F) v f))
theorem ldc6 (v : View sig .tc .vmem S16x1 .f32) (f : v.ty.Contents (Elt F)) :
    View.readAt (Elt F) v rc6.toLoadRect f = View.read (Elt F) v f :=
  (View.readAt_eq_ld v f rc6).trans (View.ld_unit_zero (S := S16x1) zeros2 inb_S16x1_S16x1_0_0 (View.read (Elt F) v f))

/-- A whole-block store, last, leaves its payload, whatever came before; read back at once it reads the payload. -/
theorem sts6 (v : View sig .tc .vmem S16x2 .f32) (f : v.ty.Contents (Elt F)) (w : Vec F S16x2 .f32) (L : List (View.Piece (Elt F) S16x2 .f32)) :
    View.read (Elt F) v (v.writes (Elt F) f (⟨rs6, w⟩ :: L)) = w := by
  have hc : ∀ y : S16x2.Idx, ∃ p ∈ ((⟨rs6, w⟩ : View.Piece (Elt F) S16x2 .f32) :: L), y ∈ p.1.set :=
    fun y => ⟨⟨rs6, w⟩, List.mem_cons.mpr (Or.inl rfl), View.mem_set_unit_zero (S := S16x2) zeros2 inb_S16x2_S16x2_0_0 y⟩
  rw [View.read_writes_eq_canon v f _ hc, View.canon_cons_unit_zero (S := S16x2) zeros2]
theorem stc6 (v : View sig .tc .vmem S16x1 .f32) (f : v.ty.Contents (Elt F)) (w : Vec F S16x1 .f32) (L : List (View.Piece (Elt F) S16x1 .f32)) :
    View.read (Elt F) v (v.writes (Elt F) f (⟨rc6, w⟩ :: L)) = w := by
  have hc : ∀ y : S16x1.Idx, ∃ p ∈ ((⟨rc6, w⟩ : View.Piece (Elt F) S16x1 .f32) :: L), y ∈ p.1.set :=
    fun y => ⟨⟨rc6, w⟩, List.mem_cons.mpr (Or.inl rfl), View.mem_set_unit_zero (S := S16x1) zeros2 inb_S16x1_S16x1_0_0 y⟩
  rw [View.read_writes_eq_canon v f _ hc, View.canon_cons_unit_zero (S := S16x1) zeros2]
theorem rcs6 (v : View sig .tc .vmem S16x2 .f32) (w : Vec F S16x2 .f32) :
    v.readCov [(⟨rs6, w⟩ : View.Piece (Elt F) S16x2 .f32)] rs6.toLoadRect = w := View.readCov_unit_zero (S := S16x2) v zeros2 _ w
theorem rcc6 (v : View sig .tc .vmem S16x1 .f32) (w : Vec F S16x1 .f32) :
    v.readCov [(⟨rc6, w⟩ : View.Piece (Elt F) S16x1 .f32)] rc6.toLoadRect = w := View.readCov_unit_zero (S := S16x1) v zeros2 _ w

set_option maxHeartbeats 1000000 in
/-- The body at the first point: the scratch buffers, at anything, are zeroed and the point's blocks folded in;
    the output's buffer is not touched. -/
theorem sound_kernel6_first (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : cond6_1 i) (h2 : ¬ k6_cond2 i = 1#1)
    (x0 : Vec F S10000x2 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg4 fullShare (k6_pay4 x1 x0 k6_pay1)
            ∗ owns (c : Thread nD τ) arg5 fullShare (k6_pay5 x1 k6_pay2)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [sts6, rcs6, ldb6, ldh6]
  iexists _; isplitr
  swap; · iexact H5
  ipureintro
  sl_unfold_run_names
  rw [stc6, rcc6, ldb6]

set_option maxHeartbeats 1000000 in
/-- The body at a point neither first nor last: the point's blocks are folded into the scratch buffers. -/
theorem sound_kernel6_mid (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : ¬ cond6_1 i) (h2 : ¬ k6_cond2 i = 1#1)
    (x0 : Vec F S10000x2 .f32) (x1 : Vec F S10000x1 .i32) (s : Vec F S16x2 .f32) (n : Vec F S16x1 .f32) (K : PUnit → sProp 𝕄) :
    iprop(owns (c : Thread nD τ) arg1 fullShare x0 ∗ owns (c : Thread nD τ) arg2 fullShare x1
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg4 fullShare (k6_pay4 x1 x0 s)
            ∗ owns (c : Thread nD τ) arg5 fullShare (k6_pay5 x1 n)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [sts6, lds6, ldb6, ldh6]
  iexists _; isplitr
  swap; · iexact H5
  ipureintro
  sl_unfold_run_names
  rw [stc6, ldc6, ldb6]

set_option maxHeartbeats 1000000 in
/-- The body at the last point: the point's blocks are folded into the scratch buffers and the output's buffer,
    at anything, is stored whole with the value of the two. -/
theorem sound_kernel6_last (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : ¬ cond6_1 i) (h2 : k6_cond2 i = 1#1)
    (x0 : Vec F S10000x2 .f32) (x1 : Vec F S10000x1 .i32) (s : Vec F S16x2 .f32) (n : Vec F S16x1 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (k6_pay6 (k6_pay4 x1 x0 s) (k6_pay5 x1 n))
            ∗ owns (c : Thread nD τ) arg4 fullShare (k6_pay4 x1 x0 s)
            ∗ owns (c : Thread nD τ) arg5 fullShare (k6_pay5 x1 n)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [sts6, rcs6, rcc6, lds6, ldc6, ldb6, ldh6]
  isplitl [H4]
  · iexists _; isplitr
    swap; · iexact H4
    ipureintro
    sl_unfold_run_names
    rw [sts6, lds6, ldb6, ldh6]
  iexists _; isplitr
  swap; · iexact H5
  ipureintro
  sl_unfold_run_names
  rw [stc6, ldc6, ldb6]

/-- The first input's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The second input's staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- The running values after point t, from those before it. -/
theorem sums6_at (c : Dev nD) (t : Fin cfg6.N) :
    sums6 V c (t.val + 1) = k6_pay4 (iblk6 V c 1 t) (iblk6 V c 0 t) (sums6 V c t.val) :=
  sums6_succ V c t.val (lt_of_lt_of_eq t.isLt (show cfg6.N = 10 from N_6))
theorem cnts6_at (c : Dev nD) (t : Fin cfg6.N) :
    cnts6 V c (t.val + 1) = k6_pay5 (iblk6 V c 1 t) (cnts6 V c t.val) :=
  cnts6_succ V c t.val (lt_of_lt_of_eq t.isLt (show cfg6.N = 10 from N_6))

theorem scr6_zero (c : Dev nD) {n : ℕ} (h : n = 0) : scr6 V c n =
    iprop((∃ d, owns (c : Thread nD τ) (Memref.whole cc6_scratch0 : Memref sig .tc .vmem S16x2 .f32) fullShare d)
      ∗ (∃ d, owns (c : Thread nD τ) (Memref.whole cc6_scratch1 : Memref sig .tc .vmem S16x1 .f32) fullShare d)) := by
  subst h; unfold scr6; rw [if_pos rfl]; simp only [owns_whole]

theorem scr6_pos (c : Dev nD) {n : ℕ} (h : n ≠ 0) : scr6 V c n =
    iprop(owns (c : Thread nD τ) (Memref.whole cc6_scratch0 : Memref sig .tc .vmem S16x2 .f32) fullShare (sums6 V c n)
      ∗ owns (c : Thread nD τ) (Memref.whole cc6_scratch1 : Memref sig .tc .vmem S16x1 .f32) fullShare (cnts6 V c n)) := by
  unfold scr6; rw [if_neg h]

theorem leavesExact_live6 (c : Dev nD) (t : Fin cfg6.N) (hi : cfg6.idle 2 (cfg6.grid.coords t) = false) :
    (dat6 V c).leavesExact 2 t = owns (c : Thread nD τ) (st6_2 t) fullShare ((dat6 V c).after 2 t) := by
  unfold Dat.leavesExact; rw [hi]

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns: the output's buffer as it was found at every point but the last. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ (dat6 V c).leavesExact 2 t)

set_option maxHeartbeats 1000000 in
/-- The body at any point, by cases on the point: first, last, or neither. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl, after6_0, after6_1, Φ_eq6, Φ_eq6]
  unfold Φ6
  rw [show (t.castSucc : Fin (cfg6.N + 1)).val = t.val from rfl, show (t.succ : Fin (cfg6.N + 1)).val = t.val + 1 from rfl,
    scr6_pos V c (Nat.succ_ne_zero t.val), sums6_at, cnts6_at]
  have hN : t.val < 10 := lt_of_lt_of_eq t.isLt (show cfg6.N = 10 from N_6)
  by_cases h9 : t.val = 9
  · have h0 : t.val ≠ 0 := by omega
    have hi : cfg6.idle 2 (cfg6.grid.coords t) = false := by rw [hidle6_2, h9]; rfl
    rw [leavesExact_live6 V c t hi, after6_2, scr6_pos V c h0,
      show sums6 V c 10 = k6_pay4 (iblk6 V c 1 t) (iblk6 V c 0 t) (sums6 V c t.val) from by
        rw [show (10 : ℕ) = t.val + 1 from by omega]; exact sums6_at V c t,
      show cnts6 V c 10 = k6_pay5 (iblk6 V c 1 t) (cnts6 V c t.val) from by
        rw [show (10 : ℕ) = t.val + 1 from by omega]; exact cnts6_at V c t]
    iintro ⟨⟨⟨S0, S1⟩, HR, HP⟩, Ho, ⟨%d0, H0⟩, ⟨%d1, H1⟩, ⟨%d2, H2⟩⟩
    iapply (sound_kernel6_last c Set.univ _ _ _ _ _ _ _ _ _ _ _ (fun h => h0 ((hcond6_1 t).mp h)) ((hcond6_2 t).mpr h9)
      (iblk6 V c 0 t) (iblk6 V c 1 t) (sums6 V c t.val) (cnts6 V c t.val) _)
    isplitl [H0]; · iexact H0
    isplitl [H1]; · iexact H1
    isplitl [H2]; · iexists _; iexact H2
    isplitl [S0]; · iexact S0
    isplitl [S1]; · iexact S1
    iintro ⟨H0, H1, H2, S0, S1⟩
    isplitl [S0 S1 HR HP]
    · isplitl [S0 S1]
      · isplitl [S0]; · iexact S0
        iexact S1
      isplitl [HR]; · iexact HR
      iexact HP
    isplitl [Ho]; · iexact Ho
    isplitl [H0]; · iexact H0
    isplitl [H1]; · iexact H1
    iexact H2
  · have hi : cfg6.idle 2 (cfg6.grid.coords t) = true := by rw [hidle6_2, decide_eq_false h9]; rfl
    have hf : (cfg6.win 2).flush t = false :=
      Bool.eq_false_iff.mpr fun h => by have := (flush6_2 t).mp h; omega
    rw [Dat.leavesExact_idle _ 2 t hi hf]
    by_cases h0 : t.val = 0
    · rw [scr6_zero V c h0, sums6_zero' V c h0, cnts6_zero' V c h0]
      iintro ⟨⟨⟨⟨%e0, S0⟩, ⟨%e1, S1⟩⟩, HR, HP⟩, Ho, ⟨%d0, H0⟩, ⟨%d1, H1⟩, ⟨%d2, H2⟩⟩
      iapply (sound_kernel6_first c Set.univ _ _ _ _ _ _ _ _ _ _ _ ((hcond6_1 t).mpr h0) (fun h => h9 ((hcond6_2 t).mp h))
        (iblk6 V c 0 t) (iblk6 V c 1 t) _)
      isplitl [H0]; · iexact H0
      isplitl [H1]; · iexact H1
      isplitl [S0]; · iexists _; iexact S0
      isplitl [S1]; · iexists _; iexact S1
      iintro ⟨H0, H1, S0, S1⟩
      isplitl [S0 S1 HR HP]
      · isplitl [S0 S1]
        · isplitl [S0]; · iexact S0
          iexact S1
        isplitl [HR]; · iexact HR
        iexact HP
      isplitl [Ho]; · iexact Ho
      isplitl [H0]; · iexact H0
      isplitl [H1]; · iexact H1
      iexists _; iexact H2
    · rw [scr6_pos V c h0]
      iintro ⟨⟨⟨S0, S1⟩, HR, HP⟩, Ho, ⟨%d0, H0⟩, ⟨%d1, H1⟩, ⟨%d2, H2⟩⟩
      iapply (sound_kernel6_mid c Set.univ _ _ _ _ _ _ _ _ _ _ _ (fun h => h0 ((hcond6_1 t).mp h)) (fun h => h9 ((hcond6_2 t).mp h))
        (iblk6 V c 0 t) (iblk6 V c 1 t) (sums6 V c t.val) (cnts6 V c t.val) _)
      isplitl [H0]; · iexact H0
      isplitl [H1]; · iexact H1
      isplitl [S0]; · iexact S0
      isplitl [S1]; · iexact S1
      iintro ⟨H0, H1, S0, S1⟩
      isplitl [S0 S1 HR HP]
      · isplitl [S0 S1]
        · isplitl [S0]; · iexact S0
          iexact S1
        isplitl [HR]; · iexact HR
        iexact HP
      isplitl [Ho]; · iexact Ho
      isplitl [H0]; · iexact H0
      isplitl [H1]; · iexact H1
      iexists _; iexact H2

/-- The body obligation at every point. -/
theorem body_obligation6 (c : Dev nD) : BodyObligation (dat6 (F := F) V c) (defs₀ (F := F)) Variants.none () Set.univ := fun t => by
  rw [bigSep_W6, bigSep_W6]
  exact sound_body6 V c t

/-- The region's invariant before its first point is what the region is entered with: the scoped rest, the two
    scratch buffers among it at anything, and the generator register. -/
theorem Φ6_in (c : Dev nD) : iprop(Pipeline.scopedRest (Ix := Unit) (Name := ℕ) (U := UR sig nD τ) (Lvl := ℕ) (Val := Elt F) spec6 c ∗ ∃ r, prngReg c r) ⊢ (dat6 V c).Φ 0 := by
  rw [Φ_eq6, scopedRest6_split]; unfold Φ6
  rw [show ((0 : Fin (cfg6.N + 1)) : Fin (cfg6.N + 1)).val = 0 from rfl]
  unfold scr6; rw [if_pos rfl]
  iintro ⟨⟨HS, HR⟩, HP⟩
  isplitl [HS]; · iexact HS
  isplitl [HR]; · iexact HR
  iexact HP

/-- After the last point the invariant gives the scoped rest back, the scratch buffers at the two full folds. -/
theorem Φ6_out (c : Dev nD) : (dat6 V c).Φ (Fin.last cfg6.N) ⊢ iprop(Pipeline.scopedRest (Ix := Unit) (Name := ℕ) (U := UR sig nD τ) (Lvl := ℕ) (Val := Elt F) spec6 c ∗ ∃ r, prngReg c r) := by
  rw [Φ_eq6, scopedRest6_split]; unfold Φ6
  rw [scr6_pos V c (show (Fin.last cfg6.N).val ≠ 0 from by rw [Fin.val_last, show cfg6.N = 10 from N_6]; decide)]
  simp only [owns_whole]
  iintro ⟨⟨S0, S1⟩, HR, HP⟩
  isplitl [S0 S1 HR]
  · isplitl [S0 S1]
    · isplitl [S0]; · iexists _; iexact S0
      iexists _; iexact S1
    iexact HR
  iexact HP

end Cert.Kernel.Frm

end
-- ==== Proof.KB.Run.lean ====
/-
  The kernel program's run, item by item. Between two items of @main every unscoped buffer of a core is held at
  known contents: the launch memory, then each stretch of host operations applied, then — after a kernel region —
  the region's output array at what its write-backs leave and every other buffer as the region found it. Each region
  enters from those contents, runs its pipeline over the proof data of its body, and leaves the next contents; the
  arguments are written by nothing, so they end as launched.
-/
import proofs.«424645_j84567906058949_2_alg».proof.Proof.Gen.Kernel.Regions
import proofs.«424645_j84567906058949_2_alg».proof.Proof.KB.Reg0
import proofs.«424645_j84567906058949_2_alg».proof.Proof.KB.Reg1
import proofs.«424645_j84567906058949_2_alg».proof.Proof.KB.Reg2
import proofs.«424645_j84567906058949_2_alg».proof.Proof.KB.Reg3
import proofs.«424645_j84567906058949_2_alg».proof.Proof.KB.Reg4
import proofs.«424645_j84567906058949_2_alg».proof.Proof.KB.Reg5
import proofs.«424645_j84567906058949_2_alg».proof.Proof.KB.Reg6

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- Before the first region: the launch memory through the first three stretches of host operations. -/
abbrev U3 (c : Dev nD) : Valuation τ sig (Elt F) := Gen.V3 m c
/-- What region 0 leaves in its output array: its write-backs over the entry contents. -/
def o4 (c : Dev nD) : Buf (Elt F) ((c : Thread nD τ).loc main_v30) := (dat0 (atRefs (U3 m)) c).arrAt 2 cfg0.N
/-- After region 0: its output array at what it leaves, every other buffer as entered. -/
def U4 (c : Dev nD) : Valuation τ sig (Elt F) := Function.update (U3 m c) main_v30 (o4 m c)
/-- After the host stretch `hostOps1`. -/
abbrev U5 (c : Dev nD) : Valuation τ sig (Elt F) := StableHlo.after hostOps1 (U4 m c)
/-- After the host stretch `hostOps1_1`. -/
abbrev U6 (c : Dev nD) : Valuation τ sig (Elt F) := StableHlo.after hostOps1_1 (U5 m c)
/-- What region 1 leaves in its output array: its write-backs over the entry contents. -/
def o7 (c : Dev nD) : Buf (Elt F) ((c : Thread nD τ).loc main_v33) := (dat1 (atRefs (U6 m)) c).arrAt 2 cfg1.N
/-- After region 1: its output array at what it leaves, every other buffer as entered. -/
def U7 (c : Dev nD) : Valuation τ sig (Elt F) := Function.update (U6 m c) main_v33 (o7 m c)
/-- After the host stretch `hostOps2`. -/
abbrev U8 (c : Dev nD) : Valuation τ sig (Elt F) := StableHlo.after hostOps2 (U7 m c)
/-- What region 2 leaves in its output array: its write-backs over the entry contents. -/
def o9 (c : Dev nD) : Buf (Elt F) ((c : Thread nD τ).loc main_v38) := (dat2 (atRefs (U8 m)) c).arrAt 2 cfg2.N
/-- After region 2: its output array at what it leaves, every other buffer as entered. -/
def U9 (c : Dev nD) : Valuation τ sig (Elt F) := Function.update (U8 m c) main_v38 (o9 m c)
/-- What region 3 leaves in its output array: its write-backs over the entry contents. -/
def o10 (c : Dev nD) : Buf (Elt F) ((c : Thread nD τ).loc main_v39) := (dat3 (atRefs (U9 m)) c).arrAt 2 cfg3.N
/-- After region 3: its output array at what it leaves, every other buffer as entered. -/
def U10 (c : Dev nD) : Valuation τ sig (Elt F) := Function.update (U9 m c) main_v39 (o10 m c)
/-- After the host stretch `hostOps4`. -/
abbrev U11 (c : Dev nD) : Valuation τ sig (Elt F) := StableHlo.after hostOps4 (U10 m c)
/-- After the host stretch `hostOps4_1`. -/
abbrev U12 (c : Dev nD) : Valuation τ sig (Elt F) := StableHlo.after hostOps4_1 (U11 m c)
/-- What region 4 leaves in its output array: its write-backs over the entry contents. -/
def o13 (c : Dev nD) : Buf (Elt F) ((c : Thread nD τ).loc main_v42) := (dat4 (atRefs (U12 m)) c).arrAt 2 cfg4.N
/-- After region 4: its output array at what it leaves, every other buffer as entered. -/
def U13 (c : Dev nD) : Valuation τ sig (Elt F) := Function.update (U12 m c) main_v42 (o13 m c)
/-- After the host stretch `hostOps5`. -/
abbrev U14 (c : Dev nD) : Valuation τ sig (Elt F) := StableHlo.after hostOps5 (U13 m c)
/-- What region 5 leaves in its output array: its write-backs over the entry contents. -/
def o15 (c : Dev nD) : Buf (Elt F) ((c : Thread nD τ).loc main_v47) := (dat5 (atRefs (U14 m)) c).arrAt 2 cfg5.N
/-- After region 5: its output array at what it leaves, every other buffer as entered. -/
def U15 (c : Dev nD) : Valuation τ sig (Elt F) := Function.update (U14 m c) main_v47 (o15 m c)
/-- After the host stretch `hostOps6`. -/
abbrev U16 (c : Dev nD) : Valuation τ sig (Elt F) := StableHlo.after hostOps6 (U15 m c)
/-- What region 6 leaves in its output array: its write-backs over the entry contents. -/
def o17 (c : Dev nD) : Buf (Elt F) ((c : Thread nD τ).loc main_v49) := (dat6 (atRefs (U16 m)) c).arrAt 2 cfg6.N
/-- After region 6: its output array at what it leaves, every other buffer as entered. -/
def U17 (c : Dev nD) : Valuation τ sig (Elt F) := Function.update (U16 m c) main_v49 (o17 m c)

/-- The regions' leavings as the family the generated valuations are written over: at item J, what the exact contents hold. -/
def outsU : Gen.Outs (F := F) := fun J r c =>
  match J with
  | 4 => U4 m c r
  | 7 => U7 m c r
  | 9 => U9 m c r
  | 10 => U10 m c r
  | 13 => U13 m c r
  | 15 => U15 m c r
  | 17 => U17 m c r
  | _ => U3 m c r

theorem V4_eq (c : Dev nD) : Gen.V4 m (outsU m) c = U4 m c := by
  show Function.update (Gen.V3 m c) main_v30 (U4 m c main_v30) = _
  rw [show U4 m c main_v30 = o4 m c from by unfold U4; exact Function.update_self _ _ _]
  rfl
theorem V5_eq (c : Dev nD) : Gen.V5 m (outsU m) c = U5 m c := by
  show StableHlo.after hostOps1 (Gen.V4 m (outsU m) c) = _
  rw [V4_eq]
theorem V6_eq (c : Dev nD) : Gen.V6 m (outsU m) c = U6 m c := by
  show StableHlo.after hostOps1_1 (Gen.V5 m (outsU m) c) = _
  rw [V5_eq]
theorem V7_eq (c : Dev nD) : Gen.V7 m (outsU m) c = U7 m c := by
  show Function.update (Gen.V6 m (outsU m) c) main_v33 (U7 m c main_v33) = _
  rw [V6_eq, show U7 m c main_v33 = o7 m c from by unfold U7; exact Function.update_self _ _ _]
  rfl
theorem V8_eq (c : Dev nD) : Gen.V8 m (outsU m) c = U8 m c := by
  show StableHlo.after hostOps2 (Gen.V7 m (outsU m) c) = _
  rw [V7_eq]
theorem V9_eq (c : Dev nD) : Gen.V9 m (outsU m) c = U9 m c := by
  show Function.update (Gen.V8 m (outsU m) c) main_v38 (U9 m c main_v38) = _
  rw [V8_eq, show U9 m c main_v38 = o9 m c from by unfold U9; exact Function.update_self _ _ _]
  rfl
theorem V10_eq (c : Dev nD) : Gen.V10 m (outsU m) c = U10 m c := by
  show Function.update (Gen.V9 m (outsU m) c) main_v39 (U10 m c main_v39) = _
  rw [V9_eq, show U10 m c main_v39 = o10 m c from by unfold U10; exact Function.update_self _ _ _]
  rfl
theorem V11_eq (c : Dev nD) : Gen.V11 m (outsU m) c = U11 m c := by
  show StableHlo.after hostOps4 (Gen.V10 m (outsU m) c) = _
  rw [V10_eq]
theorem V12_eq (c : Dev nD) : Gen.V12 m (outsU m) c = U12 m c := by
  show StableHlo.after hostOps4_1 (Gen.V11 m (outsU m) c) = _
  rw [V11_eq]
theorem V13_eq (c : Dev nD) : Gen.V13 m (outsU m) c = U13 m c := by
  show Function.update (Gen.V12 m (outsU m) c) main_v42 (U13 m c main_v42) = _
  rw [V12_eq, show U13 m c main_v42 = o13 m c from by unfold U13; exact Function.update_self _ _ _]
  rfl
theorem V14_eq (c : Dev nD) : Gen.V14 m (outsU m) c = U14 m c := by
  show StableHlo.after hostOps5 (Gen.V13 m (outsU m) c) = _
  rw [V13_eq]
theorem V15_eq (c : Dev nD) : Gen.V15 m (outsU m) c = U15 m c := by
  show Function.update (Gen.V14 m (outsU m) c) main_v47 (U15 m c main_v47) = _
  rw [V14_eq, show U15 m c main_v47 = o15 m c from by unfold U15; exact Function.update_self _ _ _]
  rfl
theorem V16_eq (c : Dev nD) : Gen.V16 m (outsU m) c = U16 m c := by
  show StableHlo.after hostOps6 (Gen.V15 m (outsU m) c) = _
  rw [V15_eq]
theorem V17_eq (c : Dev nD) : Gen.V17 m (outsU m) c = U17 m c := by
  show Function.update (Gen.V16 m (outsU m) c) main_v49 (U17 m c main_v49) = _
  rw [V16_eq, show U17 m c main_v49 = o17 m c from by unfold U17; exact Function.update_self _ _ _]
  rfl

/-! ## A buffer an item does not write keeps its contents -/

theorem U4_of (c : Dev nD) (r : Ref sig .tc) (h : r ∉ ([main_v30] : List (Ref sig .tc))) : U4 m c r = U3 m c r := by
  rw [← V4_eq]; exact Gen.V4_of m (outsU m) c r h
theorem U5_of (c : Dev nD) (r : Ref sig .tc) (h : r ∉ hostOps1_W) : U5 m c r = U4 m c r := by
  rw [← V5_eq, ← V4_eq]; exact Gen.V5_of m (outsU m) c r h
theorem U6_of (c : Dev nD) (r : Ref sig .tc) (h : r ∉ hostOps1_1_W) : U6 m c r = U5 m c r := by
  rw [← V6_eq, ← V5_eq]; exact Gen.V6_of m (outsU m) c r h
theorem U7_of (c : Dev nD) (r : Ref sig .tc) (h : r ∉ ([main_v33] : List (Ref sig .tc))) : U7 m c r = U6 m c r := by
  rw [← V7_eq, ← V6_eq]; exact Gen.V7_of m (outsU m) c r h
theorem U8_of (c : Dev nD) (r : Ref sig .tc) (h : r ∉ hostOps2_W) : U8 m c r = U7 m c r := by
  rw [← V8_eq, ← V7_eq]; exact Gen.V8_of m (outsU m) c r h
theorem U9_of (c : Dev nD) (r : Ref sig .tc) (h : r ∉ ([main_v38] : List (Ref sig .tc))) : U9 m c r = U8 m c r := by
  rw [← V9_eq, ← V8_eq]; exact Gen.V9_of m (outsU m) c r h
theorem U10_of (c : Dev nD) (r : Ref sig .tc) (h : r ∉ ([main_v39] : List (Ref sig .tc))) : U10 m c r = U9 m c r := by
  rw [← V10_eq, ← V9_eq]; exact Gen.V10_of m (outsU m) c r h
theorem U11_of (c : Dev nD) (r : Ref sig .tc) (h : r ∉ hostOps4_W) : U11 m c r = U10 m c r := by
  rw [← V11_eq, ← V10_eq]; exact Gen.V11_of m (outsU m) c r h
theorem U12_of (c : Dev nD) (r : Ref sig .tc) (h : r ∉ hostOps4_1_W) : U12 m c r = U11 m c r := by
  rw [← V12_eq, ← V11_eq]; exact Gen.V12_of m (outsU m) c r h
theorem U13_of (c : Dev nD) (r : Ref sig .tc) (h : r ∉ ([main_v42] : List (Ref sig .tc))) : U13 m c r = U12 m c r := by
  rw [← V13_eq, ← V12_eq]; exact Gen.V13_of m (outsU m) c r h
theorem U14_of (c : Dev nD) (r : Ref sig .tc) (h : r ∉ hostOps5_W) : U14 m c r = U13 m c r := by
  rw [← V14_eq, ← V13_eq]; exact Gen.V14_of m (outsU m) c r h
theorem U15_of (c : Dev nD) (r : Ref sig .tc) (h : r ∉ ([main_v47] : List (Ref sig .tc))) : U15 m c r = U14 m c r := by
  rw [← V15_eq, ← V14_eq]; exact Gen.V15_of m (outsU m) c r h
theorem U16_of (c : Dev nD) (r : Ref sig .tc) (h : r ∉ hostOps6_W) : U16 m c r = U15 m c r := by
  rw [← V16_eq, ← V15_eq]; exact Gen.V16_of m (outsU m) c r h
theorem U17_of (c : Dev nD) (r : Ref sig .tc) (h : r ∉ ([main_v49] : List (Ref sig .tc))) : U17 m c r = U16 m c r := by
  rw [← V17_eq, ← V16_eq]; exact Gen.V17_of m (outsU m) c r h

/-- What region K leaves is what the exact contents hold at its output. -/
theorem U4_out (c : Dev nD) : U4 m c main_v30 = (dat0 (atRefs (U3 m)) c).arrAt 2 cfg0.N := by
  unfold U4; rw [Function.update_self]; rfl
theorem U7_out (c : Dev nD) : U7 m c main_v33 = (dat1 (atRefs (U6 m)) c).arrAt 2 cfg1.N := by
  unfold U7; rw [Function.update_self]; rfl
theorem U9_out (c : Dev nD) : U9 m c main_v38 = (dat2 (atRefs (U8 m)) c).arrAt 2 cfg2.N := by
  unfold U9; rw [Function.update_self]; rfl
theorem U10_out (c : Dev nD) : U10 m c main_v39 = (dat3 (atRefs (U9 m)) c).arrAt 2 cfg3.N := by
  unfold U10; rw [Function.update_self]; rfl
theorem U13_out (c : Dev nD) : U13 m c main_v42 = (dat4 (atRefs (U12 m)) c).arrAt 2 cfg4.N := by
  unfold U13; rw [Function.update_self]; rfl
theorem U15_out (c : Dev nD) : U15 m c main_v47 = (dat5 (atRefs (U14 m)) c).arrAt 2 cfg5.N := by
  unfold U15; rw [Function.update_self]; rfl
theorem U17_out (c : Dev nD) : U17 m c main_v49 = (dat6 (atRefs (U16 m)) c).arrAt 2 cfg6.N := by
  unfold U17; rw [Function.update_self]; rfl

/-! ## The proof data family and what rides beside the buffers -/

/-- Every pipeline's proof data, each at its region's entry contents. -/
def pdats : (p : Fin 7) → (c : Dev nD) → Dat τ (Elt F) Unit ℕ (UR sig nD τ) ℕ (cfgs p) c
  | ⟨0, _⟩ => fun c => dat0 (atRefs (U3 m)) c
  | ⟨1, _⟩ => fun c => dat1 (atRefs (U6 m)) c
  | ⟨2, _⟩ => fun c => dat2 (atRefs (U8 m)) c
  | ⟨3, _⟩ => fun c => dat3 (atRefs (U9 m)) c
  | ⟨4, _⟩ => fun c => dat4 (atRefs (U12 m)) c
  | ⟨5, _⟩ => fun c => dat5 (atRefs (U14 m)) c
  | ⟨6, _⟩ => fun c => dat6 (atRefs (U16 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rd (c : Dev nD) : sProp 𝕄 := iprop((∃ r, prngReg c r) ∗ ∃ W, owes (c : Thread nD τ) (0 : CellTallies nD τ sig Unit) W)

/-! ### Region 0 -/

theorem arrRef0_2 : Pipeline.arrRef spec0 2 = main_v30 := rfl
/-- At region 0's exit each of its arrays holds what the pipeline leaves: an input as entered, the output its write-backs. -/
theorem hF0 (c : Dev nD) (w : Fin cfg0.W) : (dat0 (atRefs (U3 m)) c).arrAt w cfg0.N = atRefs (U4 m) c (Pipeline.arrRef spec0 w) := by
  match w with
  | ⟨0, _⟩ =>
    refine ((dat0 (atRefs (U3 m)) c).arrAt_in 0 rfl _).trans ((A_eq0 (atRefs (U3 m)) c 0).trans ?_)
    show U3 m c (Pipeline.arrRef spec0 0) = U4 m c (Pipeline.arrRef spec0 0)
    unfold U4
    rw [Function.update_of_ne (StableHlo.devRef_ne_of_ne (by decide))]
  | ⟨1, _⟩ =>
    refine ((dat0 (atRefs (U3 m)) c).arrAt_in 1 rfl _).trans ((A_eq0 (atRefs (U3 m)) c 1).trans ?_)
    show U3 m c (Pipeline.arrRef spec0 1) = U4 m c (Pipeline.arrRef spec0 1)
    unfold U4
    rw [Function.update_of_ne (StableHlo.devRef_ne_of_ne (by decide))]
  | ⟨2, _⟩ =>
    show o4 m c = U4 m c main_v30
    unfold U4
    rw [Function.update_self]
/-- and every other buffer what it held at entry. -/
theorem hrest0 (c : Dev nD) : ∀ b, b ∉ Finset.univ.image (Pipeline.arrRef spec0) → atRefs (U4 m) c b = atRefs (U3 m) c b := fun b hb => by
  show U4 m c b = U3 m c b
  unfold U4
  rw [Function.update_of_ne (StableHlo.devRef_ne_of_ne (fun e => hb (Finset.mem_image.mpr ⟨2, Finset.mem_univ _, (arrRef0_2).trans e.symm⟩)))]

/-! ### Region 1 -/

theorem arrRef1_2 : Pipeline.arrRef spec1 2 = main_v33 := rfl
/-- At region 1's exit each of its arrays holds what the pipeline leaves: an input as entered, the output its write-backs. -/
theorem hF1 (c : Dev nD) (w : Fin cfg1.W) : (dat1 (atRefs (U6 m)) c).arrAt w cfg1.N = atRefs (U7 m) c (Pipeline.arrRef spec1 w) := by
  match w with
  | ⟨0, _⟩ =>
    refine ((dat1 (atRefs (U6 m)) c).arrAt_in 0 rfl _).trans ((A_eq1 (atRefs (U6 m)) c 0).trans ?_)
    show U6 m c (Pipeline.arrRef spec1 0) = U7 m c (Pipeline.arrRef spec1 0)
    unfold U7
    rw [Function.update_of_ne (StableHlo.devRef_ne_of_ne (by decide))]
  | ⟨1, _⟩ =>
    refine ((dat1 (atRefs (U6 m)) c).arrAt_in 1 rfl _).trans ((A_eq1 (atRefs (U6 m)) c 1).trans ?_)
    show U6 m c (Pipeline.arrRef spec1 1) = U7 m c (Pipeline.arrRef spec1 1)
    unfold U7
    rw [Function.update_of_ne (StableHlo.devRef_ne_of_ne (by decide))]
  | ⟨2, _⟩ =>
    show o7 m c = U7 m c main_v33
    unfold U7
    rw [Function.update_self]
/-- and every other buffer what it held at entry. -/
theorem hrest1 (c : Dev nD) : ∀ b, b ∉ Finset.univ.image (Pipeline.arrRef spec1) → atRefs (U7 m) c b = atRefs (U6 m) c b := fun b hb => by
  show U7 m c b = U6 m c b
  unfold U7
  rw [Function.update_of_ne (StableHlo.devRef_ne_of_ne (fun e => hb (Finset.mem_image.mpr ⟨2, Finset.mem_univ _, (arrRef1_2).trans e.symm⟩)))]

/-! ### Region 2 -/

theorem arrRef2_2 : Pipeline.arrRef spec2 2 = main_v38 := rfl
/-- At region 2's exit each of its arrays holds what the pipeline leaves: an input as entered, the output its write-backs. -/
theorem hF2 (c : Dev nD) (w : Fin cfg2.W) : (dat2 (atRefs (U8 m)) c).arrAt w cfg2.N = atRefs (U9 m) c (Pipeline.arrRef spec2 w) := by
  match w with
  | ⟨0, _⟩ =>
    refine ((dat2 (atRefs (U8 m)) c).arrAt_in 0 rfl _).trans ((A_eq2 (atRefs (U8 m)) c 0).trans ?_)
    show U8 m c (Pipeline.arrRef spec2 0) = U9 m c (Pipeline.arrRef spec2 0)
    unfold U9
    rw [Function.update_of_ne (StableHlo.devRef_ne_of_ne (by decide))]
  | ⟨1, _⟩ =>
    refine ((dat2 (atRefs (U8 m)) c).arrAt_in 1 rfl _).trans ((A_eq2 (atRefs (U8 m)) c 1).trans ?_)
    show U8 m c (Pipeline.arrRef spec2 1) = U9 m c (Pipeline.arrRef spec2 1)
    unfold U9
    rw [Function.update_of_ne (StableHlo.devRef_ne_of_ne (by decide))]
  | ⟨2, _⟩ =>
    show o9 m c = U9 m c main_v38
    unfold U9
    rw [Function.update_self]
/-- and every other buffer what it held at entry. -/
theorem hrest2 (c : Dev nD) : ∀ b, b ∉ Finset.univ.image (Pipeline.arrRef spec2) → atRefs (U9 m) c b = atRefs (U8 m) c b := fun b hb => by
  show U9 m c b = U8 m c b
  unfold U9
  rw [Function.update_of_ne (StableHlo.devRef_ne_of_ne (fun e => hb (Finset.mem_image.mpr ⟨2, Finset.mem_univ _, (arrRef2_2).trans e.symm⟩)))]

/-! ### Region 3 -/

theorem arrRef3_2 : Pipeline.arrRef spec3 2 = main_v39 := rfl
/-- At region 3's exit each of its arrays holds what the pipeline leaves: an input as entered, the output its write-backs. -/
theorem hF3 (c : Dev nD) (w : Fin cfg3.W) : (dat3 (atRefs (U9 m)) c).arrAt w cfg3.N = atRefs (U10 m) c (Pipeline.arrRef spec3 w) := by
  match w with
  | ⟨0, _⟩ =>
    refine ((dat3 (atRefs (U9 m)) c).arrAt_in 0 rfl _).trans ((A_eq3 (atRefs (U9 m)) c 0).trans ?_)
    show U9 m c (Pipeline.arrRef spec3 0) = U10 m c (Pipeline.arrRef spec3 0)
    unfold U10
    rw [Function.update_of_ne (StableHlo.devRef_ne_of_ne (by decide))]
  | ⟨1, _⟩ =>
    refine ((dat3 (atRefs (U9 m)) c).arrAt_in 1 rfl _).trans ((A_eq3 (atRefs (U9 m)) c 1).trans ?_)
    show U9 m c (Pipeline.arrRef spec3 1) = U10 m c (Pipeline.arrRef spec3 1)
    unfold U10
    rw [Function.update_of_ne (StableHlo.devRef_ne_of_ne (by decide))]
  | ⟨2, _⟩ =>
    show o10 m c = U10 m c main_v39
    unfold U10
    rw [Function.update_self]
/-- and every other buffer what it held at entry. -/
theorem hrest3 (c : Dev nD) : ∀ b, b ∉ Finset.univ.image (Pipeline.arrRef spec3) → atRefs (U10 m) c b = atRefs (U9 m) c b := fun b hb => by
  show U10 m c b = U9 m c b
  unfold U10
  rw [Function.update_of_ne (StableHlo.devRef_ne_of_ne (fun e => hb (Finset.mem_image.mpr ⟨2, Finset.mem_univ _, (arrRef3_2).trans e.symm⟩)))]

/-! ### Region 4 -/

theorem arrRef4_2 : Pipeline.arrRef spec4 2 = main_v42 := rfl
/-- At region 4's exit each of its arrays holds what the pipeline leaves: an input as entered, the output its write-backs. -/
theorem hF4 (c : Dev nD) (w : Fin cfg4.W) : (dat4 (atRefs (U12 m)) c).arrAt w cfg4.N = atRefs (U13 m) c (Pipeline.arrRef spec4 w) := by
  match w with
  | ⟨0, _⟩ =>
    refine ((dat4 (atRefs (U12 m)) c).arrAt_in 0 rfl _).trans ((A_eq4 (atRefs (U12 m)) c 0).trans ?_)
    show U12 m c (Pipeline.arrRef spec4 0) = U13 m c (Pipeline.arrRef spec4 0)
    unfold U13
    rw [Function.update_of_ne (StableHlo.devRef_ne_of_ne (by decide))]
  | ⟨1, _⟩ =>
    refine ((dat4 (atRefs (U12 m)) c).arrAt_in 1 rfl _).trans ((A_eq4 (atRefs (U12 m)) c 1).trans ?_)
    show U12 m c (Pipeline.arrRef spec4 1) = U13 m c (Pipeline.arrRef spec4 1)
    unfold U13
    rw [Function.update_of_ne (StableHlo.devRef_ne_of_ne (by decide))]
  | ⟨2, _⟩ =>
    show o13 m c = U13 m c main_v42
    unfold U13
    rw [Function.update_self]
/-- and every other buffer what it held at entry. -/
theorem hrest4 (c : Dev nD) : ∀ b, b ∉ Finset.univ.image (Pipeline.arrRef spec4) → atRefs (U13 m) c b = atRefs (U12 m) c b := fun b hb => by
  show U13 m c b = U12 m c b
  unfold U13
  rw [Function.update_of_ne (StableHlo.devRef_ne_of_ne (fun e => hb (Finset.mem_image.mpr ⟨2, Finset.mem_univ _, (arrRef4_2).trans e.symm⟩)))]

/-! ### Region 5 -/

theorem arrRef5_2 : Pipeline.arrRef spec5 2 = main_v47 := rfl
/-- At region 5's exit each of its arrays holds what the pipeline leaves: an input as entered, the output its write-backs. -/
theorem hF5 (c : Dev nD) (w : Fin cfg5.W) : (dat5 (atRefs (U14 m)) c).arrAt w cfg5.N = atRefs (U15 m) c (Pipeline.arrRef spec5 w) := by
  match w with
  | ⟨0, _⟩ =>
    refine ((dat5 (atRefs (U14 m)) c).arrAt_in 0 rfl _).trans ((A_eq5 (atRefs (U14 m)) c 0).trans ?_)
    show U14 m c (Pipeline.arrRef spec5 0) = U15 m c (Pipeline.arrRef spec5 0)
    unfold U15
    rw [Function.update_of_ne (StableHlo.devRef_ne_of_ne (by decide))]
  | ⟨1, _⟩ =>
    refine ((dat5 (atRefs (U14 m)) c).arrAt_in 1 rfl _).trans ((A_eq5 (atRefs (U14 m)) c 1).trans ?_)
    show U14 m c (Pipeline.arrRef spec5 1) = U15 m c (Pipeline.arrRef spec5 1)
    unfold U15
    rw [Function.update_of_ne (StableHlo.devRef_ne_of_ne (by decide))]
  | ⟨2, _⟩ =>
    show o15 m c = U15 m c main_v47
    unfold U15
    rw [Function.update_self]
/-- and every other buffer what it held at entry. -/
theorem hrest5 (c : Dev nD) : ∀ b, b ∉ Finset.univ.image (Pipeline.arrRef spec5) → atRefs (U15 m) c b = atRefs (U14 m) c b := fun b hb => by
  show U15 m c b = U14 m c b
  unfold U15
  rw [Function.update_of_ne (StableHlo.devRef_ne_of_ne (fun e => hb (Finset.mem_image.mpr ⟨2, Finset.mem_univ _, (arrRef5_2).trans e.symm⟩)))]

/-! ### Region 6 -/

theorem arrRef6_2 : Pipeline.arrRef spec6 2 = main_v49 := rfl
/-- At region 6's exit each of its arrays holds what the pipeline leaves: an input as entered, the output its write-backs. -/
theorem hF6 (c : Dev nD) (w : Fin cfg6.W) : (dat6 (atRefs (U16 m)) c).arrAt w cfg6.N = atRefs (U17 m) c (Pipeline.arrRef spec6 w) := by
  match w with
  | ⟨0, _⟩ =>
    refine ((dat6 (atRefs (U16 m)) c).arrAt_in 0 rfl _).trans ((A_eq6 (atRefs (U16 m)) c 0).trans ?_)
    show U16 m c (Pipeline.arrRef spec6 0) = U17 m c (Pipeline.arrRef spec6 0)
    unfold U17
    rw [Function.update_of_ne (StableHlo.devRef_ne_of_ne (by decide))]
  | ⟨1, _⟩ =>
    refine ((dat6 (atRefs (U16 m)) c).arrAt_in 1 rfl _).trans ((A_eq6 (atRefs (U16 m)) c 1).trans ?_)
    show U16 m c (Pipeline.arrRef spec6 1) = U17 m c (Pipeline.arrRef spec6 1)
    unfold U17
    rw [Function.update_of_ne (StableHlo.devRef_ne_of_ne (by decide))]
  | ⟨2, _⟩ =>
    show o17 m c = U17 m c main_v49
    unfold U17
    rw [Function.update_self]
/-- and every other buffer what it held at entry. -/
theorem hrest6 (c : Dev nD) : ∀ b, b ∉ Finset.univ.image (Pipeline.arrRef spec6) → atRefs (U17 m) c b = atRefs (U16 m) c b := fun b hb => by
  show U17 m c b = U16 m c b
  unfold U17
  rw [Function.update_of_ne (StableHlo.devRef_ne_of_ne (fun e => hb (Finset.mem_image.mpr ⟨2, Finset.mem_univ _, (arrRef6_2).trans e.symm⟩)))]

-- a library lemma stated over the pinned configuration unifies with the printed one only when unification may
-- unfold plain definitions in a metavariable's type
set_option backward.isDefEq.respectTransparency.types false in
/-- Region 0 over the thread state: entered from every unscoped buffer at the contents before it, left at the contents
    after it. Its arrays are split out of the unscoped buffers and put back at the exit contents; the generator register
    goes into the body's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U3 m)) c).loose
  hwaits := Pipeline.hwaits_of_owed_zero _ _ _ _ L lv 0 fun _ _ => rfl
  pre c := iprop(StableHlo.held (c : Thread nD τ) (Pipeline.ucRefs τ sig) (U3 m c) ∗ Rd c)
  post c := iprop(StableHlo.held (c : Thread nD τ) (Pipeline.ucRefs τ sig) (U4 m c) ∗ Rd c)
  X c := iprop(∃ r, prngReg c r)
  Y c := iprop(∃ r, prngReg c r)
  Z c := Pipeline.unscopedRest (Ix := Unit) (Name := ℕ) (U := UR sig nD τ) (Lvl := ℕ) spec0 c (atRefs (U3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atRefs (U3 m) c) (atRefs (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the contents before it, left at the contents
    after it. Its arrays are split out of the unscoped buffers and put back at the exit contents; the generator register
    goes into the body's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U6 m)) c).loose
  hwaits := Pipeline.hwaits_of_owed_zero _ _ _ _ L lv 1 fun _ _ => rfl
  pre c := iprop(StableHlo.held (c : Thread nD τ) (Pipeline.ucRefs τ sig) (U6 m c) ∗ Rd c)
  post c := iprop(StableHlo.held (c : Thread nD τ) (Pipeline.ucRefs τ sig) (U7 m c) ∗ Rd c)
  X c := iprop(∃ r, prngReg c r)
  Y c := iprop(∃ r, prngReg c r)
  Z c := Pipeline.unscopedRest (Ix := Unit) (Name := ℕ) (U := UR sig nD τ) (Lvl := ℕ) spec1 c (atRefs (U6 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atRefs (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atRefs (U6 m) c) (atRefs (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the contents before it, left at the contents
    after it. Its arrays are split out of the unscoped buffers and put back at the exit contents; the generator register
    goes into the body's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U8 m)) c).loose
  hwaits := Pipeline.hwaits_of_owed_zero _ _ _ _ L lv 2 fun _ _ => rfl
  pre c := iprop(StableHlo.held (c : Thread nD τ) (Pipeline.ucRefs τ sig) (U8 m c) ∗ Rd c)
  post c := iprop(StableHlo.held (c : Thread nD τ) (Pipeline.ucRefs τ sig) (U9 m c) ∗ Rd c)
  X c := iprop(∃ r, prngReg c r)
  Y c := iprop(∃ r, prngReg c r)
  Z c := Pipeline.unscopedRest (Ix := Unit) (Name := ℕ) (U := UR sig nD τ) (Lvl := ℕ) spec2 c (atRefs (U8 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atRefs (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atRefs (U8 m) c) (atRefs (U9 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at the contents before it, left at the contents
    after it. Its arrays are split out of the unscoped buffers and put back at the exit contents; the generator register
    goes into the body's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (U9 m)) c).loose
  hwaits := Pipeline.hwaits_of_owed_zero _ _ _ _ L lv 3 fun _ _ => rfl
  pre c := iprop(StableHlo.held (c : Thread nD τ) (Pipeline.ucRefs τ sig) (U9 m c) ∗ Rd c)
  post c := iprop(StableHlo.held (c : Thread nD τ) (Pipeline.ucRefs τ sig) (U10 m c) ∗ Rd c)
  X c := iprop(∃ r, prngReg c r)
  Y c := iprop(∃ r, prngReg c r)
  Z c := Pipeline.unscopedRest (Ix := Unit) (Name := ℕ) (U := UR sig nD τ) (Lvl := ℕ) spec3 c (atRefs (U9 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atRefs (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atRefs (U9 m) c) (atRefs (U10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered from every unscoped buffer at the contents before it, left at the contents
    after it. Its arrays are split out of the unscoped buffers and put back at the exit contents; the generator register
    goes into the body's invariant and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (U12 m)) c).loose
  hwaits := Pipeline.hwaits_of_owed_zero _ _ _ _ L lv 4 fun _ _ => rfl
  pre c := iprop(StableHlo.held (c : Thread nD τ) (Pipeline.ucRefs τ sig) (U12 m c) ∗ Rd c)
  post c := iprop(StableHlo.held (c : Thread nD τ) (Pipeline.ucRefs τ sig) (U13 m c) ∗ Rd c)
  X c := iprop(∃ r, prngReg c r)
  Y c := iprop(∃ r, prngReg c r)
  Z c := Pipeline.unscopedRest (Ix := Unit) (Name := ℕ) (U := UR sig nD τ) (Lvl := ℕ) spec4 c (atRefs (U12 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atRefs (U12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atRefs (U12 m) c) (atRefs (U13 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 5 over the thread state: entered from every unscoped buffer at the contents before it, left at the contents
    after it. Its arrays are split out of the unscoped buffers and put back at the exit contents; the generator register
    goes into the body's invariant and comes out; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (U14 m)) c).loose
  hwaits := Pipeline.hwaits_of_owed_zero _ _ _ _ L lv 5 fun _ _ => rfl
  pre c := iprop(StableHlo.held (c : Thread nD τ) (Pipeline.ucRefs τ sig) (U14 m c) ∗ Rd c)
  post c := iprop(StableHlo.held (c : Thread nD τ) (Pipeline.ucRefs τ sig) (U15 m c) ∗ Rd c)
  X c := iprop(∃ r, prngReg c r)
  Y c := iprop(∃ r, prngReg c r)
  Z c := Pipeline.unscopedRest (Ix := Unit) (Name := ℕ) (U := UR sig nD τ) (Lvl := ℕ) spec5 c (atRefs (U14 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atRefs (U14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atRefs (U14 m) c) (atRefs (U15 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 6 over the thread state: entered from every unscoped buffer at the contents before it, left at the contents
    after it. Its arrays are split out of the unscoped buffers and put back at the exit contents; the generator register
    goes into the body's invariant and comes out; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (U16 m)) c).loose
  hwaits := Pipeline.hwaits_of_owed_zero _ _ _ _ L lv 6 fun _ _ => rfl
  pre c := iprop(StableHlo.held (c : Thread nD τ) (Pipeline.ucRefs τ sig) (U16 m c) ∗ Rd c)
  post c := iprop(StableHlo.held (c : Thread nD τ) (Pipeline.ucRefs τ sig) (U17 m c) ∗ Rd c)
  X c := iprop(∃ r, prngReg c r)
  Y c := iprop(∃ r, prngReg c r)
  Z c := Pipeline.unscopedRest (Ix := Unit) (Name := ℕ) (U := UR sig nD τ) (Lvl := ℕ) spec6 c (atRefs (U16 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atRefs (U16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (atRefs (U16 m)) c).Φ 0 from rfl]
    iintro ⟨Hp, -, Hr⟩
    iapply (Φ6_in (atRefs (U16 m)) c)
    isplitl [Hr]; · iexact Hr
    iexact Hp
  hout c := by
    rw [Pipeline.ownSems0_none, show (pdats m 6 c).Φ (Fin.last _) = (dat6 (atRefs (U16 m)) c).Φ (Fin.last cfg6.N) from rfl]
    iintro H
    ihave H' := (Φ6_out (atRefs (U16 m)) c) $$ H
    icases H' with ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atRefs (U16 m) c) (atRefs (U17 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side conditions, shared by the frame and the value run -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rd (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : Rd (F := F) c ⊢ (iprop(∃ W, owes (c : Thread nD τ) (0 : CellTallies nD τ sig Unit) W) : sProp 𝕄) := by
  iintro ⟨-, HO⟩; iexact HO

/-! ## The frame -/

-- the conditional frame's implicit arguments are found by unifying its hypotheses with the records, which takes unfolding
-- plain definitions in a metavariable's type
set_option backward.isDefEq.respectTransparency.types false in
/-- Every weakly fair execution of @main from memory m with zero counters terminates, nothing faulting, and leaves
    every argument array as launched: the conditional frame at the seven records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond (F := F) m (EP := emb₁) (ι := ()) (𝒱₀ := 𝒱₀) (L := L) (lv := lv) (hL := fun _ _ => rfl) (ρ := ρ) (outs := outsU m) (pdats := pdats m)
    (O₀ := 0) (G := fun _ => iprop(emp)) (u₀ := initOf (Pipeline.cells cfgs cellOf_inj) (Pipeline.launchToks cfgs cellOf_inj)) (hu₀ := hu₀)
    (E := fun _ c => Rd c) (hE0 := hE0 ρ) (hE7 := hE7)
    (R0 := reg0 m)
    (hpre0 := fun c => .rfl)
    (hpost0 := fun c => by rw [V4_eq]; exact .rfl)
    (R1 := reg1 m)
    (hpre1 := fun c => by rw [V6_eq]; exact .rfl)
    (hpost1 := fun c => by rw [V7_eq]; exact .rfl)
    (R2 := reg2 m)
    (hpre2 := fun c => by rw [V8_eq]; exact .rfl)
    (hpost2 := fun c => by rw [V9_eq]; exact .rfl)
    (R3 := reg3 m)
    (hpre3 := fun c => by rw [V9_eq]; exact .rfl)
    (hpost3 := fun c => by rw [V10_eq]; exact .rfl)
    (R4 := reg4 m)
    (hpre4 := fun c => by rw [V12_eq]; exact .rfl)
    (hpost4 := fun c => by rw [V13_eq]; exact .rfl)
    (R5 := reg5 m)
    (hpre5 := fun c => by rw [V14_eq]; exact .rfl)
    (hpost5 := fun c => by rw [V15_eq]; exact .rfl)
    (R6 := reg6 m)
    (hpre6 := fun c => by rw [V16_eq]; exact .rfl)
    (hpost6 := fun c => by rw [V17_eq]; exact .rfl)

end Cert.Kernel.Frm

end
-- ==== Proof.KI.Reg0.lean ====
/-
  Kernel region 0 of the program (the call of cc0__matmul_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whether the point fetched it or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rin0_0 : Rect S10000x128 := Rect.unit (s := S10000x128) ![0, 0] S10000x128.size inb_S10000x128_S10000x128_0_0
abbrev rin0_1 : Rect S128x128 := Rect.unit (s := S128x128) ![0, 0] S128x128.size inb_S128x128_S128x128_0_0
abbrev rout0 : Rect S10000x128 := Rect.unit (s := S10000x128) ![0, 0] S10000x128.size inb_S10000x128_S10000x128_0_0

/-- The output's staging buffer after the body: one store, of the body's value of the two loaded blocks. -/
def out0_2 (x0 : Vec F S10000x128 .f32) (x1 : Vec F S128x128 .f32) : Vec F S10000x128 .f32 :=
  View.canon [⟨rout0, k0_pay1 (View.ld x0 rin0_0) (View.ld x1 rin0_1)⟩]

/-- The one store covers the buffer. -/
theorem cover0_2 (p0 : Vec F S10000x128 .f32) (y : S10000x128.Idx) :
    ∃ pc ∈ ([⟨rout0, p0⟩] : List (View.Piece (Elt F) S10000x128 .f32)), y ∈ pc.1.set :=
  View.cover_of_tiled [⟨rout0, p0⟩] S10000x128.size (by rfl) y

set_option maxHeartbeats 1000000 in
/-- The body on whole staging memrefs: the inputs at contents x0, x1 and the output at anything run to the inputs
    as they were and the output at the value above. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body at a point each input's
    buffer at its block and the output's at the body's value of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Reg1.lean ====
/-
  Kernel region 1 of the program (the call of cc1__scale_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether the point fetched it or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rin1_0 : Rect S9000x128 := Rect.unit (s := S9000x128) ![0, 0] S9000x128.size inb_S9000x128_S9000x128_0_0
abbrev rin1_1 : Rect S9000x1 := Rect.unit (s := S9000x1) ![0, 0] S9000x1.size inb_S9000x1_S9000x1_0_0
abbrev rout1 : Rect S9000x128 := Rect.unit (s := S9000x128) ![0, 0] S9000x128.size inb_S9000x128_S9000x128_0_0

/-- The output's staging buffer after the body: one store, of the body's value of the two loaded blocks. -/
def out1_2 (x0 : Vec F S9000x128 .f32) (x1 : Vec F S9000x1 .f32) : Vec F S9000x128 .f32 :=
  View.canon [⟨rout1, k1_pay1 (View.ld x0 rin1_0) (View.ld x1 rin1_1)⟩]

/-- The one store covers the buffer. -/
theorem cover1_2 (p0 : Vec F S9000x128 .f32) (y : S9000x128.Idx) :
    ∃ pc ∈ ([⟨rout1, p0⟩] : List (View.Piece (Elt F) S9000x128 .f32)), y ∈ pc.1.set :=
  View.cover_of_tiled [⟨rout1, p0⟩] S9000x128.size (by rfl) y

set_option maxHeartbeats 1000000 in
/-- The body on whole staging memrefs: the inputs at contents x0, x1 and the output at anything run to the inputs
    as they were and the output at the value above. -/
theorem sound_kernel1 (c : Dev nD) (E : Set ℕ) (i : grid1.Coords) (arg1 : Memref sig .tc .vmem S9000x128 .f32) (harg1 : arg1.IsWhole)
    (arg2 : Memref sig .tc .vmem S9000x1 .f32) (harg2 : arg2.IsWhole) (arg3 : Memref sig .tc .vmem S9000x128 .f32) (harg3 : arg3.IsWhole)
    (x0 : Vec F S9000x128 .f32) (x1 : Vec F S9000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at a point each input's
    buffer at its block and the output's at the body's value of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Reg2.lean ====
/-
  Kernel region 2 of the program (the call of cc2__bias_act_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether the point fetched it or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rin2_0 : Rect S10000x128 := Rect.unit (s := S10000x128) ![0, 0] S10000x128.size inb_S10000x128_S10000x128_0_0
abbrev rin2_1 : Rect S1x128 := Rect.unit (s := S1x128) ![0, 0] S1x128.size inb_S1x128_S1x128_0_0
abbrev rout2 : Rect S10000x128 := Rect.unit (s := S10000x128) ![0, 0] S10000x128.size inb_S10000x128_S10000x128_0_0

/-- The output's staging buffer after the body: one store, of the body's value of the two loaded blocks. -/
def out2_2 (x0 : Vec F S10000x128 .f32) (x1 : Vec F S1x128 .f32) : Vec F S10000x128 .f32 :=
  View.canon [⟨rout2, k2_pay1 (View.ld x0 rin2_0) (View.ld x1 rin2_1)⟩]

/-- The one store covers the buffer. -/
theorem cover2_2 (p0 : Vec F S10000x128 .f32) (y : S10000x128.Idx) :
    ∃ pc ∈ ([⟨rout2, p0⟩] : List (View.Piece (Elt F) S10000x128 .f32)), y ∈ pc.1.set :=
  View.cover_of_tiled [⟨rout2, p0⟩] S10000x128.size (by rfl) y

set_option maxHeartbeats 1000000 in
/-- The body on whole staging memrefs: the inputs at contents x0, x1 and the output at anything run to the inputs
    as they were and the output at the value above. -/
theorem sound_kernel2 (c : Dev nD) (E : Set ℕ) (i : grid2.Coords) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core c: the arrays as the region finds them; after the body at a point each input's
    buffer at its block and the output's at the body's value of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Reg3.lean ====
/-
  Kernel region 3 of the program (the call of cc3__matmul_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, whether the point fetched it or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rin3_0 : Rect S10000x128 := Rect.unit (s := S10000x128) ![0, 0] S10000x128.size inb_S10000x128_S10000x128_0_0
abbrev rin3_1 : Rect S128x2 := Rect.unit (s := S128x2) ![0, 0] S128x2.size inb_S128x2_S128x2_0_0
abbrev rout3 : Rect S10000x2 := Rect.unit (s := S10000x2) ![0, 0] S10000x2.size inb_S10000x2_S10000x2_0_0

/-- The output's staging buffer after the body: one store, of the body's value of the two loaded blocks. -/
def out3_2 (x0 : Vec F S10000x128 .f32) (x1 : Vec F S128x2 .f32) : Vec F S10000x2 .f32 :=
  View.canon [⟨rout3, k3_pay1 (View.ld x0 rin3_0) (View.ld x1 rin3_1)⟩]

/-- The one store covers the buffer. -/
theorem cover3_2 (p0 : Vec F S10000x2 .f32) (y : S10000x2.Idx) :
    ∃ pc ∈ ([⟨rout3, p0⟩] : List (View.Piece (Elt F) S10000x2 .f32)), y ∈ pc.1.set :=
  View.cover_of_tiled [⟨rout3, p0⟩] S10000x2.size (by rfl) y

set_option maxHeartbeats 1000000 in
/-- The body on whole staging memrefs: the inputs at contents x0, x1 and the output at anything run to the inputs
    as they were and the output at the value above. -/
theorem sound_kernel3 (c : Dev nD) (E : Set ℕ) (i : grid3.Coords) (arg1 : Memref sig .tc .vmem S10000x128 .f32) (harg1 : arg1.IsWhole)
    (arg2 : Memref sig .tc .vmem S128x2 .f32) (harg2 : arg2.IsWhole) (arg3 : Memref sig .tc .vmem S10000x2 .f32) (harg3 : arg3.IsWhole)
    (x0 : Vec F S10000x128 .f32) (x1 : Vec F S128x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core c: the arrays as the region finds them; after the body at a point each input's
    buffer at its block and the output's at the body's value of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Reg4.lean ====
/-
  Kernel region 4 of the program (the call of cc4__scale_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point, whether the point fetched it or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input's staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rin4_0 : Rect S9000x2 := Rect.unit (s := S9000x2) ![0, 0] S9000x2.size inb_S9000x2_S9000x2_0_0
abbrev rin4_1 : Rect S9000x1 := Rect.unit (s := S9000x1) ![0, 0] S9000x1.size inb_S9000x1_S9000x1_0_0
abbrev rout4 : Rect S9000x2 := Rect.unit (s := S9000x2) ![0, 0] S9000x2.size inb_S9000x2_S9000x2_0_0

/-- The output's staging buffer after the body: one store, of the body's value of the two loaded blocks. -/
def out4_2 (x0 : Vec F S9000x2 .f32) (x1 : Vec F S9000x1 .f32) : Vec F S9000x2 .f32 :=
  View.canon [⟨rout4, k4_pay1 (View.ld x0 rin4_0) (View.ld x1 rin4_1)⟩]

/-- The one store covers the buffer. -/
theorem cover4_2 (p0 : Vec F S9000x2 .f32) (y : S9000x2.Idx) :
    ∃ pc ∈ ([⟨rout4, p0⟩] : List (View.Piece (Elt F) S9000x2 .f32)), y ∈ pc.1.set :=
  View.cover_of_tiled [⟨rout4, p0⟩] S9000x2.size (by rfl) y

set_option maxHeartbeats 1000000 in
/-- The body on whole staging memrefs: the inputs at contents x0, x1 and the output at anything run to the inputs
    as they were and the output at the value above. -/
theorem sound_kernel4 (c : Dev nD) (E : Set ℕ) (i : grid4.Coords) (arg1 : Memref sig .tc .vmem S9000x2 .f32) (harg1 : arg1.IsWhole)
    (arg2 : Memref sig .tc .vmem S9000x1 .f32) (harg2 : arg2.IsWhole) (arg3 : Memref sig .tc .vmem S9000x2 .f32) (harg3 : arg3.IsWhole)
    (x0 : Vec F S9000x2 .f32) (x1 : Vec F S9000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core c: the arrays as the region finds them; after the body at a point each input's
    buffer at its block and the output's at the body's value of the two blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Reg5.lean ====
/-
  Kernel region 5 of the program (the call of cc5__bias_act_kernel): the half of its frame that concerns the body.
  At a parameter V — the buffer contents the region is entered from — a window's block at a grid point is the
  rectangle of its array the index map names; the body loads the two input blocks whole, computes one value from
  them and stores it over the whole output block, so after the body the output's staging buffer holds that
  value of the two input blocks, and the inputs' buffers hold their blocks still. That is the region's proof data,
  and the body's triple at every grid point is its obligation.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The first input's staging buffer holds its block at every point, whether the point fetched it or kept it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The second input's staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev rin5_0 : Rect S10000x2 := Rect.unit (s := S10000x2) ![0, 0] S10000x2.size inb_S10000x2_S10000x2_0_0
abbrev rin5_1 : Rect S1x2 := Rect.unit (s := S1x2) ![0, 0] S1x2.size inb_S1x2_S1x2_0_0
abbrev rout5 : Rect S10000x2 := Rect.unit (s := S10000x2) ![0, 0] S10000x2.size inb_S10000x2_S10000x2_0_0

/-- The output's staging buffer after the body: one store, of the body's value of the two loaded blocks. -/
def out5_2 (x0 : Vec F S10000x2 .f32) (x1 : Vec F S1x2 .f32) : Vec F S10000x2 .f32 :=
  View.canon [⟨rout5, k5_pay1 (View.ld x0 rin5_0) (View.ld x1 rin5_1)⟩]

/-- The one store covers the buffer. -/
theorem cover5_2 (p0 : Vec F S10000x2 .f32) (y : S10000x2.Idx) :
    ∃ pc ∈ ([⟨rout5, p0⟩] : List (View.Piece (Elt F) S10000x2 .f32)), y ∈ pc.1.set :=
  View.cover_of_tiled [⟨rout5, p0⟩] S10000x2.size (by rfl) y

set_option maxHeartbeats 1000000 in
/-- The body on whole staging memrefs: the inputs at contents x0, x1 and the output at anything run to the inputs
    as they were and the output at the value above. -/
theorem sound_kernel5 (c : Dev nD) (E : Set ℕ) (i : grid5.Coords) (arg1 : Memref sig .tc .vmem S10000x2 .f32) (harg1 : arg1.IsWhole)
    (arg2 : Memref sig .tc .vmem S1x2 .f32) (harg2 : arg2.IsWhole) (arg3 : Memref sig .tc .vmem S10000x2 .f32) (harg3 : arg3.IsWhole)
    (x0 : Vec F S10000x2 .f32) (x1 : Vec F S1x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core c: the arrays as the region finds them; after the body at a point each input's
    buffer at its block and the output's at the body's value of the two blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Reg6.lean ====
/-
  Kernel region 6 of the program (the call of cc6__pool_kernel): the half of its frame that concerns the body.
  The grid has ten points. The body keeps two running values in the call's two scratch buffers: at the first point it
  zeroes both; at every point it loads the point's two input blocks and folds them into the two buffers; at the last
  point it stores one value of the two buffers over the output block. So the scratch buffers after point t hold the
  fold of the first t + 1 pairs of blocks from zero, the invariant between points carries them at that, and the
  output's staging buffer, idle at every point but the last, holds after the last point the value of the two full folds.
-/
import proofs.«424645_j84567906058949_2_alg».proof.Proof.Gen.KernelIdeal.Launch
import proofs.«424645_j84567906058949_2_alg».proof.Proof.Gen.KernelIdeal.Skeleton
import proofs.«424645_j84567906058949_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t: the rectangle of its array (as the region finds it) that the index map names. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem lt_N6 {n : ℕ} (h : n < 10) : n < cfg6.N := by rw [show cfg6.N = 10 from N_6]; exact h

/-- The first running value before point n: zero, then each point's pair of blocks folded in. -/
def sums6 (c : Dev nD) : ℕ → Vec F S16x2 .f32
  | 0 => k6_pay1
  | n + 1 => if h : n < 10 then k6_pay4 (iblk6 V c 1 ⟨n, lt_N6 h⟩) (iblk6 V c 0 ⟨n, lt_N6 h⟩) (sums6 c n) else sums6 c n

/-- The second running value before point n. -/
def cnts6 (c : Dev nD) : ℕ → Vec F S16x1 .f32
  | 0 => k6_pay2
  | n + 1 => if h : n < 10 then k6_pay5 (iblk6 V c 1 ⟨n, lt_N6 h⟩) (cnts6 c n) else cnts6 c n

theorem sums6_zero (c : Dev nD) : sums6 V c 0 = k6_pay1 := rfl
theorem cnts6_zero (c : Dev nD) : cnts6 V c 0 = k6_pay2 := rfl

theorem sums6_succ (c : Dev nD) (n : ℕ) (h : n < 10) :
    sums6 V c (n + 1) = k6_pay4 (iblk6 V c 1 ⟨n, lt_N6 h⟩) (iblk6 V c 0 ⟨n, lt_N6 h⟩) (sums6 V c n) := by
  rw [sums6, dif_pos h]

theorem cnts6_succ (c : Dev nD) (n : ℕ) (h : n < 10) :
    cnts6 V c (n + 1) = k6_pay5 (iblk6 V c 1 ⟨n, lt_N6 h⟩) (cnts6 V c n) := by
  rw [cnts6, dif_pos h]

/-- The two scratch buffers before point n: at anything before the first, then at the two running values. -/
def scr6 (c : Dev nD) (n : ℕ) : sProp 𝕄 :=
  if n = 0 then
    iprop((∃ f : Buf (Elt F) ((c : Thread nD τ).loc cc6_scratch0), ((c : Thread nD τ).loc cc6_scratch0) ↦{fullShare} f)
      ∗ (∃ f : Buf (Elt F) ((c : Thread nD τ).loc cc6_scratch1), ((c : Thread nD τ).loc cc6_scratch1) ↦{fullShare} f))
  else
    iprop(owns (c : Thread nD τ) (Memref.whole cc6_scratch0 : Memref sig .tc .vmem S16x2 .f32) fullShare (sums6 V c n)
      ∗ owns (c : Thread nD τ) (Memref.whole cc6_scratch1 : Memref sig .tc .vmem S16x1 .f32) fullShare (cnts6 V c n))

/-- The invariant before point t: the scratch buffers as above, every other scoped buffer unopened, the generator register. -/
def Φ6 (c : Dev nD) (t : Fin (cfg6.N + 1)) : sProp 𝕄 :=
  iprop(scr6 V c t.val
    ∗ Pipeline.scopedRestBut (Ix := Unit) (Name := ℕ) (U := UR sig nD τ) (Lvl := ℕ) (Val := Elt F) spec6 c [cc6_scratch0, cc6_scratch1]
    ∗ ∃ r, prngReg c r)

/-- The region's proof data on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay6 (sums6 V c 10) (cnts6 V c 10)
  Φ t := Φ6 V c t
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay6 (sums6 V c 10) (cnts6 V c 10) := by dsimp only [dat6]
theorem owed6 (c : Dev nD) (t : Fin (cfg6.N + 1)) : (dat6 V c).owed t = 0 := by dsimp only [dat6]
theorem Φ_eq6 (c : Dev nD) (t : Fin (cfg6.N + 1)) : (dat6 V c).Φ t = Φ6 V c t := by dsimp only [dat6]

theorem sums6_zero' (c : Dev nD) {n : ℕ} (h : n = 0) : sums6 V c n = k6_pay1 := by subst h; rfl
theorem cnts6_zero' (c : Dev nD) {n : ℕ} (h : n = 0) : cnts6 V c n = k6_pay2 := by subst h; rfl

/-- The condition of the body's first conditional, from the grid coordinates. -/
abbrev cond6_1 (i : grid6.Coords) : Prop :=
  (Scalar.cmpi .ne (Scalar.extui (Scalar.cmpi .eq (BitVec.ofNat 32 (i 0).val) 0#32)) 0#32) = 1#1

/-- It holds at the first point only. -/
theorem hcond6_1 : ∀ t : Fin cfg6.N, cond6_1 (grid6.coords t) ↔ t.val = 0 :=
  (by decide +kernel : ∀ t : Fin grid6.N, cond6_1 (grid6.coords t) ↔ t.val = 0)

/-- The second conditional's holds at the last point only. -/
theorem hcond6_2 : ∀ t : Fin cfg6.N, k6_cond2 (grid6.coords t) = 1#1 ↔ t.val = 9 :=
  (by decide +kernel : ∀ t : Fin grid6.N, k6_cond2 (grid6.coords t) = 1#1 ↔ t.val = 9)

/-- The output window is idle at every point but the last. -/
theorem hidle6_2 : ∀ t : Fin cfg6.N, cfg6.idle 2 (cfg6.grid.coords t) = !decide (t.val = 9) :=
  (by decide +kernel : ∀ t : Fin grid6.N, idle6 2 (grid6.coords t) = !decide (t.val = 9))

theorem zeros2 : (![0, 0] : Fin 2 → ℕ) = fun _ => 0 := by funext a; fin_cases a <;> rfl

/-- The whole-block rectangles the body loads and stores through. -/
abbrev rh6 : Rect S10000x2 := Rect.unit (s := S10000x2) ![0, 0] S10000x2.size inb_S10000x2_S10000x2_0_0
abbrev rb6 : Rect S10000x1 := Rect.unit (s := S10000x1) ![0, 0] S10000x1.size inb_S10000x1_S10000x1_0_0
abbrev rs6 : Rect S16x2 := Rect.unit (s := S16x2) ![0, 0] S16x2.size inb_S16x2_S16x2_0_0
abbrev rc6 : Rect S16x1 := Rect.unit (s := S16x1) ![0, 0] S16x1.size inb_S16x1_S16x1_0_0

/-- A load through a whole-block rectangle reads the buffer's contents. -/
theorem ldh6 (v : View sig .tc .vmem S10000x2 .f32) (f : v.ty.Contents (Elt F)) :
    View.readAt (Elt F) v rh6.toLoadRect f = View.read (Elt F) v f :=
  (View.readAt_eq_ld v f rh6).trans (View.ld_unit_zero (S := S10000x2) zeros2 inb_S10000x2_S10000x2_0_0 (View.read (Elt F) v f))
theorem ldb6 (v : View sig .tc .vmem S10000x1 .i32) (f : v.ty.Contents (Elt F)) :
    View.readAt (Elt F) v rb6.toLoadRect f = View.read (Elt F) v f :=
  (View.readAt_eq_ld v f rb6).trans (View.ld_unit_zero (S := S10000x1) zeros2 inb_S10000x1_S10000x1_0_0 (View.read (Elt F) v f))
theorem lds6 (v : View sig .tc .vmem S16x2 .f32) (f : v.ty.Contents (Elt F)) :
    View.readAt (Elt F) v rs6.toLoadRect f = View.read (Elt F) v f :=
  (View.readAt_eq_ld v f rs6).trans (View.ld_unit_zero (S := S16x2) zeros2 inb_S16x2_S16x2_0_0 (View.read (Elt F) v f))
theorem ldc6 (v : View sig .tc .vmem S16x1 .f32) (f : v.ty.Contents (Elt F)) :
    View.readAt (Elt F) v rc6.toLoadRect f = View.read (Elt F) v f :=
  (View.readAt_eq_ld v f rc6).trans (View.ld_unit_zero (S := S16x1) zeros2 inb_S16x1_S16x1_0_0 (View.read (Elt F) v f))

/-- A whole-block store, last, leaves its payload, whatever came before; read back at once it reads the payload. -/
theorem sts6 (v : View sig .tc .vmem S16x2 .f32) (f : v.ty.Contents (Elt F)) (w : Vec F S16x2 .f32) (L : List (View.Piece (Elt F) S16x2 .f32)) :
    View.read (Elt F) v (v.writes (Elt F) f (⟨rs6, w⟩ :: L)) = w := by
  have hc : ∀ y : S16x2.Idx, ∃ p ∈ ((⟨rs6, w⟩ : View.Piece (Elt F) S16x2 .f32) :: L), y ∈ p.1.set :=
    fun y => ⟨⟨rs6, w⟩, List.mem_cons.mpr (Or.inl rfl), View.mem_set_unit_zero (S := S16x2) zeros2 inb_S16x2_S16x2_0_0 y⟩
  rw [View.read_writes_eq_canon v f _ hc, View.canon_cons_unit_zero (S := S16x2) zeros2]
theorem stc6 (v : View sig .tc .vmem S16x1 .f32) (f : v.ty.Contents (Elt F)) (w : Vec F S16x1 .f32) (L : List (View.Piece (Elt F) S16x1 .f32)) :
    View.read (Elt F) v (v.writes (Elt F) f (⟨rc6, w⟩ :: L)) = w := by
  have hc : ∀ y : S16x1.Idx, ∃ p ∈ ((⟨rc6, w⟩ : View.Piece (Elt F) S16x1 .f32) :: L), y ∈ p.1.set :=
    fun y => ⟨⟨rc6, w⟩, List.mem_cons.mpr (Or.inl rfl), View.mem_set_unit_zero (S := S16x1) zeros2 inb_S16x1_S16x1_0_0 y⟩
  rw [View.read_writes_eq_canon v f _ hc, View.canon_cons_unit_zero (S := S16x1) zeros2]
theorem rcs6 (v : View sig .tc .vmem S16x2 .f32) (w : Vec F S16x2 .f32) :
    v.readCov [(⟨rs6, w⟩ : View.Piece (Elt F) S16x2 .f32)] rs6.toLoadRect = w := View.readCov_unit_zero (S := S16x2) v zeros2 _ w
theorem rcc6 (v : View sig .tc .vmem S16x1 .f32) (w : Vec F S16x1 .f32) :
    v.readCov [(⟨rc6, w⟩ : View.Piece (Elt F) S16x1 .f32)] rc6.toLoadRect = w := View.readCov_unit_zero (S := S16x1) v zeros2 _ w

set_option maxHeartbeats 1000000 in
/-- The body at the first point: the scratch buffers, at anything, are zeroed and the point's blocks folded in;
    the output's buffer is not touched. -/
theorem sound_kernel6_first (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : cond6_1 i) (h2 : ¬ k6_cond2 i = 1#1)
    (x0 : Vec F S10000x2 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg4 fullShare (k6_pay4 x1 x0 k6_pay1)
            ∗ owns (c : Thread nD τ) arg5 fullShare (k6_pay5 x1 k6_pay2)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [sts6, rcs6, ldb6, ldh6]
  iexists _; isplitr
  swap; · iexact H5
  ipureintro
  sl_unfold_run_names
  rw [stc6, rcc6, ldb6]

set_option maxHeartbeats 1000000 in
/-- The body at a point neither first nor last: the point's blocks are folded into the scratch buffers. -/
theorem sound_kernel6_mid (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : ¬ cond6_1 i) (h2 : ¬ k6_cond2 i = 1#1)
    (x0 : Vec F S10000x2 .f32) (x1 : Vec F S10000x1 .i32) (s : Vec F S16x2 .f32) (n : Vec F S16x1 .f32) (K : PUnit → sProp 𝕄) :
    iprop(owns (c : Thread nD τ) arg1 fullShare x0 ∗ owns (c : Thread nD τ) arg2 fullShare x1
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg4 fullShare (k6_pay4 x1 x0 s)
            ∗ owns (c : Thread nD τ) arg5 fullShare (k6_pay5 x1 n)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [sts6, lds6, ldb6, ldh6]
  iexists _; isplitr
  swap; · iexact H5
  ipureintro
  sl_unfold_run_names
  rw [stc6, ldc6, ldb6]

set_option maxHeartbeats 1000000 in
/-- The body at the last point: the point's blocks are folded into the scratch buffers and the output's buffer,
    at anything, is stored whole with the value of the two. -/
theorem sound_kernel6_last (c : Dev nD) (E : Set ℕ) (i : grid6.Coords)
    (arg1 : Memref sig .tc .vmem S10000x2 .f32) (harg1 : arg1.IsWhole) (arg2 : Memref sig .tc .vmem S10000x1 .i32) (harg2 : arg2.IsWhole)
    (arg3 : Memref sig .tc .vmem S16x2 .f32) (harg3 : arg3.IsWhole) (arg4 : Memref sig .tc .vmem S16x2 .f32) (harg4 : arg4.IsWhole)
    (arg5 : Memref sig .tc .vmem S16x1 .f32) (harg5 : arg5.IsWhole) (h1 : ¬ cond6_1 i) (h2 : k6_cond2 i = 1#1)
    (x0 : Vec F S10000x2 .f32) (x1 : Vec F S10000x1 .i32) (s : Vec F S16x2 .f32) (n : Vec F S16x1 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (k6_pay6 (k6_pay4 x1 x0 s) (k6_pay5 x1 n))
            ∗ owns (c : Thread nD τ) arg4 fullShare (k6_pay4 x1 x0 s)
            ∗ owns (c : Thread nD τ) arg5 fullShare (k6_pay5 x1 n)) -∗ K ⟨⟩))
      ⊢ wp frame (wpE (defs₀ (F := F)) Variants.none c none) E (cc6__pool_kernel i arg1 harg1 arg2 harg2 arg3 harg3 arg4 harg4 arg5 harg5) K := by
  simp only [cc6__pool_kernel_eq_skeleton]; unfold cc6__pool_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_run_names
    rw [sts6, rcs6, rcc6, lds6, ldc6, ldb6, ldh6]
  isplitl [H4]
  · iexists _; isplitr
    swap; · iexact H4
    ipureintro
    sl_unfold_run_names
    rw [sts6, lds6, ldb6, ldh6]
  iexists _; isplitr
  swap; · iexact H5
  ipureintro
  sl_unfold_run_names
  rw [stc6, ldc6, ldb6]

/-- The first input's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The second input's staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- The running values after point t, from those before it. -/
theorem sums6_at (c : Dev nD) (t : Fin cfg6.N) :
    sums6 V c (t.val + 1) = k6_pay4 (iblk6 V c 1 t) (iblk6 V c 0 t) (sums6 V c t.val) :=
  sums6_succ V c t.val (lt_of_lt_of_eq t.isLt (show cfg6.N = 10 from N_6))
theorem cnts6_at (c : Dev nD) (t : Fin cfg6.N) :
    cnts6 V c (t.val + 1) = k6_pay5 (iblk6 V c 1 t) (cnts6 V c t.val) :=
  cnts6_succ V c t.val (lt_of_lt_of_eq t.isLt (show cfg6.N = 10 from N_6))

theorem scr6_zero (c : Dev nD) {n : ℕ} (h : n = 0) : scr6 V c n =
    iprop((∃ d, owns (c : Thread nD τ) (Memref.whole cc6_scratch0 : Memref sig .tc .vmem S16x2 .f32) fullShare d)
      ∗ (∃ d, owns (c : Thread nD τ) (Memref.whole cc6_scratch1 : Memref sig .tc .vmem S16x1 .f32) fullShare d)) := by
  subst h; unfold scr6; rw [if_pos rfl]; simp only [owns_whole]

theorem scr6_pos (c : Dev nD) {n : ℕ} (h : n ≠ 0) : scr6 V c n =
    iprop(owns (c : Thread nD τ) (Memref.whole cc6_scratch0 : Memref sig .tc .vmem S16x2 .f32) fullShare (sums6 V c n)
      ∗ owns (c : Thread nD τ) (Memref.whole cc6_scratch1 : Memref sig .tc .vmem S16x1 .f32) fullShare (cnts6 V c n)) := by
  unfold scr6; rw [if_neg h]

theorem leavesExact_live6 (c : Dev nD) (t : Fin cfg6.N) (hi : cfg6.idle 2 (cfg6.grid.coords t) = false) :
    (dat6 V c).leavesExact 2 t = owns (c : Thread nD τ) (st6_2 t) fullShare ((dat6 V c).after 2 t) := by
  unfold Dat.leavesExact; rw [hi]

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns: the output's buffer as it was found at every point but the last. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ (dat6 V c).leavesExact 2 t)

set_option maxHeartbeats 1000000 in
/-- The body at any point, by cases on the point: first, last, or neither. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl, after6_0, after6_1, Φ_eq6, Φ_eq6]
  unfold Φ6
  rw [show (t.castSucc : Fin (cfg6.N + 1)).val = t.val from rfl, show (t.succ : Fin (cfg6.N + 1)).val = t.val + 1 from rfl,
    scr6_pos V c (Nat.succ_ne_zero t.val), sums6_at, cnts6_at]
  have hN : t.val < 10 := lt_of_lt_of_eq t.isLt (show cfg6.N = 10 from N_6)
  by_cases h9 : t.val = 9
  · have h0 : t.val ≠ 0 := by omega
    have hi : cfg6.idle 2 (cfg6.grid.coords t) = false := by rw [hidle6_2, h9]; rfl
    rw [leavesExact_live6 V c t hi, after6_2, scr6_pos V c h0,
      show sums6 V c 10 = k6_pay4 (iblk6 V c 1 t) (iblk6 V c 0 t) (sums6 V c t.val) from by
        rw [show (10 : ℕ) = t.val + 1 from by omega]; exact sums6_at V c t,
      show cnts6 V c 10 = k6_pay5 (iblk6 V c 1 t) (cnts6 V c t.val) from by
        rw [show (10 : ℕ) = t.val + 1 from by omega]; exact cnts6_at V c t]
    iintro ⟨⟨⟨S0, S1⟩, HR, HP⟩, Ho, ⟨%d0, H0⟩, ⟨%d1, H1⟩, ⟨%d2, H2⟩⟩
    iapply (sound_kernel6_last c Set.univ _ _ _ _ _ _ _ _ _ _ _ (fun h => h0 ((hcond6_1 t).mp h)) ((hcond6_2 t).mpr h9)
      (iblk6 V c 0 t) (iblk6 V c 1 t) (sums6 V c t.val) (cnts6 V c t.val) _)
    isplitl [H0]; · iexact H0
    isplitl [H1]; · iexact H1
    isplitl [H2]; · iexists _; iexact H2
    isplitl [S0]; · iexact S0
    isplitl [S1]; · iexact S1
    iintro ⟨H0, H1, H2, S0, S1⟩
    isplitl [S0 S1 HR HP]
    · isplitl [S0 S1]
      · isplitl [S0]; · iexact S0
        iexact S1
      isplitl [HR]; · iexact HR
      iexact HP
    isplitl [Ho]; · iexact Ho
    isplitl [H0]; · iexact H0
    isplitl [H1]; · iexact H1
    iexact H2
  · have hi : cfg6.idle 2 (cfg6.grid.coords t) = true := by rw [hidle6_2, decide_eq_false h9]; rfl
    have hf : (cfg6.win 2).flush t = false :=
      Bool.eq_false_iff.mpr fun h => by have := (flush6_2 t).mp h; omega
    rw [Dat.leavesExact_idle _ 2 t hi hf]
    by_cases h0 : t.val = 0
    · rw [scr6_zero V c h0, sums6_zero' V c h0, cnts6_zero' V c h0]
      iintro ⟨⟨⟨⟨%e0, S0⟩, ⟨%e1, S1⟩⟩, HR, HP⟩, Ho, ⟨%d0, H0⟩, ⟨%d1, H1⟩, ⟨%d2, H2⟩⟩
      iapply (sound_kernel6_first c Set.univ _ _ _ _ _ _ _ _ _ _ _ ((hcond6_1 t).mpr h0) (fun h => h9 ((hcond6_2 t).mp h))
        (iblk6 V c 0 t) (iblk6 V c 1 t) _)
      isplitl [H0]; · iexact H0
      isplitl [H1]; · iexact H1
      isplitl [S0]; · iexists _; iexact S0
      isplitl [S1]; · iexists _; iexact S1
      iintro ⟨H0, H1, S0, S1⟩
      isplitl [S0 S1 HR HP]
      · isplitl [S0 S1]
        · isplitl [S0]; · iexact S0
          iexact S1
        isplitl [HR]; · iexact HR
        iexact HP
      isplitl [Ho]; · iexact Ho
      isplitl [H0]; · iexact H0
      isplitl [H1]; · iexact H1
      iexists _; iexact H2
    · rw [scr6_pos V c h0]
      iintro ⟨⟨⟨S0, S1⟩, HR, HP⟩, Ho, ⟨%d0, H0⟩, ⟨%d1, H1⟩, ⟨%d2, H2⟩⟩
      iapply (sound_kernel6_mid c Set.univ _ _ _ _ _ _ _ _ _ _ _ (fun h => h0 ((hcond6_1 t).mp h)) (fun h => h9 ((hcond6_2 t).mp h))
        (iblk6 V c 0 t) (iblk6 V c 1 t) (sums6 V c t.val) (cnts6 V c t.val) _)
      isplitl [H0]; · iexact H0
      isplitl [H1]; · iexact H1
      isplitl [S0]; · iexact S0
      isplitl [S1]; · iexact S1
      iintro ⟨H0, H1, S0, S1⟩
      isplitl [S0 S1 HR HP]
      · isplitl [S0 S1]
        · isplitl [S0]; · iexact S0
          iexact S1
        isplitl [HR]; · iexact HR
        iexact HP
      isplitl [Ho]; · iexact Ho
      isplitl [H0]; · iexact H0
      isplitl [H1]; · iexact H1
      iexists _; iexact H2

/-- The body obligation at every point. -/
theorem body_obligation6 (c : Dev nD) : BodyObligation (dat6 (F := F) V c) (defs₀ (F := F)) Variants.none () Set.univ := fun t => by
  rw [bigSep_W6, bigSep_W6]
  exact sound_body6 V c t

/-- The region's invariant before its first point is what the region is entered with: the scoped rest, the two
    scratch buffers among it at anything, and the generator register. -/
theorem Φ6_in (c : Dev nD) : iprop(Pipeline.scopedRest (Ix := Unit) (Name := ℕ) (U := UR sig nD τ) (Lvl := ℕ) (Val := Elt F) spec6 c ∗ ∃ r, prngReg c r) ⊢ (dat6 V c).Φ 0 := by
  rw [Φ_eq6, scopedRest6_split]; unfold Φ6
  rw [show ((0 : Fin (cfg6.N + 1)) : Fin (cfg6.N + 1)).val = 0 from rfl]
  unfold scr6; rw [if_pos rfl]
  iintro ⟨⟨HS, HR⟩, HP⟩
  isplitl [HS]; · iexact HS
  isplitl [HR]; · iexact HR
  iexact HP

/-- After the last point the invariant gives the scoped rest back, the scratch buffers at the two full folds. -/
theorem Φ6_out (c : Dev nD) : (dat6 V c).Φ (Fin.last cfg6.N) ⊢ iprop(Pipeline.scopedRest (Ix := Unit) (Name := ℕ) (U := UR sig nD τ) (Lvl := ℕ) (Val := Elt F) spec6 c ∗ ∃ r, prngReg c r) := by
  rw [Φ_eq6, scopedRest6_split]; unfold Φ6
  rw [scr6_pos V c (show (Fin.last cfg6.N).val ≠ 0 from by rw [Fin.val_last, show cfg6.N = 10 from N_6]; decide)]
  simp only [owns_whole]
  iintro ⟨⟨S0, S1⟩, HR, HP⟩
  isplitl [S0 S1 HR]
  · isplitl [S0 S1]
    · isplitl [S0]; · iexists _; iexact S0
      iexists _; iexact S1
    iexact HR
  iexact HP

end Cert.KernelIdeal.Frm

end
-- ==== Proof.KI.Run.lean ====
/-
  The kernel program's run, item by item. Between two items of @main every unscoped buffer of a core is held at
  known contents: the launch memory, then each stretch of host operations applied, then — after a kernel region —
  the region's output array at what its write-backs leave and every other buffer as the region found it. Each region
  enters from those contents, runs its pipeline over the proof data of its body, and leaves the next contents; the
  arguments are written by nothing, so they end as launched.
-/
import proofs.«424645_j84567906058949_2_alg».proof.Proof.Gen.KernelIdeal.Regions
import proofs.«424645_j84567906058949_2_alg».proof.Proof.KI.Reg0
import proofs.«424645_j84567906058949_2_alg».proof.Proof.KI.Reg1
import proofs.«424645_j84567906058949_2_alg».proof.Proof.KI.Reg2
import proofs.«424645_j84567906058949_2_alg».proof.Proof.KI.Reg3
import proofs.«424645_j84567906058949_2_alg».proof.Proof.KI.Reg4
import proofs.«424645_j84567906058949_2_alg».proof.Proof.KI.Reg5
import proofs.«424645_j84567906058949_2_alg».proof.Proof.KI.Reg6

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- Before the first region: the launch memory through the first three stretches of host operations. -/
abbrev U3 (c : Dev nD) : Valuation τ sig (Elt F) := Gen.V3 m c
/-- What region 0 leaves in its output array: its write-backs over the entry contents. -/
def o4 (c : Dev nD) : Buf (Elt F) ((c : Thread nD τ).loc main_v30) := (dat0 (atRefs (U3 m)) c).arrAt 2 cfg0.N
/-- After region 0: its output array at what it leaves, every other buffer as entered. -/
def U4 (c : Dev nD) : Valuation τ sig (Elt F) := Function.update (U3 m c) main_v30 (o4 m c)
/-- After the host stretch `hostOps1`. -/
abbrev U5 (c : Dev nD) : Valuation τ sig (Elt F) := StableHlo.after hostOps1 (U4 m c)
/-- After the host stretch `hostOps1_1`. -/
abbrev U6 (c : Dev nD) : Valuation τ sig (Elt F) := StableHlo.after hostOps1_1 (U5 m c)
/-- What region 1 leaves in its output array: its write-backs over the entry contents. -/
def o7 (c : Dev nD) : Buf (Elt F) ((c : Thread nD τ).loc main_v33) := (dat1 (atRefs (U6 m)) c).arrAt 2 cfg1.N
/-- After region 1: its output array at what it leaves, every other buffer as entered. -/
def U7 (c : Dev nD) : Valuation τ sig (Elt F) := Function.update (U6 m c) main_v33 (o7 m c)
/-- After the host stretch `hostOps2`. -/
abbrev U8 (c : Dev nD) : Valuation τ sig (Elt F) := StableHlo.after hostOps2 (U7 m c)
/-- What region 2 leaves in its output array: its write-backs over the entry contents. -/
def o9 (c : Dev nD) : Buf (Elt F) ((c : Thread nD τ).loc main_v38) := (dat2 (atRefs (U8 m)) c).arrAt 2 cfg2.N
/-- After region 2: its output array at what it leaves, every other buffer as entered. -/
def U9 (c : Dev nD) : Valuation τ sig (Elt F) := Function.update (U8 m c) main_v38 (o9 m c)
/-- What region 3 leaves in its output array: its write-backs over the entry contents. -/
def o10 (c : Dev nD) : Buf (Elt F) ((c : Thread nD τ).loc main_v39) := (dat3 (atRefs (U9 m)) c).arrAt 2 cfg3.N
/-- After region 3: its output array at what it leaves, every other buffer as entered. -/
def U10 (c : Dev nD) : Valuation τ sig (Elt F) := Function.update (U9 m c) main_v39 (o10 m c)
/-- After the host stretch `hostOps4`. -/
abbrev U11 (c : Dev nD) : Valuation τ sig (Elt F) := StableHlo.after hostOps4 (U10 m c)
/-- After the host stretch `hostOps4_1`. -/
abbrev U12 (c : Dev nD) : Valuation τ sig (Elt F) := StableHlo.after hostOps4_1 (U11 m c)
/-- What region 4 leaves in its output array: its write-backs over the entry contents. -/
def o13 (c : Dev nD) : Buf (Elt F) ((c : Thread nD τ).loc main_v42) := (dat4 (atRefs (U12 m)) c).arrAt 2 cfg4.N
/-- After region 4: its output array at what it leaves, every other buffer as entered. -/
def U13 (c : Dev nD) : Valuation τ sig (Elt F) := Function.update (U12 m c) main_v42 (o13 m c)
/-- After the host stretch `hostOps5`. -/
abbrev U14 (c : Dev nD) : Valuation τ sig (Elt F) := StableHlo.after hostOps5 (U13 m c)
/-- What region 5 leaves in its output array: its write-backs over the entry contents. -/
def o15 (c : Dev nD) : Buf (Elt F) ((c : Thread nD τ).loc main_v47) := (dat5 (atRefs (U14 m)) c).arrAt 2 cfg5.N
/-- After region 5: its output array at what it leaves, every other buffer as entered. -/
def U15 (c : Dev nD) : Valuation τ sig (Elt F) := Function.update (U14 m c) main_v47 (o15 m c)
/-- After the host stretch `hostOps6`. -/
abbrev U16 (c : Dev nD) : Valuation τ sig (Elt F) := StableHlo.after hostOps6 (U15 m c)
/-- What region 6 leaves in its output array: its write-backs over the entry contents. -/
def o17 (c : Dev nD) : Buf (Elt F) ((c : Thread nD τ).loc main_v49) := (dat6 (atRefs (U16 m)) c).arrAt 2 cfg6.N
/-- After region 6: its output array at what it leaves, every other buffer as entered. -/
def U17 (c : Dev nD) : Valuation τ sig (Elt F) := Function.update (U16 m c) main_v49 (o17 m c)

/-- The regions' leavings as the family the generated valuations are written over: at item J, what the exact contents hold. -/
def outsU : Gen.Outs (F := F) := fun J r c =>
  match J with
  | 4 => U4 m c r
  | 7 => U7 m c r
  | 9 => U9 m c r
  | 10 => U10 m c r
  | 13 => U13 m c r
  | 15 => U15 m c r
  | 17 => U17 m c r
  | _ => U3 m c r

theorem V4_eq (c : Dev nD) : Gen.V4 m (outsU m) c = U4 m c := by
  show Function.update (Gen.V3 m c) main_v30 (U4 m c main_v30) = _
  rw [show U4 m c main_v30 = o4 m c from by unfold U4; exact Function.update_self _ _ _]
  rfl
theorem V5_eq (c : Dev nD) : Gen.V5 m (outsU m) c = U5 m c := by
  show StableHlo.after hostOps1 (Gen.V4 m (outsU m) c) = _
  rw [V4_eq]
theorem V6_eq (c : Dev nD) : Gen.V6 m (outsU m) c = U6 m c := by
  show StableHlo.after hostOps1_1 (Gen.V5 m (outsU m) c) = _
  rw [V5_eq]
theorem V7_eq (c : Dev nD) : Gen.V7 m (outsU m) c = U7 m c := by
  show Function.update (Gen.V6 m (outsU m) c) main_v33 (U7 m c main_v33) = _
  rw [V6_eq, show U7 m c main_v33 = o7 m c from by unfold U7; exact Function.update_self _ _ _]
  rfl
theorem V8_eq (c : Dev nD) : Gen.V8 m (outsU m) c = U8 m c := by
  show StableHlo.after hostOps2 (Gen.V7 m (outsU m) c) = _
  rw [V7_eq]
theorem V9_eq (c : Dev nD) : Gen.V9 m (outsU m) c = U9 m c := by
  show Function.update (Gen.V8 m (outsU m) c) main_v38 (U9 m c main_v38) = _
  rw [V8_eq, show U9 m c main_v38 = o9 m c from by unfold U9; exact Function.update_self _ _ _]
  rfl
theorem V10_eq (c : Dev nD) : Gen.V10 m (outsU m) c = U10 m c := by
  show Function.update (Gen.V9 m (outsU m) c) main_v39 (U10 m c main_v39) = _
  rw [V9_eq, show U10 m c main_v39 = o10 m c from by unfold U10; exact Function.update_self _ _ _]
  rfl
theorem V11_eq (c : Dev nD) : Gen.V11 m (outsU m) c = U11 m c := by
  show StableHlo.after hostOps4 (Gen.V10 m (outsU m) c) = _
  rw [V10_eq]
theorem V12_eq (c : Dev nD) : Gen.V12 m (outsU m) c = U12 m c := by
  show StableHlo.after hostOps4_1 (Gen.V11 m (outsU m) c) = _
  rw [V11_eq]
theorem V13_eq (c : Dev nD) : Gen.V13 m (outsU m) c = U13 m c := by
  show Function.update (Gen.V12 m (outsU m) c) main_v42 (U13 m c main_v42) = _
  rw [V12_eq, show U13 m c main_v42 = o13 m c from by unfold U13; exact Function.update_self _ _ _]
  rfl
theorem V14_eq (c : Dev nD) : Gen.V14 m (outsU m) c = U14 m c := by
  show StableHlo.after hostOps5 (Gen.V13 m (outsU m) c) = _
  rw [V13_eq]
theorem V15_eq (c : Dev nD) : Gen.V15 m (outsU m) c = U15 m c := by
  show Function.update (Gen.V14 m (outsU m) c) main_v47 (U15 m c main_v47) = _
  rw [V14_eq, show U15 m c main_v47 = o15 m c from by unfold U15; exact Function.update_self _ _ _]
  rfl
theorem V16_eq (c : Dev nD) : Gen.V16 m (outsU m) c = U16 m c := by
  show StableHlo.after hostOps6 (Gen.V15 m (outsU m) c) = _
  rw [V15_eq]
theorem V17_eq (c : Dev nD) : Gen.V17 m (outsU m) c = U17 m c := by
  show Function.update (Gen.V16 m (outsU m) c) main_v49 (U17 m c main_v49) = _
  rw [V16_eq, show U17 m c main_v49 = o17 m c from by unfold U17; exact Function.update_self _ _ _]
  rfl

/-! ## A buffer an item does not write keeps its contents -/

theorem U4_of (c : Dev nD) (r : Ref sig .tc) (h : r ∉ ([main_v30] : List (Ref sig .tc))) : U4 m c r = U3 m c r := by
  rw [← V4_eq]; exact Gen.V4_of m (outsU m) c r h
theorem U5_of (c : Dev nD) (r : Ref sig .tc) (h : r ∉ hostOps1_W) : U5 m c r = U4 m c r := by
  rw [← V5_eq, ← V4_eq]; exact Gen.V5_of m (outsU m) c r h
theorem U6_of (c : Dev nD) (r : Ref sig .tc) (h : r ∉ hostOps1_1_W) : U6 m c r = U5 m c r := by
  rw [← V6_eq, ← V5_eq]; exact Gen.V6_of m (outsU m) c r h
theorem U7_of (c : Dev nD) (r : Ref sig .tc) (h : r ∉ ([main_v33] : List (Ref sig .tc))) : U7 m c r = U6 m c r := by
  rw [← V7_eq, ← V6_eq]; exact Gen.V7_of m (outsU m) c r h
theorem U8_of (c : Dev nD) (r : Ref sig .tc) (h : r ∉ hostOps2_W) : U8 m c r = U7 m c r := by
  rw [← V8_eq, ← V7_eq]; exact Gen.V8_of m (outsU m) c r h
theorem U9_of (c : Dev nD) (r : Ref sig .tc) (h : r ∉ ([main_v38] : List (Ref sig .tc))) : U9 m c r = U8 m c r := by
  rw [← V9_eq, ← V8_eq]; exact Gen.V9_of m (outsU m) c r h
theorem U10_of (c : Dev nD) (r : Ref sig .tc) (h : r ∉ ([main_v39] : List (Ref sig .tc))) : U10 m c r = U9 m c r := by
  rw [← V10_eq, ← V9_eq]; exact Gen.V10_of m (outsU m) c r h
theorem U11_of (c : Dev nD) (r : Ref sig .tc) (h : r ∉ hostOps4_W) : U11 m c r = U10 m c r := by
  rw [← V11_eq, ← V10_eq]; exact Gen.V11_of m (outsU m) c r h
theorem U12_of (c : Dev nD) (r : Ref sig .tc) (h : r ∉ hostOps4_1_W) : U12 m c r = U11 m c r := by
  rw [← V12_eq, ← V11_eq]; exact Gen.V12_of m (outsU m) c r h
theorem U13_of (c : Dev nD) (r : Ref sig .tc) (h : r ∉ ([main_v42] : List (Ref sig .tc))) : U13 m c r = U12 m c r := by
  rw [← V13_eq, ← V12_eq]; exact Gen.V13_of m (outsU m) c r h
theorem U14_of (c : Dev nD) (r : Ref sig .tc) (h : r ∉ hostOps5_W) : U14 m c r = U13 m c r := by
  rw [← V14_eq, ← V13_eq]; exact Gen.V14_of m (outsU m) c r h
theorem U15_of (c : Dev nD) (r : Ref sig .tc) (h : r ∉ ([main_v47] : List (Ref sig .tc))) : U15 m c r = U14 m c r := by
  rw [← V15_eq, ← V14_eq]; exact Gen.V15_of m (outsU m) c r h
theorem U16_of (c : Dev nD) (r : Ref sig .tc) (h : r ∉ hostOps6_W) : U16 m c r = U15 m c r := by
  rw [← V16_eq, ← V15_eq]; exact Gen.V16_of m (outsU m) c r h
theorem U17_of (c : Dev nD) (r : Ref sig .tc) (h : r ∉ ([main_v49] : List (Ref sig .tc))) : U17 m c r = U16 m c r := by
  rw [← V17_eq, ← V16_eq]; exact Gen.V17_of m (outsU m) c r h

/-- What region K leaves is what the exact contents hold at its output. -/
theorem U4_out (c : Dev nD) : U4 m c main_v30 = (dat0 (atRefs (U3 m)) c).arrAt 2 cfg0.N := by
  unfold U4; rw [Function.update_self]; rfl
theorem U7_out (c : Dev nD) : U7 m c main_v33 = (dat1 (atRefs (U6 m)) c).arrAt 2 cfg1.N := by
  unfold U7; rw [Function.update_self]; rfl
theorem U9_out (c : Dev nD) : U9 m c main_v38 = (dat2 (atRefs (U8 m)) c).arrAt 2 cfg2.N := by
  unfold U9; rw [Function.update_self]; rfl
theorem U10_out (c : Dev nD) : U10 m c main_v39 = (dat3 (atRefs (U9 m)) c).arrAt 2 cfg3.N := by
  unfold U10; rw [Function.update_self]; rfl
theorem U13_out (c : Dev nD) : U13 m c main_v42 = (dat4 (atRefs (U12 m)) c).arrAt 2 cfg4.N := by
  unfold U13; rw [Function.update_self]; rfl
theorem U15_out (c : Dev nD) : U15 m c main_v47 = (dat5 (atRefs (U14 m)) c).arrAt 2 cfg5.N := by
  unfold U15; rw [Function.update_self]; rfl
theorem U17_out (c : Dev nD) : U17 m c main_v49 = (dat6 (atRefs (U16 m)) c).arrAt 2 cfg6.N := by
  unfold U17; rw [Function.update_self]; rfl

/-! ## The proof data family and what rides beside the buffers -/

/-- Every pipeline's proof data, each at its region's entry contents. -/
def pdats : (p : Fin 7) → (c : Dev nD) → Dat τ (Elt F) Unit ℕ (UR sig nD τ) ℕ (cfgs p) c
  | ⟨0, _⟩ => fun c => dat0 (atRefs (U3 m)) c
  | ⟨1, _⟩ => fun c => dat1 (atRefs (U6 m)) c
  | ⟨2, _⟩ => fun c => dat2 (atRefs (U8 m)) c
  | ⟨3, _⟩ => fun c => dat3 (atRefs (U9 m)) c
  | ⟨4, _⟩ => fun c => dat4 (atRefs (U12 m)) c
  | ⟨5, _⟩ => fun c => dat5 (atRefs (U14 m)) c
  | ⟨6, _⟩ => fun c => dat6 (atRefs (U16 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rd (c : Dev nD) : sProp 𝕄 := iprop((∃ r, prngReg c r) ∗ ∃ W, owes (c : Thread nD τ) (0 : CellTallies nD τ sig Unit) W)

/-! ### Region 0 -/

theorem arrRef0_2 : Pipeline.arrRef spec0 2 = main_v30 := rfl
/-- At region 0's exit each of its arrays holds what the pipeline leaves: an input as entered, the output its write-backs. -/
theorem hF0 (c : Dev nD) (w : Fin cfg0.W) : (dat0 (atRefs (U3 m)) c).arrAt w cfg0.N = atRefs (U4 m) c (Pipeline.arrRef spec0 w) := by
  match w with
  | ⟨0, _⟩ =>
    refine ((dat0 (atRefs (U3 m)) c).arrAt_in 0 rfl _).trans ((A_eq0 (atRefs (U3 m)) c 0).trans ?_)
    show U3 m c (Pipeline.arrRef spec0 0) = U4 m c (Pipeline.arrRef spec0 0)
    unfold U4
    rw [Function.update_of_ne (StableHlo.devRef_ne_of_ne (by decide))]
  | ⟨1, _⟩ =>
    refine ((dat0 (atRefs (U3 m)) c).arrAt_in 1 rfl _).trans ((A_eq0 (atRefs (U3 m)) c 1).trans ?_)
    show U3 m c (Pipeline.arrRef spec0 1) = U4 m c (Pipeline.arrRef spec0 1)
    unfold U4
    rw [Function.update_of_ne (StableHlo.devRef_ne_of_ne (by decide))]
  | ⟨2, _⟩ =>
    show o4 m c = U4 m c main_v30
    unfold U4
    rw [Function.update_self]
/-- and every other buffer what it held at entry. -/
theorem hrest0 (c : Dev nD) : ∀ b, b ∉ Finset.univ.image (Pipeline.arrRef spec0) → atRefs (U4 m) c b = atRefs (U3 m) c b := fun b hb => by
  show U4 m c b = U3 m c b
  unfold U4
  rw [Function.update_of_ne (StableHlo.devRef_ne_of_ne (fun e => hb (Finset.mem_image.mpr ⟨2, Finset.mem_univ _, (arrRef0_2).trans e.symm⟩)))]

/-! ### Region 1 -/

theorem arrRef1_2 : Pipeline.arrRef spec1 2 = main_v33 := rfl
/-- At region 1's exit each of its arrays holds what the pipeline leaves: an input as entered, the output its write-backs. -/
theorem hF1 (c : Dev nD) (w : Fin cfg1.W) : (dat1 (atRefs (U6 m)) c).arrAt w cfg1.N = atRefs (U7 m) c (Pipeline.arrRef spec1 w) := by
  match w with
  | ⟨0, _⟩ =>
    refine ((dat1 (atRefs (U6 m)) c).arrAt_in 0 rfl _).trans ((A_eq1 (atRefs (U6 m)) c 0).trans ?_)
    show U6 m c (Pipeline.arrRef spec1 0) = U7 m c (Pipeline.arrRef spec1 0)
    unfold U7
    rw [Function.update_of_ne (StableHlo.devRef_ne_of_ne (by decide))]
  | ⟨1, _⟩ =>
    refine ((dat1 (atRefs (U6 m)) c).arrAt_in 1 rfl _).trans ((A_eq1 (atRefs (U6 m)) c 1).trans ?_)
    show U6 m c (Pipeline.arrRef spec1 1) = U7 m c (Pipeline.arrRef spec1 1)
    unfold U7
    rw [Function.update_of_ne (StableHlo.devRef_ne_of_ne (by decide))]
  | ⟨2, _⟩ =>
    show o7 m c = U7 m c main_v33
    unfold U7
    rw [Function.update_self]
/-- and every other buffer what it held at entry. -/
theorem hrest1 (c : Dev nD) : ∀ b, b ∉ Finset.univ.image (Pipeline.arrRef spec1) → atRefs (U7 m) c b = atRefs (U6 m) c b := fun b hb => by
  show U7 m c b = U6 m c b
  unfold U7
  rw [Function.update_of_ne (StableHlo.devRef_ne_of_ne (fun e => hb (Finset.mem_image.mpr ⟨2, Finset.mem_univ _, (arrRef1_2).trans e.symm⟩)))]

/-! ### Region 2 -/

theorem arrRef2_2 : Pipeline.arrRef spec2 2 = main_v38 := rfl
/-- At region 2's exit each of its arrays holds what the pipeline leaves: an input as entered, the output its write-backs. -/
theorem hF2 (c : Dev nD) (w : Fin cfg2.W) : (dat2 (atRefs (U8 m)) c).arrAt w cfg2.N = atRefs (U9 m) c (Pipeline.arrRef spec2 w) := by
  match w with
  | ⟨0, _⟩ =>
    refine ((dat2 (atRefs (U8 m)) c).arrAt_in 0 rfl _).trans ((A_eq2 (atRefs (U8 m)) c 0).trans ?_)
    show U8 m c (Pipeline.arrRef spec2 0) = U9 m c (Pipeline.arrRef spec2 0)
    unfold U9
    rw [Function.update_of_ne (StableHlo.devRef_ne_of_ne (by decide))]
  | ⟨1, _⟩ =>
    refine ((dat2 (atRefs (U8 m)) c).arrAt_in 1 rfl _).trans ((A_eq2 (atRefs (U8 m)) c 1).trans ?_)
    show U8 m c (Pipeline.arrRef spec2 1) = U9 m c (Pipeline.arrRef spec2 1)
    unfold U9
    rw [Function.update_of_ne (StableHlo.devRef_ne_of_ne (by decide))]
  | ⟨2, _⟩ =>
    show o9 m c = U9 m c main_v38
    unfold U9
    rw [Function.update_self]
/-- and every other buffer what it held at entry. -/
theorem hrest2 (c : Dev nD) : ∀ b, b ∉ Finset.univ.image (Pipeline.arrRef spec2) → atRefs (U9 m) c b = atRefs (U8 m) c b := fun b hb => by
  show U9 m c b = U8 m c b
  unfold U9
  rw [Function.update_of_ne (StableHlo.devRef_ne_of_ne (fun e => hb (Finset.mem_image.mpr ⟨2, Finset.mem_univ _, (arrRef2_2).trans e.symm⟩)))]

/-! ### Region 3 -/

theorem arrRef3_2 : Pipeline.arrRef spec3 2 = main_v39 := rfl
/-- At region 3's exit each of its arrays holds what the pipeline leaves: an input as entered, the output its write-backs. -/
theorem hF3 (c : Dev nD) (w : Fin cfg3.W) : (dat3 (atRefs (U9 m)) c).arrAt w cfg3.N = atRefs (U10 m) c (Pipeline.arrRef spec3 w) := by
  match w with
  | ⟨0, _⟩ =>
    refine ((dat3 (atRefs (U9 m)) c).arrAt_in 0 rfl _).trans ((A_eq3 (atRefs (U9 m)) c 0).trans ?_)
    show U9 m c (Pipeline.arrRef spec3 0) = U10 m c (Pipeline.arrRef spec3 0)
    unfold U10
    rw [Function.update_of_ne (StableHlo.devRef_ne_of_ne (by decide))]
  | ⟨1, _⟩ =>
    refine ((dat3 (atRefs (U9 m)) c).arrAt_in 1 rfl _).trans ((A_eq3 (atRefs (U9 m)) c 1).trans ?_)
    show U9 m c (Pipeline.arrRef spec3 1) = U10 m c (Pipeline.arrRef spec3 1)
    unfold U10
    rw [Function.update_of_ne (StableHlo.devRef_ne_of_ne (by decide))]
  | ⟨2, _⟩ =>
    show o10 m c = U10 m c main_v39
    unfold U10
    rw [Function.update_self]
/-- and every other buffer what it held at entry. -/
theorem hrest3 (c : Dev nD) : ∀ b, b ∉ Finset.univ.image (Pipeline.arrRef spec3) → atRefs (U10 m) c b = atRefs (U9 m) c b := fun b hb => by
  show U10 m c b = U9 m c b
  unfold U10
  rw [Function.update_of_ne (StableHlo.devRef_ne_of_ne (fun e => hb (Finset.mem_image.mpr ⟨2, Finset.mem_univ _, (arrRef3_2).trans e.symm⟩)))]

/-! ### Region 4 -/

theorem arrRef4_2 : Pipeline.arrRef spec4 2 = main_v42 := rfl
/-- At region 4's exit each of its arrays holds what the pipeline leaves: an input as entered, the output its write-backs. -/
theorem hF4 (c : Dev nD) (w : Fin cfg4.W) : (dat4 (atRefs (U12 m)) c).arrAt w cfg4.N = atRefs (U13 m) c (Pipeline.arrRef spec4 w) := by
  match w with
  | ⟨0, _⟩ =>
    refine ((dat4 (atRefs (U12 m)) c).arrAt_in 0 rfl _).trans ((A_eq4 (atRefs (U12 m)) c 0).trans ?_)
    show U12 m c (Pipeline.arrRef spec4 0) = U13 m c (Pipeline.arrRef spec4 0)
    unfold U13
    rw [Function.update_of_ne (StableHlo.devRef_ne_of_ne (by decide))]
  | ⟨1, _⟩ =>
    refine ((dat4 (atRefs (U12 m)) c).arrAt_in 1 rfl _).trans ((A_eq4 (atRefs (U12 m)) c 1).trans ?_)
    show U12 m c (Pipeline.arrRef spec4 1) = U13 m c (Pipeline.arrRef spec4 1)
    unfold U13
    rw [Function.update_of_ne (StableHlo.devRef_ne_of_ne (by decide))]
  | ⟨2, _⟩ =>
    show o13 m c = U13 m c main_v42
    unfold U13
    rw [Function.update_self]
/-- and every other buffer what it held at entry. -/
theorem hrest4 (c : Dev nD) : ∀ b, b ∉ Finset.univ.image (Pipeline.arrRef spec4) → atRefs (U13 m) c b = atRefs (U12 m) c b := fun b hb => by
  show U13 m c b = U12 m c b
  unfold U13
  rw [Function.update_of_ne (StableHlo.devRef_ne_of_ne (fun e => hb (Finset.mem_image.mpr ⟨2, Finset.mem_univ _, (arrRef4_2).trans e.symm⟩)))]

/-! ### Region 5 -/

theorem arrRef5_2 : Pipeline.arrRef spec5 2 = main_v47 := rfl
/-- At region 5's exit each of its arrays holds what the pipeline leaves: an input as entered, the output its write-backs. -/
theorem hF5 (c : Dev nD) (w : Fin cfg5.W) : (dat5 (atRefs (U14 m)) c).arrAt w cfg5.N = atRefs (U15 m) c (Pipeline.arrRef spec5 w) := by
  match w with
  | ⟨0, _⟩ =>
    refine ((dat5 (atRefs (U14 m)) c).arrAt_in 0 rfl _).trans ((A_eq5 (atRefs (U14 m)) c 0).trans ?_)
    show U14 m c (Pipeline.arrRef spec5 0) = U15 m c (Pipeline.arrRef spec5 0)
    unfold U15
    rw [Function.update_of_ne (StableHlo.devRef_ne_of_ne (by decide))]
  | ⟨1, _⟩ =>
    refine ((dat5 (atRefs (U14 m)) c).arrAt_in 1 rfl _).trans ((A_eq5 (atRefs (U14 m)) c 1).trans ?_)
    show U14 m c (Pipeline.arrRef spec5 1) = U15 m c (Pipeline.arrRef spec5 1)
    unfold U15
    rw [Function.update_of_ne (StableHlo.devRef_ne_of_ne (by decide))]
  | ⟨2, _⟩ =>
    show o15 m c = U15 m c main_v47
    unfold U15
    rw [Function.update_self]
/-- and every other buffer what it held at entry. -/
theorem hrest5 (c : Dev nD) : ∀ b, b ∉ Finset.univ.image (Pipeline.arrRef spec5) → atRefs (U15 m) c b = atRefs (U14 m) c b := fun b hb => by
  show U15 m c b = U14 m c b
  unfold U15
  rw [Function.update_of_ne (StableHlo.devRef_ne_of_ne (fun e => hb (Finset.mem_image.mpr ⟨2, Finset.mem_univ _, (arrRef5_2).trans e.symm⟩)))]

/-! ### Region 6 -/

theorem arrRef6_2 : Pipeline.arrRef spec6 2 = main_v49 := rfl
/-- At region 6's exit each of its arrays holds what the pipeline leaves: an input as entered, the output its write-backs. -/
theorem hF6 (c : Dev nD) (w : Fin cfg6.W) : (dat6 (atRefs (U16 m)) c).arrAt w cfg6.N = atRefs (U17 m) c (Pipeline.arrRef spec6 w) := by
  match w with
  | ⟨0, _⟩ =>
    refine ((dat6 (atRefs (U16 m)) c).arrAt_in 0 rfl _).trans ((A_eq6 (atRefs (U16 m)) c 0).trans ?_)
    show U16 m c (Pipeline.arrRef spec6 0) = U17 m c (Pipeline.arrRef spec6 0)
    unfold U17
    rw [Function.update_of_ne (StableHlo.devRef_ne_of_ne (by decide))]
  | ⟨1, _⟩ =>
    refine ((dat6 (atRefs (U16 m)) c).arrAt_in 1 rfl _).trans ((A_eq6 (atRefs (U16 m)) c 1).trans ?_)
    show U16 m c (Pipeline.arrRef spec6 1) = U17 m c (Pipeline.arrRef spec6 1)
    unfold U17
    rw [Function.update_of_ne (StableHlo.devRef_ne_of_ne (by decide))]
  | ⟨2, _⟩ =>
    show o17 m c = U17 m c main_v49
    unfold U17
    rw [Function.update_self]
/-- and every other buffer what it held at entry. -/
theorem hrest6 (c : Dev nD) : ∀ b, b ∉ Finset.univ.image (Pipeline.arrRef spec6) → atRefs (U17 m) c b = atRefs (U16 m) c b := fun b hb => by
  show U17 m c b = U16 m c b
  unfold U17
  rw [Function.update_of_ne (StableHlo.devRef_ne_of_ne (fun e => hb (Finset.mem_image.mpr ⟨2, Finset.mem_univ _, (arrRef6_2).trans e.symm⟩)))]

-- a library lemma stated over the pinned configuration unifies with the printed one only when unification may
-- unfold plain definitions in a metavariable's type
set_option backward.isDefEq.respectTransparency.types false in
/-- Region 0 over the thread state: entered from every unscoped buffer at the contents before it, left at the contents
    after it. Its arrays are split out of the unscoped buffers and put back at the exit contents; the generator register
    goes into the body's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U3 m)) c).loose
  hwaits := Pipeline.hwaits_of_owed_zero _ _ _ _ L lv 0 fun _ _ => rfl
  pre c := iprop(StableHlo.held (c : Thread nD τ) (Pipeline.ucRefs τ sig) (U3 m c) ∗ Rd c)
  post c := iprop(StableHlo.held (c : Thread nD τ) (Pipeline.ucRefs τ sig) (U4 m c) ∗ Rd c)
  X c := iprop(∃ r, prngReg c r)
  Y c := iprop(∃ r, prngReg c r)
  Z c := Pipeline.unscopedRest (Ix := Unit) (Name := ℕ) (U := UR sig nD τ) (Lvl := ℕ) spec0 c (atRefs (U3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atRefs (U3 m) c) (atRefs (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the contents before it, left at the contents
    after it. Its arrays are split out of the unscoped buffers and put back at the exit contents; the generator register
    goes into the body's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U6 m)) c).loose
  hwaits := Pipeline.hwaits_of_owed_zero _ _ _ _ L lv 1 fun _ _ => rfl
  pre c := iprop(StableHlo.held (c : Thread nD τ) (Pipeline.ucRefs τ sig) (U6 m c) ∗ Rd c)
  post c := iprop(StableHlo.held (c : Thread nD τ) (Pipeline.ucRefs τ sig) (U7 m c) ∗ Rd c)
  X c := iprop(∃ r, prngReg c r)
  Y c := iprop(∃ r, prngReg c r)
  Z c := Pipeline.unscopedRest (Ix := Unit) (Name := ℕ) (U := UR sig nD τ) (Lvl := ℕ) spec1 c (atRefs (U6 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atRefs (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atRefs (U6 m) c) (atRefs (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the contents before it, left at the contents
    after it. Its arrays are split out of the unscoped buffers and put back at the exit contents; the generator register
    goes into the body's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U8 m)) c).loose
  hwaits := Pipeline.hwaits_of_owed_zero _ _ _ _ L lv 2 fun _ _ => rfl
  pre c := iprop(StableHlo.held (c : Thread nD τ) (Pipeline.ucRefs τ sig) (U8 m c) ∗ Rd c)
  post c := iprop(StableHlo.held (c : Thread nD τ) (Pipeline.ucRefs τ sig) (U9 m c) ∗ Rd c)
  X c := iprop(∃ r, prngReg c r)
  Y c := iprop(∃ r, prngReg c r)
  Z c := Pipeline.unscopedRest (Ix := Unit) (Name := ℕ) (U := UR sig nD τ) (Lvl := ℕ) spec2 c (atRefs (U8 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atRefs (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atRefs (U8 m) c) (atRefs (U9 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at the contents before it, left at the contents
    after it. Its arrays are split out of the unscoped buffers and put back at the exit contents; the generator register
    goes into the body's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (U9 m)) c).loose
  hwaits := Pipeline.hwaits_of_owed_zero _ _ _ _ L lv 3 fun _ _ => rfl
  pre c := iprop(StableHlo.held (c : Thread nD τ) (Pipeline.ucRefs τ sig) (U9 m c) ∗ Rd c)
  post c := iprop(StableHlo.held (c : Thread nD τ) (Pipeline.ucRefs τ sig) (U10 m c) ∗ Rd c)
  X c := iprop(∃ r, prngReg c r)
  Y c := iprop(∃ r, prngReg c r)
  Z c := Pipeline.unscopedRest (Ix := Unit) (Name := ℕ) (U := UR sig nD τ) (Lvl := ℕ) spec3 c (atRefs (U9 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atRefs (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atRefs (U9 m) c) (atRefs (U10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 4 over the thread state: entered from every unscoped buffer at the contents before it, left at the contents
    after it. Its arrays are split out of the unscoped buffers and put back at the exit contents; the generator register
    goes into the body's invariant and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (U12 m)) c).loose
  hwaits := Pipeline.hwaits_of_owed_zero _ _ _ _ L lv 4 fun _ _ => rfl
  pre c := iprop(StableHlo.held (c : Thread nD τ) (Pipeline.ucRefs τ sig) (U12 m c) ∗ Rd c)
  post c := iprop(StableHlo.held (c : Thread nD τ) (Pipeline.ucRefs τ sig) (U13 m c) ∗ Rd c)
  X c := iprop(∃ r, prngReg c r)
  Y c := iprop(∃ r, prngReg c r)
  Z c := Pipeline.unscopedRest (Ix := Unit) (Name := ℕ) (U := UR sig nD τ) (Lvl := ℕ) spec4 c (atRefs (U12 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atRefs (U12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atRefs (U12 m) c) (atRefs (U13 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 5 over the thread state: entered from every unscoped buffer at the contents before it, left at the contents
    after it. Its arrays are split out of the unscoped buffers and put back at the exit contents; the generator register
    goes into the body's invariant and comes out; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (U14 m)) c).loose
  hwaits := Pipeline.hwaits_of_owed_zero _ _ _ _ L lv 5 fun _ _ => rfl
  pre c := iprop(StableHlo.held (c : Thread nD τ) (Pipeline.ucRefs τ sig) (U14 m c) ∗ Rd c)
  post c := iprop(StableHlo.held (c : Thread nD τ) (Pipeline.ucRefs τ sig) (U15 m c) ∗ Rd c)
  X c := iprop(∃ r, prngReg c r)
  Y c := iprop(∃ r, prngReg c r)
  Z c := Pipeline.unscopedRest (Ix := Unit) (Name := ℕ) (U := UR sig nD τ) (Lvl := ℕ) spec5 c (atRefs (U14 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atRefs (U14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atRefs (U14 m) c) (atRefs (U15 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 6 over the thread state: entered from every unscoped buffer at the contents before it, left at the contents
    after it. Its arrays are split out of the unscoped buffers and put back at the exit contents; the generator register
    goes into the body's invariant and comes out; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (U16 m)) c).loose
  hwaits := Pipeline.hwaits_of_owed_zero _ _ _ _ L lv 6 fun _ _ => rfl
  pre c := iprop(StableHlo.held (c : Thread nD τ) (Pipeline.ucRefs τ sig) (U16 m c) ∗ Rd c)
  post c := iprop(StableHlo.held (c : Thread nD τ) (Pipeline.ucRefs τ sig) (U17 m c) ∗ Rd c)
  X c := iprop(∃ r, prngReg c r)
  Y c := iprop(∃ r, prngReg c r)
  Z c := Pipeline.unscopedRest (Ix := Unit) (Name := ℕ) (U := UR sig nD τ) (Lvl := ℕ) spec6 c (atRefs (U16 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atRefs (U16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (atRefs (U16 m)) c).Φ 0 from rfl]
    iintro ⟨Hp, -, Hr⟩
    iapply (Φ6_in (atRefs (U16 m)) c)
    isplitl [Hr]; · iexact Hr
    iexact Hp
  hout c := by
    rw [Pipeline.ownSems0_none, show (pdats m 6 c).Φ (Fin.last _) = (dat6 (atRefs (U16 m)) c).Φ (Fin.last cfg6.N) from rfl]
    iintro H
    ihave H' := (Φ6_out (atRefs (U16 m)) c) $$ H
    icases H' with ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atRefs (U16 m) c) (atRefs (U17 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side conditions, shared by the frame and the value run -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rd (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : Rd (F := F) c ⊢ (iprop(∃ W, owes (c : Thread nD τ) (0 : CellTallies nD τ sig Unit) W) : sProp 𝕄) := by
  iintro ⟨-, HO⟩; iexact HO

/-! ## The frame -/

-- the conditional frame's implicit arguments are found by unifying its hypotheses with the records, which takes unfolding
-- plain definitions in a metavariable's type
set_option backward.isDefEq.respectTransparency.types false in
/-- Every weakly fair execution of @main from memory m with zero counters terminates, nothing faulting, and leaves
    every argument array as launched: the conditional frame at the seven records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond (F := F) m (EP := emb₁) (ι := ()) (𝒱₀ := 𝒱₀) (L := L) (lv := lv) (hL := fun _ _ => rfl) (ρ := ρ) (outs := outsU m) (pdats := pdats m)
    (O₀ := 0) (G := fun _ => iprop(emp)) (u₀ := initOf (Pipeline.cells cfgs cellOf_inj) (Pipeline.launchToks cfgs cellOf_inj)) (hu₀ := hu₀)
    (E := fun _ c => Rd c) (hE0 := hE0 ρ) (hE7 := hE7)
    (R0 := reg0 m)
    (hpre0 := fun c => .rfl)
    (hpost0 := fun c => by rw [V4_eq]; exact .rfl)
    (R1 := reg1 m)
    (hpre1 := fun c => by rw [V6_eq]; exact .rfl)
    (hpost1 := fun c => by rw [V7_eq]; exact .rfl)
    (R2 := reg2 m)
    (hpre2 := fun c => by rw [V8_eq]; exact .rfl)
    (hpost2 := fun c => by rw [V9_eq]; exact .rfl)
    (R3 := reg3 m)
    (hpre3 := fun c => by rw [V9_eq]; exact .rfl)
    (hpost3 := fun c => by rw [V10_eq]; exact .rfl)
    (R4 := reg4 m)
    (hpre4 := fun c => by rw [V12_eq]; exact .rfl)
    (hpost4 := fun c => by rw [V13_eq]; exact .rfl)
    (R5 := reg5 m)
    (hpre5 := fun c => by rw [V14_eq]; exact .rfl)
    (hpost5 := fun c => by rw [V15_eq]; exact .rfl)
    (R6 := reg6 m)
    (hpre6 := fun c => by rw [V16_eq]; exact .rfl)
    (hpost6 := fun c => by rw [V17_eq]; exact .rfl)

end Cert.KernelIdeal.Frm

end
-- ==== Proof.KI.RunVal.lean ====
/-
  The kernel program's run with its result named: every weakly fair execution of @main ends with the result buffer at
  what the last region leaves in it — the pooling region's write-back over the contents it was entered from — and the
  arguments as launched. It is the run of the seven regions' records read at every unscoped buffer of the last
  contents, of which the result buffer is one.
-/
import proofs.«424645_j84567906058949_2_alg».proof.Proof.KI.Run
import proofs.«424645_j84567906058949_2_alg».proof.Proof.KI.RunCond

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

-- the conditional run's implicit arguments are found by unifying its hypotheses with the records, which takes unfolding
-- plain definitions in a metavariable's type
set_option backward.isDefEq.respectTransparency.types false in
/-- Every unscoped buffer of every core ends at the last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Gen.V17 m (outsU m) c b) :=
  Gen.run_cond (F := F) m (EP := emb₁) (ι := ()) (𝒱₀ := 𝒱₀) (L := L) (lv := lv) (hL := fun _ _ => rfl) (ρ := ρ) (outs := outsU m) (pdats := pdats m)
    (O₀ := 0) (G := fun _ => iprop(emp)) (u₀ := initOf (Pipeline.cells cfgs cellOf_inj) (Pipeline.launchToks cfgs cellOf_inj)) (hu₀ := hu₀)
    (E := fun _ c => Rd c) (hE0 := hE0 ρ) (hE7 := hE7)
    (R0 := reg0 m)
    (hpre0 := fun c => .rfl)
    (hpost0 := fun c => by rw [V4_eq]; exact .rfl)
    (R1 := reg1 m)
    (hpre1 := fun c => by rw [V6_eq]; exact .rfl)
    (hpost1 := fun c => by rw [V7_eq]; exact .rfl)
    (R2 := reg2 m)
    (hpre2 := fun c => by rw [V8_eq]; exact .rfl)
    (hpost2 := fun c => by rw [V9_eq]; exact .rfl)
    (R3 := reg3 m)
    (hpre3 := fun c => by rw [V9_eq]; exact .rfl)
    (hpost3 := fun c => by rw [V10_eq]; exact .rfl)
    (R4 := reg4 m)
    (hpre4 := fun c => by rw [V12_eq]; exact .rfl)
    (hpost4 := fun c => by rw [V13_eq]; exact .rfl)
    (R5 := reg5 m)
    (hpre5 := fun c => by rw [V14_eq]; exact .rfl)
    (hpost5 := fun c => by rw [V15_eq]; exact .rfl)
    (R6 := reg6 m)
    (hpre6 := fun c => by rw [V16_eq]; exact .rfl)
    (hpost6 := fun c => by rw [V17_eq]; exact .rfl)

/-- The run with the result named: the result buffer ends at what the pooling region leaves, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v49) = U17 m c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v49) (Finset.mem_filter.mpr ⟨StableHlo.devRef_mem_tcRefs main_v49, by decide⟩)).trans (congrFun (V17_eq m c) _),
     (h c (Proc.devRef .tc main_arg0) (Finset.mem_filter.mpr ⟨StableHlo.devRef_mem_tcRefs main_arg0, by decide⟩)).trans (Gen.V17_main_arg0 m (outsU m) c),
     (h c (Proc.devRef .tc main_arg1) (Finset.mem_filter.mpr ⟨StableHlo.devRef_mem_tcRefs main_arg1, by decide⟩)).trans (Gen.V17_main_arg1 m (outsU m) c),
     (h c (Proc.devRef .tc main_arg2) (Finset.mem_filter.mpr ⟨StableHlo.devRef_mem_tcRefs main_arg2, by decide⟩)).trans (Gen.V17_main_arg2 m (outsU m) c),
     (h c (Proc.devRef .tc main_arg3) (Finset.mem_filter.mpr ⟨StableHlo.devRef_mem_tcRefs main_arg3, by decide⟩)).trans (Gen.V17_main_arg3 m (outsU m) c),
     (h c (Proc.devRef .tc main_arg4) (Finset.mem_filter.mpr ⟨StableHlo.devRef_mem_tcRefs main_arg4, by decide⟩)).trans (Gen.V17_main_arg4 m (outsU m) c),
     (h c (Proc.devRef .tc main_arg5) (Finset.mem_filter.mpr ⟨StableHlo.devRef_mem_tcRefs main_arg5, by decide⟩)).trans (Gen.V17_main_arg5 m (outsU m) c),
     (h c (Proc.devRef .tc main_arg6) (Finset.mem_filter.mpr ⟨StableHlo.devRef_mem_tcRefs main_arg6, by decide⟩)).trans (Gen.V17_main_arg6 m (outsU m) c)⟩)
    (run_all m ρ)

end Cert.KernelIdeal.Frm

end
-- ==== Proof.KI.TakeMask.lean ====
/-
  The precondition's index range read back, and the row gather's mask under it.

  The kernel program gathers table rows at the 900000 row indices: the 800000 words of row 0 of the index
  array followed by 0, 1, …, 99999. Its gather wraps a negative index by the table's height, 100000, marks a
  row valid when the wrapped index lies in [0, 99999], and keeps a gathered row only where the mark is set.
  The precondition's last conjunct says 0 ≤ e[0, i] < 100000 for every i; the trailing 100000 indices are in
  range by themselves. So no index is wrapped, every mark is set, and the masked result is the gathered rows.
-/
import proofs.«424645_j84567906058949_2_alg».proof.KernelIdeal
import proofs.«424645_j84567906058949_2_alg».proof.Pre_finite_inputs
import proofs.«424645_j84567906058949_2_alg».proof.Proof.Gen.KernelIdeal
import proofs.«424645_j84567906058949_2_alg».proof.Proof.Gen.Pre_finite_inputs
import Idealize.ShloMosaic.Lib.ValueIdx
import Idealize.ShloMosaic.Lib.ValueLayout
import Idealize.ShloMosaic.Lib.StableHlo.Predicate
import Idealize.ShloMosaic.Lib.ReduceAll
import Idealize.ShloMosaic.Lib.Pipeline.Value

set_option maxRecDepth 16384

noncomputable section

namespace Cert.KernelIdeal.Val

open Cert.KernelIdeal Idealize.ShloMosaic Idealize.ShloMosaic.TcCoe
open Idealize.ShloMosaic.ValueIdx
open Cert.KernelIdeal.Facts₀ Cert.KernelIdeal.Facts

namespace Take

/-! Signed comparisons of a 32-bit word with a constant, as facts about the word's signed value. -/

theorem sge_zero (a : BitVec 32) : IntOp.cmpi .sge a 0#32 = 1#1 ↔ 0 ≤ a.toInt := by
  show BitVec.ofBool ((0#32 : BitVec 32).sle a) = 1#1 ↔ _
  simp only [BitVec.sle, StableHlo.Predicate.ofBool_eq_one_iff, decide_eq_true_eq]
  rw [show (0#32 : BitVec 32).toInt = 0 from by decide]

theorem slt_zero (a : BitVec 32) : IntOp.cmpi .slt a 0#32 = 1#1 ↔ a.toInt < 0 := by
  show BitVec.ofBool (a.slt (0#32 : BitVec 32)) = 1#1 ↔ _
  simp only [BitVec.slt, StableHlo.Predicate.ofBool_eq_one_iff, decide_eq_true_eq]
  rw [show (0#32 : BitVec 32).toInt = 0 from by decide]

theorem slt_height (a : BitVec 32) : IntOp.cmpi .slt a 100000#32 = 1#1 ↔ a.toInt < 100000 := by
  show BitVec.ofBool (a.slt (100000#32 : BitVec 32)) = 1#1 ↔ _
  simp only [BitVec.slt, StableHlo.Predicate.ofBool_eq_one_iff, decide_eq_true_eq]
  rw [show (100000#32 : BitVec 32).toInt = 100000 from by decide]

theorem sle_last (a : BitVec 32) : IntOp.cmpi .sle a 99999#32 = 1#1 ↔ a.toInt ≤ 99999 := by
  show BitVec.ofBool (a.sle (99999#32 : BitVec 32)) = 1#1 ↔ _
  simp only [BitVec.sle, StableHlo.Predicate.ofBool_eq_one_iff, decide_eq_true_eq]
  rw [show (99999#32 : BitVec 32).toInt = 99999 from by decide]

/-- A non-negative index is not wrapped. -/
theorem wrap_id (a : BitVec 32) (h0 : 0 ≤ a.toInt) :
    Scalar.select (IntOp.cmpi .slt a 0#32) (IntOp.addi a 100000#32) a = a := by
  unfold Scalar.select
  rw [if_neg]
  intro hc
  have := (slt_zero a).1 hc
  omega

/-- A fold by `and` from 1 over 1s is 1. -/
theorem foldl_ones {ι : Type} (l : List ι) : l.foldl (fun r (_ : ι) => IntOp.andi r 1#1) 1#1 = 1#1 := by
  induction l with
  | nil => rfl
  | cons a l ih =>
    rw [List.foldl_cons, show IntOp.andi 1#1 1#1 = 1#1 from by decide]
    exact ih

/-- A reduction by `and` of an array of 1s, from 1, is 1 everywhere. -/
theorem reduce_ones {s t u : Shape} {axes : List (Fin s.rank)} (init : u.Idx → BitVec 1) (h : s.ReducesTo axes t)
    (hu : 0 < u.numel) (hi : init (Shape.Idx.first hu) = 1#1) (j : t.Idx) :
    Host.reduce IntOp.andi (fun _ : s.Idx => 1#1) init h hu j = 1#1 := by
  rw [Host.reduce_eq_foldl, hi]
  exact foldl_ones _

end Take

/-- The precondition at the index array: every word of its row 0 lies in [0, 100000). -/
theorem row_inrange_of_pre {F : FTy → Type} [FloatOps F]
    (x0 : FVec F S100000x128 .f32) (e : IVec S2x800000 32) (x2 : IVec S100000 32) (x3 : FVec F S128x128 .f32)
    (x4 : FVec F S128 .f32) (x5 : FVec F S128x2 .f32) (x6 : FVec F S2 .f32)
    (h : Cert.Pre_finite_inputs.fn (F := F) x0 e x2 x3 x4 x5 x6 = fun _ => 1#1) :
    ∀ i : Fin 800000, 0 ≤ (e (ix2 (0 : Fin 2) i)).toInt ∧ (e (ix2 (0 : Fin 2) i)).toInt < 100000 := by
  intro i
  haveI : Subsingleton Cert.Pre_finite_inputs.S_.Idx := ⟨fun a b => funext fun d => d.elim0⟩
  have h0 := congrFun h ix0
  dsimp only [Cert.Pre_finite_inputs.fn, Cert.Pre_finite_inputs.fn_part1] at h0
  -- the last conjunct: the conjunction over i of (0 ≤ e[0, i]) and (e[0, i] < 100000)
  have h1 := (IntOp.andi_eq_one.1 h0).2
  have h2 := Host.reduce_andi_all _ _ _ _ ix0 h1 (ix1 i)
  obtain ⟨ha, hb⟩ := IntOp.andi_eq_one.1 h2
  -- row 0 of the index array, as a vector, at i
  have hr : shapeCast Cert.Pre_finite_inputs.S800000
      (extractStridedSlice Cert.Pre_finite_inputs.S1x800000 ![0, 0] e Cert.Pre_finite_inputs.Facts.slices_S2x800000_S1x800000_0_0)
      Cert.Pre_finite_inputs.Facts.shapeCasts_S1x800000_S800000 (ix1 i) = e (ix2 (0 : Fin 2) i) := by
    rw [shapeCast_1a_a_apply]
    exact slice2_axis0_apply 0 e _ (0 : Fin 1) i (0 : Fin 2) rfl
  have ha' : IntOp.cmpi .sge (e (ix2 (0 : Fin 2) i)) 0#32 = 1#1 := by rw [← hr]; exact ha
  have hb' : IntOp.cmpi .slt (e (ix2 (0 : Fin 2) i)) 100000#32 = 1#1 := by rw [← hr]; exact hb
  exact ⟨(Take.sge_zero _).1 ha', (Take.slt_height _).1 hb'⟩

/-- The 900000 row indices: row 0 of the index array, then 0, 1, …, 99999. -/
def rowOf (e : IVec S2x800000 32) : IVec S900000 32 :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- The gather's start indices: a negative row index moved up by 100000, as a column. -/
def wrapOf (r : IVec S900000 32) : IVec S900000x1 32 :=
  broadcastInDim S900000x1 ![0] bcast_S900000_S900000x1_0
    (select (cmpi .slt r (broadcastInDim S900000 ![] bcast_S_S900000 (constantI S_ 32 0#32)))
      (addi r (broadcastInDim S900000 ![] bcast_S_S900000 (constantI S_ 32 100000#32))) r)

/-- The gather's marks: row p is valid when its start index lies in [0, 99999]. -/
def okOf (ix : IVec S900000x1 32) : IVec S900000 1 :=
  (fun x v => Host.reduce IntOp.andi x v reducesTo_S900000x1_S900000_d1 h_S_)
    (andi (cmpi .sge ix (broadcastInDim S900000x1 ![] bcast_S_S900000x1 (constantI S_ 32 0#32)))
      (cmpi .sle ix (broadcastInDim S900000x1 ![0, 1] bcast_S1x1_S900000x1_0_1 (broadcastInDim S1x1 ![1] bcast_S1_S1x1_1 (constantI S1 32 99999#32)))))
    (constantI S_ 1 1#1)

namespace Take

/-- A row index among the first 800000 is the index array's word. -/
theorem rowOf_lo (e : IVec S2x800000 32) (p : Fin 900000) (hp : p.val < 800000) :
    rowOf e (ix1 p) = e (ix2 (0 : Fin 2) ⟨p.val, hp⟩) := by
  unfold rowOf
  refine (concatenate_pair_apply_left _ _ _ concatenates_S800000_S100000_S900000_d0 (ix1 p) rfl (ix1 ⟨p.val, hp⟩)
    (fun b => ?_)).trans ?_
  · match b with
    | ⟨0, _⟩ => rfl
  · rw [shapeCast_1a_a_apply]
    exact slice2_axis0_apply 0 e _ (0 : Fin 1) ⟨p.val, hp⟩ (0 : Fin 2) rfl

/-- A row index past the first 800000 is its distance past them. -/
theorem rowOf_hi (e : IVec S2x800000 32) (p : Fin 900000) (hp : 800000 ≤ p.val) :
    rowOf e (ix1 p) = BitVec.ofNat 32 (p.val - 800000) := by
  have hq : p.val - 800000 < 100000 := by have := p.isLt; omega
  unfold rowOf
  refine (concatenate_pair_apply_right _ _ _ concatenates_S800000_S100000_S900000_d0 (ix1 p) rfl rfl
    (ix1 ⟨p.val - 800000, hq⟩) (fun b hb => ?_) ?_).trans rfl
  · refine absurd (Fin.ext ?_) hb
    have hb1 : b.val < 1 := b.isLt
    show b.val = 0
    omega
  · show p.val - 800000 + 800000 = p.val
    omega

/-- Every row index lies in [0, 100000). -/
theorem rowOf_inrange (e : IVec S2x800000 32)
    (hin : ∀ i : Fin 800000, 0 ≤ (e (ix2 (0 : Fin 2) i)).toInt ∧ (e (ix2 (0 : Fin 2) i)).toInt < 100000) (p : Fin 900000) :
    0 ≤ (rowOf e (ix1 p)).toInt ∧ (rowOf e (ix1 p)).toInt < 100000 := by
  by_cases hp : p.val < 800000
  · rw [rowOf_lo e p hp]; exact hin ⟨p.val, hp⟩
  · have hq : p.val - 800000 < 100000 := by have := p.isLt; omega
    rw [rowOf_hi e p (by omega), StableHlo.Predicate.toInt_ofNat_small _ (by omega)]
    omega

/-- The start index of row p. -/
theorem wrapOf_apply (r : IVec S900000 32) (p : Fin 900000) (q : Fin 1) :
    wrapOf r (ix2 p q)
      = Scalar.select (IntOp.cmpi .slt (r (ix1 p)) 0#32) (IntOp.addi (r (ix1 p)) 100000#32) (r (ix1 p)) := by
  unfold wrapOf
  refine (broadcastInDim_apply _ _ _ (ix2 p q) (ix1 p) (fun a => ?_)).trans rfl
  match a with
  | ⟨0, _⟩ => rfl

end Take

/-- Under the index range every mark is set. -/
theorem ok_all (e : IVec S2x800000 32)
    (hin : ∀ i : Fin 800000, 0 ≤ (e (ix2 (0 : Fin 2) i)).toInt ∧ (e (ix2 (0 : Fin 2) i)).toInt < 100000) :
    okOf (wrapOf (rowOf e)) = fun _ => 1#1 := by
  have hmask : (andi (cmpi .sge (wrapOf (rowOf e)) (broadcastInDim S900000x1 ![] bcast_S_S900000x1 (constantI S_ 32 0#32)))
      (cmpi .sle (wrapOf (rowOf e)) (broadcastInDim S900000x1 ![0, 1] bcast_S1x1_S900000x1_0_1 (broadcastInDim S1x1 ![1] bcast_S1_S1x1_1 (constantI S1 32 99999#32)))))
      = fun _ => 1#1 := by
    funext j
    obtain ⟨p, q, rfl⟩ : ∃ (p : Fin 900000) (q : Fin 1), j = ix2 p q := ⟨j 0, j 1, eq_ix2 j⟩
    show IntOp.andi (IntOp.cmpi .sge (wrapOf (rowOf e) (ix2 p q)) 0#32) (IntOp.cmpi .sle (wrapOf (rowOf e) (ix2 p q)) 99999#32) = 1#1
    obtain ⟨h0, h1⟩ := Take.rowOf_inrange e hin p
    rw [Take.wrapOf_apply, Take.wrap_id _ h0]
    exact IntOp.andi_eq_one.2 ⟨(Take.sge_zero _).2 h0, (Take.sle_last _).2 (by omega)⟩
  unfold okOf
  rw [hmask]
  funext j
  exact Take.reduce_ones _ _ _ rfl j

/-- A select whose mask is a broadcast of all-set marks is its first choice. -/
theorem select_all {s t : Shape} {α : Type} (dims : Fin s.rank → Fin t.rank) (h : s.BroadcastsInDim t dims) (g c : t.Idx → α) :
    select (broadcastInDim t dims h (fun _ => 1#1)) g c = g := by
  funext i
  show Scalar.select 1#1 (g i) (c i) = g i
  exact if_pos rfl

/-- The gather into rows of 128: with every mark set, the masked result is the gathered rows. -/
theorem select_all128 {α : Type} (g c : S900000x128.Idx → α) :
    select (broadcastInDim S900000x128 ![0] bcast_S900000_S900000x128_0 (fun _ : S900000.Idx => (1#1 : BitVec 1))) g c = g :=
  select_all _ _ g c

/-- The gather into rows of 2: with every mark set, the masked result is the gathered rows. -/
theorem select_all2 {α : Type} (g c : S900000x2.Idx → α) :
    select (broadcastInDim S900000x2 ![0] bcast_S900000_S900000x2_0 (fun _ : S900000.Idx => (1#1 : BitVec 1))) g c = g :=
  select_all _ _ g c

end Cert.KernelIdeal.Val

end
-- ==== Proof.PoolSpec.lean ====
/-
  The pooling stage as plain mathematics on the extended reals, over explicit coordinates.
  A node r of 100000 carries a graph id b r (a signed 32-bit word) and a row h r of two numbers. Graph g of 16 collects
  the rows of the nodes whose id is g: their sum, divided by their number (at least 1), and the two pooled numbers
  of a graph are then normalised by the logarithm of the sum of their exponentials, shifted by their maximum.
  A node whose id is none of 0..15 belongs to no graph and contributes nothing.
-/
import Idealize.ShloMosaic.PureOps.Ideal

noncomputable section

namespace Cert.PoolSpec

open Idealize.ShloMosaic

/-- The weight of node id `b` in graph `g`: one when the id is `g`, else zero. -/
def oh (b : BitVec 32) (g : Fin 16) : EReal := if b = BitVec.ofNat 32 g.val then 1 else 0

/-- The sum of the rows of graph `g`'s nodes, column `f`. -/
def sums (h : Fin 100000 → Fin 2 → EReal) (b : Fin 100000 → BitVec 32) (g : Fin 16) (f : Fin 2) : EReal :=
  ∑ r : Fin 100000, oh (b r) g * h r f

/-- The number of graph `g`'s nodes. -/
def cnts (b : Fin 100000 → BitVec 32) (g : Fin 16) : EReal := ∑ r : Fin 100000, oh (b r) g

/-- The mean row of graph `g` (the divisor at least one). -/
def pooled (h : Fin 100000 → Fin 2 → EReal) (b : Fin 100000 → BitVec 32) (g : Fin 16) (f : Fin 2) : EReal :=
  Ideal.div (sums h b g f) (max (cnts b g) 1)

/-- The normalisation of a pair: each entry less the pair's maximum, less the logarithm of the sum of the exponentials
    of the two shifted entries. -/
def lsm (p : Fin 2 → EReal) (f : Fin 2) : EReal :=
  (p f - max (p 0) (p 1)) - Ideal.log (Ideal.exp (p 0 - max (p 0) (p 1)) + Ideal.exp (p 1 - max (p 0) (p 1)))

/-- The pooling stage's result at graph `g`, column `f`. -/
def pool (h : Fin 100000 → Fin 2 → EReal) (b : Fin 100000 → BitVec 32) (g : Fin 16) (f : Fin 2) : EReal :=
  lsm (pooled h b g) f

end Cert.PoolSpec

end
-- ==== Proof.Ref.PoolRef.lean ====
/-
  The reference program's pooling stage, read at an index against the shared specification.
  The rows of the node features are added into sixteen graph rows by the nodes' id words, ones are added into sixteen
  counts by the same words, each graph row is divided by its count (at least one), and the two numbers of a graph are
  normalised by the logarithm of the sum of their exponentials, shifted by their maximum.
  An update lands on a graph exactly when its id word, read signed, is that graph's number; an id word that is none of
  0..15 lands nowhere. So the accumulated row of graph g, column f, is the sum over the nodes of the indicator of
  "the node's word is g's" times the node's entry in column f, and the count is the sum of the indicators.
-/
import proofs.«424645_j84567906058949_2_alg».proof.Proof.Ref.Read
import proofs.«424645_j84567906058949_2_alg».proof.Proof.PoolSpec
import Idealize.ShloMosaic.Lib.ValueIdx
import Idealize.ShloMosaic.PureOps.Ideal.Laws

set_option maxRecDepth 16384

noncomputable section

namespace Cert.ReferenceIdeal.PoolRef

open Cert.ReferenceIdeal Cert.ReferenceIdeal.Gen Idealize.ShloMosaic Idealize.ShloMosaic.TcCoe Idealize.ShloMosaic.StableHlo ValueIdx

/-- The dimension numbers of the rows' scatter into the sixteen graph rows. -/
abbrev dS := scatter_S16x2_S100000x1_S100000x2_1_0_0_1
/-- The dimension numbers of the ones' scatter into the sixteen counts. -/
abbrev dC := scatter_S16_S100000x1_S100000_n_0_0_1

/-- An update lands on element `i` exactly when, on every axis, its signed start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro e
    split at e
    · rename_i h
      have e' := Option.some.inj e
      intro a
      have ha := h a
      rw [← e']
      show _ = (((d.start j idx a + d.window j a).toNat : Nat) : Int)
      omega
    · exact absurd e (by simp)
  · intro hi
    have h : ∀ a, 0 ≤ d.start j idx a + d.window j a ∧ d.start j idx a + d.window j a < s.size a := fun a => by
      have h1 := hi a; have h2 := (i a).isLt; omega
    rw [dif_pos h]
    refine congrArg some ?_
    funext a; apply Fin.ext
    show (d.start j idx a + d.window j a).toNat = (i a).val
    have h1 := hi a; omega

/-- The rows' scatter starts, on the graph axis, at the signed id word of the update's row. -/
theorem dS_start0 (j : S100000x2.Idx) (idx : IVec S100000x1 32) :
    dS.start j idx 0 = (idx (ix2 (j 0) 0)).toInt := by
  unfold ScatterDims.start
  rw [dif_pos (by decide)]
  refine congrArg (fun k => (idx k).toInt) ?_
  funext b; match b with | ⟨0, _⟩ => rfl | ⟨1, _⟩ => rfl

/-- On the column axis the rows' scatter starts at zero. -/
theorem dS_start1 (j : S100000x2.Idx) (idx : IVec S100000x1 32) :
    dS.start j idx 1 = 0 := by
  unfold ScatterDims.start
  rw [dif_neg (by decide)]

/-- The graph axis is inserted: no window coordinate there. -/
theorem dS_window0 (j : S100000x2.Idx) : dS.window j 0 = 0 := by
  unfold ScatterDims.window
  rw [dif_neg (by decide)]

/-- The window coordinate on the column axis is the update's column. -/
theorem dS_window1 (j : S100000x2.Idx) : dS.window j 1 = (j 1).val := by
  unfold ScatterDims.window
  rw [dif_pos (by decide)]
  rfl

/-- The ones' scatter starts at the signed id word of the update's row. -/
theorem dC_start0 (j : S100000.Idx) (idx : IVec S100000x1 32) :
    dC.start j idx 0 = (idx (ix2 (j 0) 0)).toInt := by
  unfold ScatterDims.start
  rw [dif_pos (by decide)]
  refine congrArg (fun k => (idx k).toInt) ?_
  funext b; match b with | ⟨0, _⟩ => rfl | ⟨1, _⟩ => rfl

/-- The ones' scatter has no window. -/
theorem dC_window0 (j : S100000.Idx) : dC.window j 0 = 0 := by
  unfold ScatterDims.window
  rw [dif_neg (by decide)]

/-- A 32-bit word read signed is the graph number `g` exactly when it is the word of `g`. -/
theorem toInt_eq_iff (b : BitVec 32) (g : Fin 16) : b.toInt = (g.val : Int) ↔ b = BitVec.ofNat 32 g.val := by
  have hg : (BitVec.ofNat 32 g.val).toInt = (g.val : Int) := by
    have hlt := g.isLt
    rw [BitVec.toInt_eq_toNat_of_lt (by rw [BitVec.toNat_ofNat]; omega), BitVec.toNat_ofNat]
    omega
  rw [← hg, BitVec.toInt_inj]

/-- The rows' update (r, c) lands on (g, f) exactly when its column is `f` and its row's id word is `g`'s. -/
theorem dS_lands (idx : IVec S100000x1 32) (r : Fin 100000) (c : Fin 2) (g : Fin 16) (f : Fin 2) :
    dS.resultIdx? (ix2 r c) idx = some (ix2 g f) ↔ idx (ix2 r 0) = BitVec.ofNat 32 g.val ∧ c = f := by
  rw [resultIdx?_eq_some_iff, Fin.forall_fin_two, dS_start0, dS_start1, dS_window0, dS_window1, ← toInt_eq_iff]
  show (idx (ix2 r 0)).toInt + ((0 : Nat) : Int) = (g.val : Int) ∧ (0 : Int) + ((c.val : Nat) : Int) = (f.val : Int) ↔ _
  constructor
  · rintro ⟨h1, h2⟩; exact ⟨by omega, Fin.ext (by omega)⟩
  · rintro ⟨h1, h2⟩; subst h2; exact ⟨by omega, by omega⟩

/-- The ones' update r lands on g exactly when its id word is `g`'s. -/
theorem dC_lands (idx : IVec S100000x1 32) (r : Fin 100000) (g : Fin 16) :
    dC.resultIdx? (ix1 r) idx = some (ix1 g) ↔ idx (ix2 r 0) = BitVec.ofNat 32 g.val := by
  rw [resultIdx?_eq_some_iff, ← toInt_eq_iff]
  constructor
  · intro h; have h0 := h 0; rw [dC_start0, dC_window0] at h0
    have : (idx (ix2 r 0)).toInt + ((0 : Nat) : Int) = (g.val : Int) := h0
    omega
  · intro h a
    match a with
    | ⟨0, _⟩ =>
      show dC.start (ix1 r) idx 0 + (dC.window (ix1 r) 0 : Int) = (g.val : Int)
      rw [dC_start0, dC_window0]
      show (idx (ix2 r 0)).toInt + ((0 : Nat) : Int) = (g.val : Int)
      omega

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The rows' accumulating scatter at (g, f): the operand's element plus the column-f entries of the rows whose id
    word is `g`'s. -/
theorem scatter_sums (x : S16x2.Idx → EReal) (idx : IVec S100000x1 32) (upd : S100000x2.Idx → EReal) (g : Fin 16)
    (f : Fin 2) :
    Ideal.hostScatterAdd dS x idx upd (ix2 g f)
      = x (ix2 g f) + ∑ r : Fin 100000, (if idx (ix2 r 0) = BitVec.ofNat 32 g.val then upd (ix2 r f) else 0) := by
  unfold Ideal.hostScatterAdd
  refine congrArg (x (ix2 g f) + ·) ?_
  rw [Finset.sum_filter, sum_idx2]
  refine Finset.sum_congr rfl fun r _ => ?_
  simp only [dS_lands]
  by_cases hb : idx (ix2 r 0) = BitVec.ofNat 32 g.val
  · simp only [hb, true_and, if_true, Finset.sum_ite_eq', Finset.mem_univ]
  · simp only [hb, false_and, if_false, Finset.sum_const_zero]

/-- The ones' accumulating scatter at g: the operand's element plus the entries of the rows whose id word is `g`'s. -/
theorem scatter_cnts (x : S16.Idx → EReal) (idx : IVec S100000x1 32) (upd : S100000.Idx → EReal) (g : Fin 16) :
    Ideal.hostScatterAdd dC x idx upd (ix1 g)
      = x (ix1 g) + ∑ r : Fin 100000, (if idx (ix2 r 0) = BitVec.ofNat 32 g.val then upd (ix1 r) else 0) := by
  unfold Ideal.hostScatterAdd
  refine congrArg (x (ix1 g) + ·) ?_
  rw [Finset.sum_filter, sum_idx1]
  refine Finset.sum_congr rfl fun r _ => ?_
  simp only [dC_lands]

/-- The pattern of the number one. -/
theorem ofBits_one_f32 : Ideal.ofBits .f32 0x3F800000#32 = 1 := by
  simp [Ideal.ofBits, Ideal.ieee, -EReal.coe_mul]; norm_num

/-- The pattern of minus infinity. -/
theorem ofBits_negInf_f32 : Ideal.ofBits .f32 0xFF800000#32 = ⊥ := by simp [Ideal.ofBits, Ideal.ieee]

/-- A fold of a maximum over two entries is the maximum of the two and the initial value. -/
theorem fold_max_fin2 (init : EReal) (q : Fin 2 → EReal) :
    (Finset.univ : Finset (Fin 2)).fold max init q = max (q 0) (max (q 1) init) := by
  rw [show (Finset.univ : Finset (Fin 2)) = insert 0 {1} from by decide, Finset.fold_insert (by decide),
    Finset.fold_singleton]

/-- The graph index `g` with column `k` put back is (g, k). -/
theorem lift_ix1 (h : S16x2.Reduces [1] S16) (g : Fin 16) (k : Fin (S16x2.size 1)) :
    h.lift (ix1 g) k = ix2 g (⟨k.val, k.isLt⟩ : Fin 2) := by
  funext c; apply Fin.ext
  fin_cases c <;> rfl

/-- The ids broadcast to a column, read at row r. -/
theorem v66_at (x2 : (⟨S100000, .i32⟩ : BufTy).Contents (Elt Ideal)) (r : Fin 100000) :
    Read.val_main_v66 (F := Ideal) x2 (ix2 r 0) = x2 (ix1 r) := by
  rw [Read.val_main_v66_apply]
  exact congrArg x2 (funext fun a => match a with | ⟨0, _⟩ => rfl)

/-- The same for the counts' copy of the ids. -/
theorem v70_at (x2 : (⟨S100000, .i32⟩ : BufTy).Contents (Elt Ideal)) (r : Fin 100000) :
    Read.val_main_v70 (F := Ideal) x2 (ix2 r 0) = x2 (ix1 r) := by
  rw [Read.val_main_v70_apply]
  exact congrArg x2 (funext fun a => match a with | ⟨0, _⟩ => rfl)

/-- The sums stage at (g, f) is the specification's sum. -/
theorem ref_sums (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (g : Fin 16) (f : Fin 2) :
    Read.val_main_v67 (F := Ideal) x0 x1 x2 x3 x4 x5 x6 (ix2 g f)
      = Cert.PoolSpec.sums (fun r f' => Read.val_main_v64 (F := Ideal) x0 x1 x3 x4 x5 x6 (ix2 r f')) (fun r => x2 (ix1 r)) g f := by
  unfold Read.val_main_v67 Cert.PoolSpec.sums
  show Ideal.hostScatterAdd dS _ _ _ (ix2 g f) = _
  rw [scatter_sums, Read.val_main_v65_apply, Read.val_main_cst_12_apply]
  show Ideal.ofBits .f32 0x00000000#32 + _ = _
  rw [Ideal.ofBits_zero_f32, zero_add]
  refine Finset.sum_congr rfl fun r _ => ?_
  rw [v66_at]
  unfold Cert.PoolSpec.oh
  by_cases hb : x2 (ix1 r) = BitVec.ofNat 32 g.val
  · rw [if_pos hb, if_pos hb, one_mul]
  · rw [if_neg hb, if_neg hb, zero_mul]

/-- The counts stage at g is the specification's count. -/
theorem ref_cnts (x2 : (⟨S100000, .i32⟩ : BufTy).Contents (Elt Ideal)) (g : Fin 16) :
    Read.val_main_v71 (F := Ideal) x2 (ix1 g) = Cert.PoolSpec.cnts (fun r => x2 (ix1 r)) g := by
  unfold Read.val_main_v71 Cert.PoolSpec.cnts
  show Ideal.hostScatterAdd dC _ _ _ (ix1 g) = _
  rw [scatter_cnts, Read.val_main_v69_apply, Read.val_main_cst_14_apply]
  show Ideal.ofBits .f32 0x00000000#32 + _ = _
  rw [Ideal.ofBits_zero_f32, zero_add]
  refine Finset.sum_congr rfl fun r _ => ?_
  rw [v70_at, Read.val_main_v68_apply, Read.val_main_cst_13_apply]
  show (if _ then Ideal.ofBits .f32 0x3F800000#32 else 0) = _
  rw [ofBits_one_f32]
  rfl

/-- The mean stage at (g, f) is the specification's mean. -/
theorem ref_pooled (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (g : Fin 16) (f : Fin 2) :
    Read.val_main_v76 (F := Ideal) x0 x1 x2 x3 x4 x5 x6 (ix2 g f)
      = Cert.PoolSpec.pooled (fun r f' => Read.val_main_v64 (F := Ideal) x0 x1 x3 x4 x5 x6 (ix2 r f')) (fun r => x2 (ix1 r)) g f := by
  rw [Read.val_main_v76_apply, Read.val_main_v75_apply, Read.val_main_v74_apply, Read.val_main_v73_apply,
    Read.val_main_v72_apply, Read.val_main_cst_15_apply, ref_sums]
  rw [show Read.idx_main_v74 (Read.idx_main_v75 (ix2 g f)) = ix1 g from funext fun a => match a with | ⟨0, _⟩ => rfl,
    ref_cnts]
  show Ideal.div _ (max _ (Ideal.ofBits .f32 0x3F800000#32)) = _
  rw [ofBits_one_f32]
  rfl

/-- The host's maximum over the two columns, at graph g. -/
theorem hostMax_at (x : FVec Ideal S16x2 .f32) (init : FVec Ideal S_ .f32) (g : Fin 16) :
    Host.reduce FloatOps.maximumf x init reducesTo_S16x2_S16_d1 h_S_ (ix1 g)
      = max (x (ix2 g 0)) (max (x (ix2 g 1)) (init (Shape.Idx.first h_S_))) := by
  have h : S16x2.Reduces [1] S16 := by decide
  rw [Host.reduce_eq_fold_single FloatOps.maximumf x init reducesTo_S16x2_S16_d1 h h_S_]
  have hf : (x ∘ h.lift (ix1 g)) = fun k : Fin 2 => x (ix2 g k) := funext fun k => congrArg x (lift_ix1 h g k)
  rw [hf]
  exact fold_max_fin2 _ _

/-- The shift stage at (g, f): the larger of graph g's two pooled numbers. -/
theorem ref_rowmax (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (g : Fin 16) (f : Fin 2) :
    Read.val_main_call2_v4 (F := Ideal) x0 x1 x2 x3 x4 x5 x6 (ix2 g f)
      = max (Read.val_main_v76 (F := Ideal) x0 x1 x2 x3 x4 x5 x6 (ix2 g 0))
          (Read.val_main_v76 (F := Ideal) x0 x1 x2 x3 x4 x5 x6 (ix2 g 1)) := by
  rw [Read.val_main_call2_v4_apply, Read.val_main_call2_v3_apply, Read.val_main_call2_v2_apply,
    Read.val_main_call2_v1_apply, Read.val_main_call2_cst_0_apply]
  rw [show Read.idx_main_call2_v3 (Read.idx_main_call2_v4 (ix2 g f)) = ix1 g from
    funext fun a => match a with | ⟨0, _⟩ => rfl]
  unfold Read.val_main_call2_v0
  rw [hostMax_at, Read.val_main_call2_cst_apply]
  show max (Ideal.ofBits .f32 0xFF800000#32) (max _ (max _ (Ideal.ofBits .f32 0xFF800000#32))) = _
  rw [ofBits_negInf_f32, max_bot_right, max_bot_left]

/-- The reference's pooling stage at (g, f) is the specification's. -/
theorem ref_pool (x0 : (⟨S100000x128, .f32⟩ : BufTy).Contents (Elt Ideal)) (x1 : (⟨S2x800000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (g : Fin 16) (f : Fin 2) :
    Read.val_main_v77 (F := Ideal) x0 x1 x2 x3 x4 x5 x6 (ix2 g f)
      = Cert.PoolSpec.pool (fun r f' => Read.val_main_v64 (F := Ideal) x0 x1 x3 x4 x5 x6 (ix2 r f')) (fun r => x2 (ix1 r)) g f := by
  rw [Read.val_main_v77_apply, Read.val_main_call2_v10_apply, Read.val_main_call2_v9_apply,
    Read.val_main_call2_v8_apply, Read.val_main_call2_v7_apply, Read.val_main_call2_cst_1_apply]
  rw [show Read.idx_main_call2_v8 (Read.idx_main_call2_v10 (ix2 g f)) = ix1 g from
    funext fun a => match a with | ⟨0, _⟩ => rfl]
  rw [Fin.sum_univ_two]
  rw [show Read.idx_main_call2_v7 (ix1 g) 0 = ix2 g 0 from funext fun a => match a with | ⟨0, _⟩ => rfl | ⟨1, _⟩ => rfl,
    show Read.idx_main_call2_v7 (ix1 g) 1 = ix2 g 1 from funext fun a => match a with | ⟨0, _⟩ => rfl | ⟨1, _⟩ => rfl]
  simp only [Read.val_main_call2_v6_apply, Read.val_main_call2_v5_apply, ref_rowmax, ref_pooled]
  simp only [Ideal.subf_def, Ideal.hostUnary_exp_def, Ideal.hostUnary_log_def, Ideal.ofBits_def, Ideal.ofBits_zero_f32, zero_add]
  unfold Cert.PoolSpec.pool Cert.PoolSpec.lsm
  rfl

end Cert.ReferenceIdeal.PoolRef
end
-- ==== Proof.KI.PoolPay.lean ====
/-
  Kernel region 6 (the pooling kernel): the arithmetic of its body read at an index. The body keeps, per graph g of 16,
  a running sum of the rows of the graph's nodes (two numbers) and a running count of them. A block of 10000 nodes adds to
  them the product of the block's one-hot membership matrix (node y is in graph g when its id word is g) with the
  block's rows, respectively with a column of ones; the closing step divides the sums by the count (at least one) and
  normalises the two pooled numbers of a graph by the logarithm of the sum of their exponentials, shifted by their maximum.
-/
import proofs.«424645_j84567906058949_2_alg».proof.Proof.Gen.KernelIdeal.Skeleton
import proofs.«424645_j84567906058949_2_alg».proof.Proof.PoolSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val.Pool

open Cert.KernelIdeal Cert.KernelIdeal.Gen Idealize.ShloMosaic Idealize.ShloMosaic.TcCoe
open Idealize.ShloMosaic.ValueIdx

/-! ## Layout operations at an index -/

/-- A column [a, 1] broadcast to [a, b] reads, at (p, c), the column's entry of row p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (p, u), the vector's entry p. -/
theorem castCol_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The two zero blocks -/

/-- The zeroed sums. -/
theorem pay1_apply (g : Fin 16) (f : Fin 2) : k6_pay1 (F := Ideal) (ix2 g f) = 0 := by
  unfold k6_pay1
  simp only [shapeCast_self]
  rw [broadcast_apply]
  exact Ideal.ofBits_zero_f32

/-- The zeroed counts. -/
theorem pay2_apply (g : Fin 16) : k6_pay2 (F := Ideal) (ix2 g (0 : Fin 1)) = 0 := by
  unfold k6_pay2
  simp only [shapeCast_self]
  rw [broadcast_apply]
  exact Ideal.ofBits_zero_f32

/-! ## The one-hot membership matrix -/

/-- The word one, read as a signed integer and converted, is the number one; the word zero, zero. -/
theorem sitofp_bit (c : Bool) :
    (FloatOps.sitofp (F := Ideal) .f32 ((BitVec.ofBool c).setWidth 32) : EReal) = if c then 1 else 0 := by
  cases c
  · show (((0#32 : BitVec 32).toInt : ℝ) : EReal) = 0
    simp
  · show (((1#32 : BitVec 32).toInt : ℝ) : EReal) = 1
    have : (1#32 : BitVec 32).toInt = 1 := by decide
    rw [this]; simp

/-- Entry (y, g) of the block's membership matrix: one when node y's id word is g, else zero. -/
theorem pay3_apply (b : Vec Ideal S10000x1 .i32) (y : Fin 10000) (g : Fin 16) :
    k6_pay3 (F := Ideal) b (ix2 y g) = Cert.PoolSpec.oh (b (ix2 y (0 : Fin 1))) g := by
  unfold k6_pay3
  simp only [shapeCast_self]
  rw [sitofp_apply, extui_apply]
  show FloatOps.sitofp (F := Ideal) .f32 ((IntOp.cmpi .eq (broadcastTo S10000x16 b broadcasts_S10000x1_S10000x16 (ix2 y g))
    (iota .tc S10000x16 32 [1] iota_S10000x16_d1_w32 (ix2 y g))).setWidth 32) = _
  rw [bcastCol_apply, iota_single_apply]
  show FloatOps.sitofp (F := Ideal) .f32 ((BitVec.ofBool (b (ix2 y (0 : Fin 1)) == BitVec.ofNat 32 g.val)).setWidth 32) = _
  rw [sitofp_bit]
  unfold Cert.PoolSpec.oh
  by_cases hb : b (ix2 y (0 : Fin 1)) = BitVec.ofNat 32 g.val
  · rw [if_pos hb, if_pos (by simpa using hb)]
  · rw [if_neg hb, if_neg (by simpa using hb)]

/-! ## The two products with the membership matrix -/

theorem lhs_sum_0 (i : S16x2.Idx) (q : dot_S10000x16_S10000x2_S16x2_0_0_1_1_n_n.contr.Idx) :
    (dot_S10000x16_S10000x2_S16x2_0_0_1_1_n_n.lhsIdx i q 0).val = (q ⟨0, by decide⟩).val :=
  dot_S10000x16_S10000x2_S16x2_0_0_1_1_n_n.lhsIdx_val_of_single rfl i q
theorem lhs_sum_1 (i : S16x2.Idx) (q : dot_S10000x16_S10000x2_S16x2_0_0_1_1_n_n.contr.Idx) :
    (dot_S10000x16_S10000x2_S16x2_0_0_1_1_n_n.lhsIdx i q 1).val = (i 0).val := by
  unfold DotDims.lhsIdx
  rw [dif_neg (show ¬(1 : Fin S10000x16.rank) ∈ dot_S10000x16_S10000x2_S16x2_0_0_1_1_n_n.lhsBatch by decide), dif_pos (show (1 : Fin S10000x16.rank) ∈ dot_S10000x16_S10000x2_S16x2_0_0_1_1_n_n.lhsNonContracting by decide)]
  rfl
theorem rhs_sum_0 (i : S16x2.Idx) (q : dot_S10000x16_S10000x2_S16x2_0_0_1_1_n_n.contr.Idx) :
    (dot_S10000x16_S10000x2_S16x2_0_0_1_1_n_n.rhsIdx i q 0).val = (q ⟨0, by decide⟩).val :=
  dot_S10000x16_S10000x2_S16x2_0_0_1_1_n_n.rhsIdx_val_of_single rfl i q
theorem rhs_sum_1 (i : S16x2.Idx) (q : dot_S10000x16_S10000x2_S16x2_0_0_1_1_n_n.contr.Idx) :
    (dot_S10000x16_S10000x2_S16x2_0_0_1_1_n_n.rhsIdx i q 1).val = (i 1).val := by
  unfold DotDims.rhsIdx
  rw [dif_neg (show ¬(1 : Fin S10000x2.rank) ∈ dot_S10000x16_S10000x2_S16x2_0_0_1_1_n_n.rhsBatch by decide), dif_pos (show (1 : Fin S10000x2.rank) ∈ dot_S10000x16_S10000x2_S16x2_0_0_1_1_n_n.rhsNonContracting by decide)]
  rfl

/-- The product, contracted over the 10000 nodes of the block, of a [10000, 16] matrix with a [10000, 2] one, into zero:
    entry (g, f) is the sum over the nodes y of the first at (y, g) times the second at (y, f). -/
theorem matmul_sum_apply (l : FVec Ideal S10000x16 .f32) (r : FVec Ideal S10000x2 .f32) (g : Fin 16) (f : Fin 2) :
    matmul dot_S10000x16_S10000x2_S16x2_0_0_1_1_n_n (some .fp32) l r (constant (F := Ideal) S16x2 .f32 0x00000000#32) (ix2 g f)
      = ∑ y : Fin 10000, l (ix2 y g) * r (ix2 y f) := by
  simp only [matmul]
  rw [Ideal.matmul_constant_zero_apply, ← Equiv.sum_comp (contrEquiv1 dot_S10000x16_S10000x2_S16x2_0_0_1_1_n_n 10000 rfl rfl).symm]
  refine Finset.sum_congr rfl fun k _ => ?_
  have hk := contrEquiv1_symm_val dot_S10000x16_S10000x2_S16x2_0_0_1_1_n_n 10000 rfl rfl k
  have el : dot_S10000x16_S10000x2_S16x2_0_0_1_1_n_n.lhsIdx (ix2 g f) ((contrEquiv1 dot_S10000x16_S10000x2_S16x2_0_0_1_1_n_n 10000 rfl rfl).symm k) = ix2 k g := funext fun a => Fin.ext (by
    match a with
    | ⟨0, _⟩ => exact (lhs_sum_0 _ _).trans hk
    | ⟨1, _⟩ => exact lhs_sum_1 _ _)
  have er : dot_S10000x16_S10000x2_S16x2_0_0_1_1_n_n.rhsIdx (ix2 g f) ((contrEquiv1 dot_S10000x16_S10000x2_S16x2_0_0_1_1_n_n 10000 rfl rfl).symm k) = ix2 k f := funext fun a => Fin.ext (by
    match a with
    | ⟨0, _⟩ => exact (rhs_sum_0 _ _).trans hk
    | ⟨1, _⟩ => exact rhs_sum_1 _ _)
  rw [el, er]

theorem lhs_cnt_0 (i : S16x1.Idx) (q : dot_S10000x16_S10000x1_S16x1_0_0_1_1_n_n.contr.Idx) :
    (dot_S10000x16_S10000x1_S16x1_0_0_1_1_n_n.lhsIdx i q 0).val = (q ⟨0, by decide⟩).val :=
  dot_S10000x16_S10000x1_S16x1_0_0_1_1_n_n.lhsIdx_val_of_single rfl i q
theorem lhs_cnt_1 (i : S16x1.Idx) (q : dot_S10000x16_S10000x1_S16x1_0_0_1_1_n_n.contr.Idx) :
    (dot_S10000x16_S10000x1_S16x1_0_0_1_1_n_n.lhsIdx i q 1).val = (i 0).val := by
  unfold DotDims.lhsIdx
  rw [dif_neg (show ¬(1 : Fin S10000x16.rank) ∈ dot_S10000x16_S10000x1_S16x1_0_0_1_1_n_n.lhsBatch by decide), dif_pos (show (1 : Fin S10000x16.rank) ∈ dot_S10000x16_S10000x1_S16x1_0_0_1_1_n_n.lhsNonContracting by decide)]
  rfl
theorem rhs_cnt_0 (i : S16x1.Idx) (q : dot_S10000x16_S10000x1_S16x1_0_0_1_1_n_n.contr.Idx) :
    (dot_S10000x16_S10000x1_S16x1_0_0_1_1_n_n.rhsIdx i q 0).val = (q ⟨0, by decide⟩).val :=
  dot_S10000x16_S10000x1_S16x1_0_0_1_1_n_n.rhsIdx_val_of_single rfl i q
theorem rhs_cnt_1 (i : S16x1.Idx) (q : dot_S10000x16_S10000x1_S16x1_0_0_1_1_n_n.contr.Idx) :
    (dot_S10000x16_S10000x1_S16x1_0_0_1_1_n_n.rhsIdx i q 1).val = (i 1).val := by
  unfold DotDims.rhsIdx
  rw [dif_neg (show ¬(1 : Fin S10000x1.rank) ∈ dot_S10000x16_S10000x1_S16x1_0_0_1_1_n_n.rhsBatch by decide), dif_pos (show (1 : Fin S10000x1.rank) ∈ dot_S10000x16_S10000x1_S16x1_0_0_1_1_n_n.rhsNonContracting by decide)]
  rfl

/-- The same product with a [10000, 1] column on the right. -/
theorem matmul_cnt_apply (l : FVec Ideal S10000x16 .f32) (r : FVec Ideal S10000x1 .f32) (g : Fin 16) (u : Fin 1) :
    matmul dot_S10000x16_S10000x1_S16x1_0_0_1_1_n_n (some .fp32) l r (constant (F := Ideal) S16x1 .f32 0x00000000#32) (ix2 g u)
      = ∑ y : Fin 10000, l (ix2 y g) * r (ix2 y u) := by
  simp only [matmul]
  rw [Ideal.matmul_constant_zero_apply, ← Equiv.sum_comp (contrEquiv1 dot_S10000x16_S10000x1_S16x1_0_0_1_1_n_n 10000 rfl rfl).symm]
  refine Finset.sum_congr rfl fun k _ => ?_
  have hk := contrEquiv1_symm_val dot_S10000x16_S10000x1_S16x1_0_0_1_1_n_n 10000 rfl rfl k
  have el : dot_S10000x16_S10000x1_S16x1_0_0_1_1_n_n.lhsIdx (ix2 g u) ((contrEquiv1 dot_S10000x16_S10000x1_S16x1_0_0_1_1_n_n 10000 rfl rfl).symm k) = ix2 k g := funext fun a => Fin.ext (by
    match a with
    | ⟨0, _⟩ => exact (lhs_cnt_0 _ _).trans hk
    | ⟨1, _⟩ => exact lhs_cnt_1 _ _)
  have er : dot_S10000x16_S10000x1_S16x1_0_0_1_1_n_n.rhsIdx (ix2 g u) ((contrEquiv1 dot_S10000x16_S10000x1_S16x1_0_0_1_1_n_n 10000 rfl rfl).symm k) = ix2 k u := funext fun a => Fin.ext (by
    match a with
    | ⟨0, _⟩ => exact (rhs_cnt_0 _ _).trans hk
    | ⟨1, _⟩ => exact rhs_cnt_1 _ _)
  rw [el, er]

/-- The sums after a block: the sums before it plus, per graph g and column f, the sum over the block's nodes of the
    node's weight in g times its row's entry f. -/
theorem pay4_apply (b : Vec Ideal S10000x1 .i32) (h : Vec Ideal S10000x2 .f32) (s : Vec Ideal S16x2 .f32) (g : Fin 16) (f : Fin 2) :
    k6_pay4 b h s (ix2 g f)
      = s (ix2 g f) + ∑ y : Fin 10000, Cert.PoolSpec.oh (b (ix2 y (0 : Fin 1))) g * h (ix2 y f) := by
  unfold k6_pay4
  simp only [shapeCast_self]
  rw [addf_apply, matmul_sum_apply]
  exact congrArg (s (ix2 g f) + ·) (Finset.sum_congr rfl fun y _ => by rw [pay3_apply])

/-- The counts after a block: the counts before it plus, per graph g, the sum over the block's nodes of the node's
    weight in g. -/
theorem pay5_apply (b : Vec Ideal S10000x1 .i32) (k : Vec Ideal S16x1 .f32) (g : Fin 16) :
    k6_pay5 b k (ix2 g (0 : Fin 1))
      = k (ix2 g (0 : Fin 1)) + ∑ y : Fin 10000, Cert.PoolSpec.oh (b (ix2 y (0 : Fin 1))) g := by
  unfold k6_pay5
  simp only [shapeCast_self]
  rw [addf_apply, matmul_cnt_apply]
  refine congrArg (k (ix2 g (0 : Fin 1)) + ·) (Finset.sum_congr rfl fun y _ => ?_)
  rw [pay3_apply, broadcast_apply]
  show _ * Ideal.ofBits .f32 0x3F800000#32 = _
  rw [Ideal.ofBits_one_f32, mul_one]

/-! ## The closing normalisation -/

/-- The pattern of minus infinity is the bottom of the extended reals. -/
theorem ofBits_ninf_f32 : Ideal.ofBits .f32 0xFF800000#32 = ⊥ := by simp [Ideal.ofBits, Ideal.ieee]

/-- Over row g of a [16, 2] array the inserted index at lane c is (g, c). -/
theorem lift_row (g : Fin 16) (c : Fin 2) : reduces_S16x2_S16.lift (ix1 g) c = ix2 g c :=
  funext fun a => Fin.ext (by
    match a with
    | ⟨0, _⟩ => rfl
    | ⟨1, _⟩ => rfl)

/-- The maximum over the two lanes of row g, from minus infinity: the larger of the row's two entries. -/
theorem rowMax_apply (x : FVec Ideal S16x2 .f32) (hφ : FKind.Formats .f32)
    (hacc : (0xFF800000#32 : BitVec 32) = 0xFF800000#32) (g : Fin 16) :
    multiReduction .maximumf [1] S16 x 0xFF800000#32 reduces_S16x2_S16 hφ hacc (ix1 g)
      = max (x (ix2 g (0 : Fin 2))) (x (ix2 g (1 : Fin 2))) := by
  refine (Ideal.multiReduction_maximumf_single x 0xFF800000#32 reduces_S16x2_S16 hφ hacc (ix1 g)).trans ?_
  have hfun : (x ∘ reduces_S16x2_S16.lift (ix1 g) : Fin 2 → EReal) = fun c : Fin 2 => x (ix2 g c) :=
    funext fun c => congrArg x (lift_row g c)
  show (Finset.univ : Finset (Fin 2)).fold max (Ideal.ofBits .f32 0xFF800000#32) (x ∘ reduces_S16x2_S16.lift (ix1 g) : Fin 2 → EReal) = _
  rw [hfun, ofBits_ninf_f32, show (Finset.univ : Finset (Fin 2)) = insert (0 : Fin 2) {1} by decide,
    Finset.fold_insert (by decide), Finset.fold_singleton, max_bot_right]

/-- The sum over the two lanes of row g: the sum of the row's two entries. -/
theorem rowSum_apply (x : FVec Ideal S16x2 .f32) (hφ : FKind.Formats .f32)
    (hacc : (0x00000000#32 : BitVec 32) = 0x00000000#32) (g : Fin 16) :
    multiReduction .add [1] S16 x 0x00000000#32 reduces_S16x2_S16 hφ hacc (ix1 g)
      = x (ix2 g (0 : Fin 2)) + x (ix2 g (1 : Fin 2)) := by
  refine (Ideal.multiReduction_add_single x 0x00000000#32 reduces_S16x2_S16 hφ hacc (ix1 g)).trans ?_
  have hfun : (fun c : Fin 2 => x (reduces_S16x2_S16.lift (ix1 g) c)) = fun c : Fin 2 => x (ix2 g c) :=
    funext fun c => congrArg x (lift_row g c)
  show ∑ c : Fin 2, (fun c : Fin 2 => x (reduces_S16x2_S16.lift (ix1 g) c)) c = _
  rw [hfun, Fin.sum_univ_two]

/-- An exponential at an index is the exponential of the element … -/
theorem exp_apply {s : Shape} (x : FVec Ideal s .f32) (i : s.Idx) : Idealize.ShloMosaic.exp x i = Ideal.exp (x i) := rfl
/-- … and a logarithm the logarithm of the element. -/
theorem log_apply {s : Shape} (x : FVec Ideal s .f32) (i : s.Idx) : Idealize.ShloMosaic.log x i = Ideal.log (x i) := rfl

/-- The closing step at (g, f): the sums of graph g divided by its count (at least one), the pair normalised. -/
theorem pay6_apply (s : Vec Ideal S16x2 .f32) (k : Vec Ideal S16x1 .f32) (g : Fin 16) (f : Fin 2) :
    k6_pay6 s k (ix2 g f)
      = Cert.PoolSpec.lsm (fun f' => Ideal.div (s (ix2 g f')) (max (k (ix2 g (0 : Fin 1))) 1)) f := by
  have hdiv : ∀ f' : Fin 2, divf (F := Ideal) s (broadcastTo S16x2 (maximumf k (broadcast S16x1 (Scalar.ofBits (F := Ideal) .f32 0x3F800000#32))) broadcasts_S16x1_S16x2) (ix2 g f')
      = Ideal.div (s (ix2 g f')) (max (k (ix2 g (0 : Fin 1))) 1) := fun f' => by
    rw [divf_apply, bcastCol_apply, maximumf_apply, broadcast_apply]
    show Ideal.div _ (max _ (Ideal.ofBits .f32 0x3F800000#32)) = _
    rw [Ideal.ofBits_one_f32]
  unfold k6_pay6
  simp only []
  rw [subf_apply, subf_apply, bcastCol_apply, bcastCol_apply, castCol_apply, rowMax_apply,
    log_apply, castCol_apply, rowSum_apply, exp_apply, exp_apply, subf_apply, subf_apply,
    bcastCol_apply, bcastCol_apply, castCol_apply, rowMax_apply]
  rw [hdiv f, hdiv (0 : Fin 2), hdiv (1 : Fin 2)]
  rfl

end Cert.KernelIdeal.Val.Pool

end
-- ==== Proof.LibPackedSums.lean ====
/-
  Regrouping of finite sums over consecutive naturals, in any commutative monoid, and one fact on 32-bit words.

  A block of m·n consecutive naturals x is read as x = n·a + b with a < m and b < n; a block of m + n consecutive
  naturals as the first m followed by the next n. Because addition is commutative and associative, a sum over the
  block equals the iterated sum over the coordinates, and iterated sums over different coordinates may be exchanged.
  The instances stated here: 2 000 000 rows n = 2·k + h, with k = (100·c + i)·5000 + r a packed row (c < 2, i < 100,
  r < 5000) and h < 2 the half; and 128 lanes l = j + 64·h with j < 64.

  The word fact: a natural j < 64 written as a 32-bit word is the only word whose signed value is j.
-/
import Mathlib.Algebra.BigOperators.Fin
import Mathlib.Algebra.BigOperators.Group.Finset.Basic
import Mathlib.Logic.Equiv.Fin.Basic
import Mathlib.Data.Fintype.BigOperators

namespace Cert.PackedSums

open Finset

section General

variable {M : Type*} [AddCommMonoid M]

/-- A sum over `N = m·n` consecutive naturals is the double sum over `a < m`, `b < n` of the term at `n·a + b`:
    every `x < m·n` is `n·a + b` for exactly one such pair. -/
theorem sum_fin_of_eq_mul {N m n : ℕ} (hN : N = m * n) (g : ℕ → M) :
    (∑ x : Fin N, g x.val) = ∑ a : Fin m, ∑ b : Fin n, g (n * a.val + b.val) := by
  subst hN
  have h1 : (∑ x : Fin (m * n), g x.val) = ∑ p : Fin m × Fin n, g (finProdFinEquiv p).val :=
    (Equiv.sum_comp finProdFinEquiv (fun x : Fin (m * n) => g x.val)).symm
  rw [h1, Fintype.sum_prod_type]
  refine Finset.sum_congr rfl fun a _ => Finset.sum_congr rfl fun b _ => ?_
  rw [finProdFinEquiv_apply_val, Nat.add_comm]

/-- A sum over `N = m + n` consecutive naturals is the sum over the first `m` plus the sum over the next `n`. -/
theorem sum_fin_of_eq_add {N m n : ℕ} (hN : N = m + n) (f : ℕ → M) :
    (∑ x : Fin N, f x.val) = (∑ a : Fin m, f a.val) + ∑ b : Fin n, f (b.val + m) := by
  subst hN
  rw [Fin.sum_univ_add]
  refine congrArg₂ (· + ·) rfl (Finset.sum_congr rfl fun b _ => ?_)
  rw [Fin.val_natAdd, Nat.add_comm]

/-- A sum over `N = K·2` consecutive naturals is the sum of the even terms plus the sum of the odd terms. -/
theorem sum_fin_even_odd {N K : ℕ} (hN : N = K * 2) (g : ℕ → M) :
    (∑ x : Fin N, g x.val) = (∑ k : Fin K, g (2 * k.val)) + ∑ k : Fin K, g (2 * k.val + 1) := by
  rw [sum_fin_of_eq_mul hN g, ← Finset.sum_add_distrib]
  refine Finset.sum_congr rfl fun k _ => ?_
  rw [Fin.sum_univ_two]
  rfl

/-- A sum over `K = (A·B)·R` consecutive naturals is the triple sum over `c < A`, `i < B`, `r < R` of the term at
    `(B·c + i)·R + r`. -/
theorem sum_fin_three {K A B R : ℕ} (hK : K = (A * B) * R) (f : ℕ → M) :
    (∑ k : Fin K, f k.val) = ∑ c : Fin A, ∑ i : Fin B, ∑ r : Fin R, f ((B * c.val + i.val) * R + r.val) := by
  rw [sum_fin_of_eq_mul hK f]
  rw [sum_fin_of_eq_mul (rfl : A * B = A * B) (fun a => ∑ r : Fin R, f (R * a + r.val))]
  refine Finset.sum_congr rfl fun c _ => Finset.sum_congr rfl fun i _ => Finset.sum_congr rfl fun r _ => ?_
  rw [Nat.mul_comm R]

/-- In a fourfold iterated sum the outermost coordinate may be moved innermost. -/
theorem sum_rotate4 {α β γ δ : Type*} [Fintype α] [Fintype β] [Fintype γ] [Fintype δ]
    (F : α → β → γ → δ → M) :
    (∑ j : δ, ∑ c : α, ∑ i : β, ∑ r : γ, F c i r j) = ∑ c : α, ∑ i : β, ∑ r : γ, ∑ j : δ, F c i r j := by
  refine Finset.sum_comm.trans (Finset.sum_congr rfl fun c _ => ?_)
  refine Finset.sum_comm.trans (Finset.sum_congr rfl fun i _ => ?_)
  exact Finset.sum_comm

end General

/-- The 2 000 000 rows, grouped: row `n = 2·k` or `n = 2·k + 1` with `k = (100·c + i)·5000 + r`, so the sum over
    all rows is the sum over the first halves of all packed rows plus the sum over the second halves. -/
theorem sum_rows_eq_packed {M : Type*} [AddCommMonoid M] (g : ℕ → M) :
    (∑ n : Fin 2000000, g n.val)
      = (∑ c : Fin 2, ∑ i : Fin 100, ∑ r : Fin 5000, g (2 * ((100 * c.val + i.val) * 5000 + r.val)))
      + (∑ c : Fin 2, ∑ i : Fin 100, ∑ r : Fin 5000, g (2 * ((100 * c.val + i.val) * 5000 + r.val) + 1)) := by
  have hN : (2000000 : ℕ) = 1000000 * 2 := rfl
  have hK : (1000000 : ℕ) = (2 * 100) * 5000 := rfl
  rw [sum_fin_even_odd hN g, sum_fin_three hK (fun k => g (2 * k)), sum_fin_three hK (fun k => g (2 * k + 1))]

/-- The 128 lanes are the 64 lanes `j` followed by the 64 lanes `j + 64`. -/
theorem sum_lanes_split {M : Type*} [AddCommMonoid M] (f : ℕ → M) :
    (∑ l : Fin 128, f l.val) = (∑ j : Fin 64, f j.val) + (∑ j : Fin 64, f (j.val + 64)) :=
  sum_fin_of_eq_add (rfl : (128 : ℕ) = 64 + 64) f

/-- Rows times classes equal lanes times packed rows: the entry of row `n = 2·k + h` and class `j` is the entry of
    packed row `k` in lane `l = j + 64·h`, where `h = l / 64` and `j = l % 64`. -/
theorem sum_rows_classes_eq_lanes {M : Type*} [AddCommMonoid M] (h : ℕ → ℕ → M) :
    (∑ n : Fin 2000000, ∑ j : Fin 64, h n.val j.val)
      = ∑ l : Fin 128, ∑ c : Fin 2, ∑ i : Fin 100, ∑ r : Fin 5000,
          h (2 * ((100 * c.val + i.val) * 5000 + r.val) + l.val / 64) (l.val % 64) := by
  rw [sum_rows_eq_packed (fun n => ∑ j : Fin 64, h n j.val)]
  rw [sum_lanes_split (fun l => ∑ c : Fin 2, ∑ i : Fin 100, ∑ r : Fin 5000,
          h (2 * ((100 * c.val + i.val) * 5000 + r.val) + l / 64) (l % 64))]
  refine congrArg₂ (· + ·) ?_ ?_
  · rw [← sum_rotate4 (fun (c : Fin 2) (i : Fin 100) (r : Fin 5000) (j : Fin 64) =>
        h (2 * ((100 * c.val + i.val) * 5000 + r.val)) j.val)]
    refine Finset.sum_congr rfl fun j _ => Finset.sum_congr rfl fun c _ => Finset.sum_congr rfl fun i _ =>
      Finset.sum_congr rfl fun r _ => ?_
    rw [Nat.div_eq_of_lt j.isLt, Nat.mod_eq_of_lt j.isLt, Nat.add_zero]
  · rw [← sum_rotate4 (fun (c : Fin 2) (i : Fin 100) (r : Fin 5000) (j : Fin 64) =>
        h (2 * ((100 * c.val + i.val) * 5000 + r.val) + 1) j.val)]
    refine Finset.sum_congr rfl fun j _ => Finset.sum_congr rfl fun c _ => Finset.sum_congr rfl fun i _ =>
      Finset.sum_congr rfl fun r _ => ?_
    have h1 : (j.val + 64) / 64 = 1 := by have := j.isLt; omega
    have h2 : (j.val + 64) % 64 = j.val := by have := j.isLt; omega
    rw [h1, h2]

/-- The signed value of the 32-bit word of a natural `j < 64` is `j`. -/
theorem toInt_ofNat_small (j : ℕ) (hj : j < 64) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- A 32-bit word is the word of `j < 64` exactly when its signed value is `j`: the signed value determines the
    word, and the word of `j` has signed value `j`. -/
theorem ofNat_eq_iff_toInt (j : ℕ) (hj : j < 64) (t : BitVec 32) : BitVec.ofNat 32 j = t ↔ t.toInt = (j : ℤ) := by
  rw [eq_comm, ← BitVec.toInt_inj, toInt_ofNat_small j hj]

end Cert.PackedSums
-- ==== Proof.KI.Val6.lean ====
/-
  Kernel region 6 (the pooling kernel): the output array after all ten grid points, against the pooling stage as plain
  mathematics. The running sums and counts before point n are the sums, over the first n blocks of 10000 nodes, of the
  nodes' weighted rows and of the nodes' weights; ten blocks are all 100000 nodes; the last point writes the normalised
  means of the full sums over the whole output array.
-/
import proofs.«424645_j84567906058949_2_alg».proof.Proof.KI.Reg6
import proofs.«424645_j84567906058949_2_alg».proof.Proof.KI.PoolPay
import proofs.«424645_j84567906058949_2_alg».proof.Proof.PoolSpec
import proofs.«424645_j84567906058949_2_alg».proof.Proof.LibPackedSums
import Idealize.ShloMosaic.Lib.Pipeline.Value
import Idealize.ShloMosaic.Lib.ValueIdx
import Idealize.ShloMosaic.Lib.ValueLayout

set_option maxRecDepth 16384

noncomputable section

namespace Cert.KernelIdeal.Val.R6

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The rows of the 100000 nodes, as the region finds them. -/
def rows (c : Dev nD) : Fin 100000 → Fin 2 → EReal :=
  fun r f' => (V c (Pipeline.arrRef spec6 0) : S100000x2.Idx → EReal) (ix2 r f')

/-- The graph ids of the 100000 nodes, as the region finds them. -/
def ids (c : Dev nD) : Fin 100000 → BitVec 32 :=
  fun r => (V c (Pipeline.arrRef spec6 1) : S100000x1.Idx → BitVec 32) (ix2 r (0 : Fin 1))

/-- The three index maps over the grid: the two input windows take block (t, 0) at point t, the output window block (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Block n of the rows at (y, f) is row 10000 n + y of the array. -/
theorem iblk6_rows (c : Dev nD) (n : ℕ) (h : n < 10) (y : Fin 10000) (f : Fin 2) :
    iblk6 (F := Ideal) V c 0 ⟨n, lt_N6 h⟩ (ix2 y f) = rows V c ⟨10000 * n + y.val, by omega⟩ f := by
  obtain ⟨e0, e1, -⟩ := idx_facts6 ⟨n, lt_N6 h⟩
  show V c (Pipeline.arrRef spec6 0) (((cfg6.win 0).blk ⟨n, lt_N6 h⟩).view.emb (ix2 y f))
    = V c (Pipeline.arrRef spec6 0) (ix2 (⟨10000 * n + y.val, by omega⟩ : Fin 100000) f)
  refine congrArg _ (funext fun a => Fin.ext ?_)
  match a with
  | ⟨0, _⟩ =>
    show win6_0.index ⟨n, lt_N6 h⟩ (0 : Fin 2) * 10000 + 1 * y.val = 10000 * n + y.val
    rw [show win6_0.index ⟨n, lt_N6 h⟩ (0 : Fin 2) = n from e0]; omega
  | ⟨1, _⟩ =>
    show win6_0.index ⟨n, lt_N6 h⟩ (1 : Fin 2) * 2 + 1 * f.val = f.val
    rw [e1]; omega

/-- Block n of the ids at (y, 0) is the id of node 10000 n + y. -/
theorem iblk6_ids (c : Dev nD) (n : ℕ) (h : n < 10) (y : Fin 10000) :
    iblk6 (F := Ideal) V c 1 ⟨n, lt_N6 h⟩ (ix2 y (0 : Fin 1)) = ids V c ⟨10000 * n + y.val, by omega⟩ := by
  obtain ⟨-, -, e2, e3, -⟩ := idx_facts6 ⟨n, lt_N6 h⟩
  show V c (Pipeline.arrRef spec6 1) (((cfg6.win 1).blk ⟨n, lt_N6 h⟩).view.emb (ix2 y (0 : Fin 1)))
    = V c (Pipeline.arrRef spec6 1) (ix2 (⟨10000 * n + y.val, by omega⟩ : Fin 100000) (0 : Fin 1))
  refine congrArg _ (funext fun a => Fin.ext ?_)
  match a with
  | ⟨0, _⟩ =>
    show win6_1.index ⟨n, lt_N6 h⟩ (0 : Fin 2) * 10000 + 1 * y.val = 10000 * n + y.val
    rw [show win6_1.index ⟨n, lt_N6 h⟩ (0 : Fin 2) = n from e2]; omega
  | ⟨1, _⟩ =>
    show win6_1.index ⟨n, lt_N6 h⟩ (1 : Fin 2) * 1 + 1 * 0 = 0
    rw [e3]

/-! ## The running sums and counts before point n -/

/-- Node x's weight in graph g times its row's entry f (zero past the last node). -/
def wrow (c : Dev nD) (g : Fin 16) (f : Fin 2) (x : ℕ) : EReal :=
  if hx : x < 100000 then Cert.PoolSpec.oh (ids V c ⟨x, hx⟩) g * rows V c ⟨x, hx⟩ f else 0

/-- Node x's weight in graph g (zero past the last node). -/
def wone (c : Dev nD) (g : Fin 16) (x : ℕ) : EReal :=
  if hx : x < 100000 then Cert.PoolSpec.oh (ids V c ⟨x, hx⟩) g else 0

/-- The running sums before point n: over the first n blocks, over the block's nodes, the weighted rows. -/
theorem sums6_apply (c : Dev nD) (g : Fin 16) (f : Fin 2) : ∀ (n : ℕ), n ≤ 10 →
    sums6 (F := Ideal) V c n (ix2 g f) = ∑ a : Fin n, ∑ y : Fin 10000, wrow V c g f (10000 * a.val + y.val)
  | 0, _ => by
    rw [sums6_zero, Pool.pay1_apply, Fin.sum_univ_zero]
  | n + 1, hn => by
    have h : n < 10 := by omega
    rw [sums6_succ V c n h]
    refine (Pool.pay4_apply _ _ _ g f).trans ?_
    rw [sums6_apply c g f n (by omega)]
    refine Eq.trans ?_ (Fin.sum_univ_castSucc (fun a : Fin (n + 1) => ∑ y : Fin 10000, wrow V c g f (10000 * a.val + y.val))).symm
    refine congrArg₂ (fun p q : EReal => p + q) rfl (Finset.sum_congr rfl fun y _ => ?_)
    rw [iblk6_ids V c n h y, iblk6_rows V c n h y f]
    show _ = wrow V c g f (10000 * n + y.val)
    unfold wrow
    rw [dif_pos (by omega)]

/-- The running counts before point n: over the first n blocks, over the block's nodes, the weights. -/
theorem cnts6_apply (c : Dev nD) (g : Fin 16) : ∀ (n : ℕ), n ≤ 10 →
    cnts6 (F := Ideal) V c n (ix2 g (0 : Fin 1)) = ∑ a : Fin n, ∑ y : Fin 10000, wone V c g (10000 * a.val + y.val)
  | 0, _ => by
    rw [cnts6_zero, Pool.pay2_apply, Fin.sum_univ_zero]
  | n + 1, hn => by
    have h : n < 10 := by omega
    rw [cnts6_succ V c n h]
    refine (Pool.pay5_apply _ _ g).trans ?_
    rw [cnts6_apply c g n (by omega)]
    refine Eq.trans ?_ (Fin.sum_univ_castSucc (fun a : Fin (n + 1) => ∑ y : Fin 10000, wone V c g (10000 * a.val + y.val))).symm
    refine congrArg₂ (fun p q : EReal => p + q) rfl (Finset.sum_congr rfl fun y _ => ?_)
    rw [iblk6_ids V c n h y]
    show _ = wone V c g (10000 * n + y.val)
    unfold wone
    rw [dif_pos (by omega)]

/-- After the ten blocks the running sums are the sums of the pooling stage … -/
theorem sums6_ten (c : Dev nD) (g : Fin 16) (f : Fin 2) :
    sums6 (F := Ideal) V c 10 (ix2 g f) = Cert.PoolSpec.sums (rows V c) (ids V c) g f := by
  rw [sums6_apply V c g f 10 (le_refl _), ← Cert.PackedSums.sum_fin_of_eq_mul (by norm_num : 100000 = 10 * 10000)]
  unfold Cert.PoolSpec.sums
  refine Finset.sum_congr rfl fun r _ => ?_
  unfold wrow
  rw [dif_pos r.isLt]

/-- … and the running counts its counts. -/
theorem cnts6_ten (c : Dev nD) (g : Fin 16) :
    cnts6 (F := Ideal) V c 10 (ix2 g (0 : Fin 1)) = Cert.PoolSpec.cnts (ids V c) g := by
  rw [cnts6_apply V c g 10 (le_refl _), ← Cert.PackedSums.sum_fin_of_eq_mul (by norm_num : 100000 = 10 * 10000)]
  unfold Cert.PoolSpec.cnts
  refine Finset.sum_congr rfl fun r _ => ?_
  unfold wone
  rw [dif_pos r.isLt]

/-! ## The output array -/

/-- The output window's one block is the whole array: an index of the block is the same index of the array. -/
theorem emb6 (t : Fin cfg6.N) (j : S16x2.Idx) : ((cfg6.win 2).blk t).view.emb j = j := by
  obtain ⟨-, -, -, -, e4, e5⟩ := idx_facts6 t
  refine funext fun a => Fin.ext ?_
  match a with
  | ⟨0, _⟩ =>
    show win6_2.index t (0 : Fin 2) * 16 + 1 * (j 0).val = (j 0).val
    rw [e4]; omega
  | ⟨1, _⟩ =>
    show win6_2.index t (1 : Fin 2) * 2 + 1 * (j 1).val = (j 1).val
    rw [e5]; omega

/-- So a whole-array value, cut to the block a point writes back, is that value read through the point's block. -/
theorem whole_block6 (G : Vec Ideal S16x2 .f32) (t : Fin cfg6.N) :
    (cfg6.win 2).cut (grid6.coords t) G = ((cfg6.win 2).blk t).view.read (Elt Ideal) G := by
  refine funext fun (j : S16x2.Idx) => ?_
  show G j = G (((cfg6.win 2).blk t).view.emb j)
  rw [emb6]

/-- What a point writes back is the whole-array value of the closing step at the full sums and counts. -/
theorem flushed6_eq (c : Dev nD) (t : Fin cfg6.N) :
    (Frm.dat6 (F := Ideal) V c).flushed 2 t
      = ((cfg6.win 2).blk t).view.read (Elt Ideal) (k6_pay6 (sums6 (F := Ideal) V c 10) (cnts6 (F := Ideal) V c 10)) := by
  show (cfg6.win 2).cut (grid6.coords t) ((Frm.dat6 (F := Ideal) V c).after 2 t) = _
  rw [after6_2]
  exact whole_block6 _ t

/-- Every index of the output array is in the block of the last point, which writes back. -/
theorem cover6 (i : S16x2.Idx) :
    ∃ t : Fin cfg6.N, (cfg6.win 2).flush t = true ∧ i ∈ ((cfg6.win 2).blk t).view.set := by
  refine ⟨⟨9, lt_N6 (by decide)⟩, (flush6_2 _).mpr rfl, ?_⟩
  have hm := ((cfg6.win 2).blk ⟨9, lt_N6 (by decide)⟩).view.emb_mem_set i
  rw [emb6] at hm
  exact hm
/-- The output array after the ten points, at (g, f): the pooling stage's result for graph g, column f. -/
theorem arr6_spec (c : Dev nD) (g : Fin 16) (f : Fin 2) :
    (Frm.dat6 (F := Ideal) V c).arrAt 2 cfg6.N (ix2 g f) = Cert.PoolSpec.pool (rows V c) (ids V c) g f := by
  have hA := (Frm.dat6 (F := Ideal) V c).arrAt_eq_of_cover 2 (k6_pay6 (sums6 (F := Ideal) V c 10) (cnts6 (F := Ideal) V c 10))
    (fun t _ => flushed6_eq V c t) cover6
  refine (congrFun hA (ix2 g f)).trans ?_
  refine (Pool.pay6_apply _ _ g f).trans ?_
  unfold Cert.PoolSpec.pool Cert.PoolSpec.pooled
  simp only [sums6_ten, cnts6_ten]

end Cert.KernelIdeal.Val.R6

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-- The output array of region 6 after its ten points is the pooling stage of the two input arrays as the region finds them. -/
theorem arr6 (V : (c : Dev nD) → (b : Ref sig .tc) → Buf (Elt Ideal) ((c : Thread nD τ).loc b)) (c : Dev nD) (g : Fin 16) (f : Fin 2) :
    (Frm.dat6 (F := Ideal) V c).arrAt 2 cfg6.N (ix2 g f)
      = Cert.PoolSpec.pool (fun r f' => (V c (Pipeline.arrRef spec6 0) : S100000x2.Idx → EReal) (ix2 r f'))
          (fun r => (V c (Pipeline.arrRef spec6 1) : S100000x1.Idx → BitVec 32) (ix2 r (0 : Fin 1))) g f :=
  R6.arr6_spec V c g f

end Cert.KernelIdeal.Val

end
-- ==== Proof.KI.Prefix.lean ====
/-
  The part of @main the two programs share before the first kernel region, and the arguments.
  No host operation writes an argument, so each is as launched. The row indices, the column indices and the
  edge weights are written by the first host operations, which are the reference's first operations word for word.
  The reference's wrapped row indices, which feed its two gathers, are the kernel's. Before the last region the
  batch vector is reshaped to a column, and the region before it left its output untouched by that reshape.
-/
import proofs.«424645_j84567906058949_2_alg».proof.Proof.KI.Run
import proofs.«424645_j84567906058949_2_alg».proof.Proof.KI.TakeMask
import proofs.«424645_j84567906058949_2_alg».proof.Proof.Ref.Read
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen Cert.KernelIdeal.Frm Cert.KernelIdeal.Val
open Idealize.ShloMosaic Idealize.ShloMosaic.TcCoe Idealize.SL.Sem Idealize.ShloMosaic.StableHlo
open Idealize.ShloMosaic.ValueIdx

namespace Pre

variable {F : FTy → Type} [FloatOps F]

/-- A trailing unit axis added to a vector: the column reads the vector at the row. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt F) ℓ)

/-- The first host stretch writes the row indices, the column indices, the degrees' comparison and inverse root, and the
    zero constant as the reference's first operations do. -/
theorem first_v3 (c : Dev nD) : Gen.V1 m c main_v3 = Cert.ReferenceIdeal.Read.val_main_v3 (F := F) (m ((c.tc : Thread nD τ).loc main_arg1)) := by
  show StableHlo.after hostOps0 (Gen.V0 m c) (Proc.devRef .tc main_v3) = _
  after_results
  rfl
theorem first_v6 (c : Dev nD) : Gen.V1 m c main_v6 = Cert.ReferenceIdeal.Read.val_main_v6 (F := F) (m ((c.tc : Thread nD τ).loc main_arg1)) := by
  show StableHlo.after hostOps0 (Gen.V0 m c) (Proc.devRef .tc main_v6) = _
  after_results
  rfl
theorem first_v12 (c : Dev nD) : Gen.V1 m c main_v12 = Cert.ReferenceIdeal.Read.val_main_v12 (F := F) (m ((c.tc : Thread nD τ).loc main_arg1)) := by
  show StableHlo.after hostOps0 (Gen.V0 m c) (Proc.devRef .tc main_v12) = _
  after_results
  rfl
theorem first_v13 (c : Dev nD) : Gen.V1 m c main_v13 = Cert.ReferenceIdeal.Read.val_main_v13 (F := F) (m ((c.tc : Thread nD τ).loc main_arg1)) := by
  show StableHlo.after hostOps0 (Gen.V0 m c) (Proc.devRef .tc main_v13) = _
  after_results
  rfl
theorem first_cst_2 (c : Dev nD) : Gen.V1 m c main_cst_2 = Cert.ReferenceIdeal.Read.val_main_cst_2 (F := F) := by
  show StableHlo.after hostOps0 (Gen.V0 m c) (Proc.devRef .tc main_cst_2) = _
  after_results
  rfl

/-- The masked select of the second host stretch, over any contents. -/
theorem where_of (W : Valuation τ sig (Elt F)) :
    StableHlo.after hostOps0_1 W (Proc.devRef .tc main_v14)
      = select (W main_v12) (W main_v13) (broadcastInDim S100000 ![] bcast_S_S100000 (id (W main_cst_2))) := by
  after_results
  rfl

/-- The edge weights of the third host stretch, over any contents: the node weights gathered at the wrapped row
    indices times the node weights gathered at the wrapped column indices. -/
theorem weights_of (W : Valuation τ sig (Elt F)) :
    StableHlo.after hostOps0_2 W (Proc.devRef .tc main_v29)
      = mulf (Host.gather gather_S100000_S900000x1_S900000_n_0_n_n_0_1_1 (W main_v14) (Val.wrapOf (W main_v3)))
          (Host.gather gather_S100000_S900000x1_S900000_n_0_n_n_0_1_1 (W main_v14) (Val.wrapOf (W main_v6))) := by
  after_results_simp
  rfl

/-- The node weights after the second stretch are the reference's. -/
theorem second_v14 (c : Dev nD) : Gen.V2 m c main_v14 = Cert.ReferenceIdeal.Read.val_main_v14 (F := F) (m ((c.tc : Thread nD τ).loc main_arg1)) := by
  refine (where_of (Gen.V1 m c)).trans ?_
  rw [first_v12, first_v13, first_cst_2]
  rfl

/-- The edge weights before the first region are the reference's. -/
theorem third_v29 (c : Dev nD) : Gen.V3 m c main_v29 = Cert.ReferenceIdeal.Read.val_main_v29 (F := F) (m ((c.tc : Thread nD τ).loc main_arg1)) := by
  refine (weights_of (Gen.V2 m c)).trans ?_
  rw [second_v14, Gen.V2_of m c main_v3 (by decide), Gen.V2_of m c main_v6 (by decide), first_v3, first_v6]
  rfl

end Pre

variable (m : (ℓ : Loc nD τ sig) → Buf (Elt Ideal) ℓ)

/-! ## The arguments before the first region: as launched -/

theorem pre_arg0 (c : Dev nD) : Frm.U3 m c main_arg0 = m ((c.tc : Thread nD τ).loc main_arg0) :=
  (Gen.V3_of m c main_arg0 (by decide)).trans <| (Gen.V2_of m c main_arg0 (by decide)).trans <| (Gen.V1_of m c main_arg0 (by decide)).trans rfl
theorem pre_arg1 (c : Dev nD) : Frm.U3 m c main_arg1 = m ((c.tc : Thread nD τ).loc main_arg1) :=
  (Gen.V3_of m c main_arg1 (by decide)).trans <| (Gen.V2_of m c main_arg1 (by decide)).trans <| (Gen.V1_of m c main_arg1 (by decide)).trans rfl
theorem pre_arg2 (c : Dev nD) : Frm.U3 m c main_arg2 = m ((c.tc : Thread nD τ).loc main_arg2) :=
  (Gen.V3_of m c main_arg2 (by decide)).trans <| (Gen.V2_of m c main_arg2 (by decide)).trans <| (Gen.V1_of m c main_arg2 (by decide)).trans rfl
theorem pre_arg3 (c : Dev nD) : Frm.U3 m c main_arg3 = m ((c.tc : Thread nD τ).loc main_arg3) :=
  (Gen.V3_of m c main_arg3 (by decide)).trans <| (Gen.V2_of m c main_arg3 (by decide)).trans <| (Gen.V1_of m c main_arg3 (by decide)).trans rfl
theorem pre_arg4 (c : Dev nD) : Frm.U3 m c main_arg4 = m ((c.tc : Thread nD τ).loc main_arg4) :=
  (Gen.V3_of m c main_arg4 (by decide)).trans <| (Gen.V2_of m c main_arg4 (by decide)).trans <| (Gen.V1_of m c main_arg4 (by decide)).trans rfl
theorem pre_arg5 (c : Dev nD) : Frm.U3 m c main_arg5 = m ((c.tc : Thread nD τ).loc main_arg5) :=
  (Gen.V3_of m c main_arg5 (by decide)).trans <| (Gen.V2_of m c main_arg5 (by decide)).trans <| (Gen.V1_of m c main_arg5 (by decide)).trans rfl
theorem pre_arg6 (c : Dev nD) : Frm.U3 m c main_arg6 = m ((c.tc : Thread nD τ).loc main_arg6) :=
  (Gen.V3_of m c main_arg6 (by decide)).trans <| (Gen.V2_of m c main_arg6 (by decide)).trans <| (Gen.V1_of m c main_arg6 (by decide)).trans rfl

/-! ## The shared first operations -/

/-- The row indices: row 0 of the index array, then 0, 1, …, 99999. -/
theorem pre_v3 (c : Dev nD) : Frm.U3 m c main_v3 = Val.rowOf (m ((c.tc : Thread nD τ).loc main_arg1)) :=
  (Gen.V3_of m c main_v3 (by decide)).trans <| (Gen.V2_of m c main_v3 (by decide)).trans <| (Pre.first_v3 m c).trans rfl

/-- The column indices, as the reference writes them. -/
theorem pre_v6 (c : Dev nD) : Frm.U3 m c main_v6 = Cert.ReferenceIdeal.Read.val_main_v6 (F := Ideal) (m ((c.tc : Thread nD τ).loc main_arg1)) :=
  (Gen.V3_of m c main_v6 (by decide)).trans <| (Gen.V2_of m c main_v6 (by decide)).trans (Pre.first_v6 m c)

/-- The edge weights, as the reference writes them. -/
theorem pre_v29 (c : Dev nD) : Frm.U3 m c main_v29 = Cert.ReferenceIdeal.Read.val_main_v29 (F := Ideal) (m ((c.tc : Thread nD τ).loc main_arg1)) :=
  Pre.third_v29 m c

/-! ## The reference's row indices, plain and wrapped, are the kernel's -/

theorem ref_v3 {F : FTy → Type} [FloatOps F] (x1 : IVec S2x800000 32) : Cert.ReferenceIdeal.Read.val_main_v3 (F := F) x1 = Val.rowOf x1 := rfl
theorem ref_v36 {F : FTy → Type} [FloatOps F] (x1 : IVec S2x800000 32) : Cert.ReferenceIdeal.Read.val_main_v36 (F := F) x1 = Val.wrapOf (Val.rowOf x1) := rfl
theorem ref_v54 {F : FTy → Type} [FloatOps F] (x1 : IVec S2x800000 32) : Cert.ReferenceIdeal.Read.val_main_v54 (F := F) x1 = Val.wrapOf (Val.rowOf x1) := rfl

/-! ## Before the last region -/

/-- The batch vector is as launched when the last reshape reads it. -/
theorem Pre.late_arg2 (c : Dev nD) : Frm.U15 m c main_arg2 = m ((c.tc : Thread nD τ).loc main_arg2) :=
  (Frm.U15_of m c main_arg2 (by decide)).trans <| (Frm.U14_of m c main_arg2 (by decide)).trans <| (Frm.U13_of m c main_arg2 (by decide)).trans <| (Frm.U12_of m c main_arg2 (by decide)).trans <| (Frm.U11_of m c main_arg2 (by decide)).trans <| (Frm.U10_of m c main_arg2 (by decide)).trans <| (Frm.U9_of m c main_arg2 (by decide)).trans <| (Frm.U8_of m c main_arg2 (by decide)).trans <| (Frm.U7_of m c main_arg2 (by decide)).trans <| (Frm.U6_of m c main_arg2 (by decide)).trans <| (Frm.U5_of m c main_arg2 (by decide)).trans <| (Frm.U4_of m c main_arg2 (by decide)).trans <| pre_arg2 m c

/-- The batch vector as a column, read at a row. -/
theorem st_v48 (c : Dev nD) (r : Fin 100000) : Frm.U16 m c main_v48 (ix2 r (0 : Fin 1)) = m ((c.tc : Thread nD τ).loc main_arg2) (ix1 r) := by
  have h : Frm.U16 m c main_v48 = shapeCast S100000x1 (Frm.U15 m c main_arg2) shapeCasts_S100000_S100000x1 := by
    show StableHlo.after hostOps6 (Frm.U15 m c) (Proc.devRef .tc main_v48) = _
    after_results
    rfl
  rw [h, Pre.late_arg2]
  exact Pre.shapeCast_a_a1_apply _ _ r 0

/-- The reshape before the last region does not touch the output of the region before it. -/
theorem st_v47_keep (c : Dev nD) : Frm.U16 m c main_v47 = Frm.U15 m c main_v47 :=
  Frm.U16_of m c main_v47 (by decide)

end Cert.KernelIdeal.Stage

end
-- ==== Proof.KI.Val0.lean ====
/-
  Kernel region 0, read as a value: the output array after all ten grid points is the row-by-column product of the
  first input array [100000,128] with the second [128,128]. The body's value at an index of its block is the sum over
  the contracted index of the products of the loaded blocks; each grid point's output block is that block of the whole
  product, since the first input's block at point t is rows 10000 t … 10000 t + 9999 and the second input is loaded
  whole; the ten row blocks cover the array.
-/
import proofs.«424645_j84567906058949_2_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.Pipeline (Dat)
open Idealize.ShloMosaic.ValueIdx

/-- The row-by-column product of a [100000,128] array with a [128,128] array: row p, column q is the sum over k of
    x[p,k] * w[k,q]. -/
def mm0 (x : S100000x128.Idx → EReal) (w : S128x128.Idx → EReal) : S100000x128.Idx → EReal :=
  fun i => ∑ k : Fin 128, x (ix2 (⟨(i 0).val, (i 0).isLt⟩ : Fin 100000) k) * w (ix2 k (⟨(i 1).val, (i 1).isLt⟩ : Fin 128))

theorem mm0_apply (x : S100000x128.Idx → EReal) (w : S128x128.Idx → EReal) (p : Fin 100000) (q : Fin 128) :
    mm0 x w (ix2 p q) = ∑ k : Fin 128, x (ix2 p k) * w (ix2 k q) := rfl

namespace R0

theorem zero2 : (![0, 0] : Fin 2 → Nat) = fun _ => 0 := funext fun a => by fin_cases a <;> rfl

/-- The four coordinates of the product's operand indices: the left operand is read at the output's row and the
    contracted index, the right operand at the contracted index and the output's column. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's value at row p, column q of its block: the sum over k of the products of the first block's row p with
    the second block's column q. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The block index maps over the grid: at point t the first input and the output are at row block t, column block 0;
    the second input is whole. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the product: when the first block's row p is row P of x and the second block is w, the body's value at
    row p, column q is the product's at row P, column q. -/
theorem blk_apply (X : S100000x128.Idx → EReal) (W : S128x128.Idx → EReal)
    (x0 : Vec Ideal S10000x128 .f32) (x1 : Vec Ideal S128x128 .f32) (p : Fin 10000) (q : Fin 128) (P : Fin 100000)
    (h0 : ∀ k : Fin 128, x0 (ix2 p k) = X (ix2 P k)) (h1 : ∀ k : Fin 128, x1 (ix2 k q) = W (ix2 k q)) :
    k0_pay1 x0 x1 (ix2 p q) = mm0 X W (ix2 P q) := by
  rw [pay_apply, mm0_apply]
  exact Finset.sum_congr rfl fun k _ => by rw [h0 k, h1 k]

/-- What point t writes back is block t of the product of the two input arrays. -/
theorem flushed (V : (c : Dev nD) → (b : Ref sig .tc) → Buf (Elt Ideal) ((c : Thread nD τ).loc b)) (c : Dev nD) (t : Fin cfg0.N) :
    (Frm.dat0 (F := Ideal) V c).flushed 2 t
      = ((cfg0.win 2).blk t).view.read (Elt Ideal) (mm0 (V c (Pipeline.arrRef spec0 0)) (V c (Pipeline.arrRef spec0 1))) := by
  show (cfg0.win 2).cut (grid0.coords t) ((Frm.dat0 (F := Ideal) V c).after 2 t) = _
  rw [after0_2]
  unfold out0_2
  rw [View.canon_unit_zero zero2]
  simp only [View.ld_unit_zero (S := S10000x128) zero2, View.ld_unit_zero (S := S128x128) zero2]
  obtain ⟨e0, e1, e2, e3, e4, e5⟩ := idx t
  have hN : cfg0.N = 10 := N_0
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hP : t.val * 10000 + p.val < 100000 := by have := p.isLt; omega
  have hemb : ((cfg0.win 2).blk t).view.emb (ix2 p q) = ix2 (⟨t.val * 10000 + p.val, hP⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (iblk0 V c 0 t) (iblk0 V c 1 t) (ix2 p q) = mm0 _ _ (((cfg0.win 2).blk t).view.emb (ix2 p q))
  rw [hemb]
  refine blk_apply _ _ (iblk0 V c 0 t) (iblk0 V c 1 t) p q ⟨_, hP⟩ (fun k => ?_) (fun k => ?_)
  · show V c (Pipeline.arrRef spec0 0) (((cfg0.win 0).blk t).view.emb (ix2 p k)) = V c (Pipeline.arrRef spec0 0) (ix2 (⟨t.val * 10000 + p.val, hP⟩ : Fin 100000) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the output array is in some point's block: row r is in the block of point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e4, e5⟩ := idx t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

end R0

/-- The output array after all ten points is the product of the two input arrays. -/
theorem arr0 (V : (c : Dev nD) → (b : Ref sig .tc) → Buf (Elt Ideal) ((c : Thread nD τ).loc b)) (c : Dev nD) :
    (Frm.dat0 (F := Ideal) V c).arrAt 2 cfg0.N = mm0 (V c (Pipeline.arrRef spec0 0)) (V c (Pipeline.arrRef spec0 1)) :=
  (Frm.dat0 (F := Ideal) V c).arrAt_eq_of_cover 2 (mm0 (V c (Pipeline.arrRef spec0 0)) (V c (Pipeline.arrRef spec0 1)))
    (fun t _ => R0.flushed V c t) R0.cover

end Cert.KernelIdeal.Val

end
-- ==== Proof.KI.Val1.lean ====
/-
  Kernel region 1 (the row-scaling kernel): the output array after all grid points, as one function of the two
  input arrays. Every element of row r of the first array is multiplied by the one entry of row r of the second
  (a column of per-row scales). The body's value at an index of a block; each point writes block t of that
  whole-array function; the blocks tile the array; so the array ends holding the function.
-/
import proofs.«424645_j84567906058949_2_alg».proof.Proof.KI.Reg1
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-- The whole-array function: row r, column j of the first array times the row's one scale. -/
def scale1 (g : S900000x128.Idx → EReal) (n : S900000x1.Idx → EReal) : S900000x128.Idx → EReal :=
  fun i => g i * n (ix2 (i 0) (0 : Fin 1))

theorem scale1_apply (g : S900000x128.Idx → EReal) (n : S900000x1.Idx → EReal) (r : Fin 900000) (j : Fin 128) :
    scale1 g n (ix2 r j) = g (ix2 r j) * n (ix2 r (0 : Fin 1)) := rfl

variable (V : (c : Dev nD) → (b : Ref sig .tc) → Buf (Elt Ideal) ((c : Thread nD τ).loc b))

namespace R1

/-- The zero offsets of a whole-block rectangle, as a constant function. -/
theorem zero_off2 : (![0, 0] : Fin 2 → Nat) = fun _ => 0 := funext fun a => by fin_cases a <;> rfl

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at (p, q) of a block: the first block there times the second block's entry of row p. -/
theorem pay_apply (x0 : Vec Ideal S9000x128 .f32) (x1 : Vec Ideal S9000x1 .f32) (p : Fin 9000) (q : Fin 128) :
    k1_pay1 x0 x1 (ix2 p q) = x0 (ix2 p q) * x1 (ix2 p (0 : Fin 1)) := by
  unfold k1_pay1
  simp only [shapeCast_self]
  rw [mulf_apply, broadcastTo_a1_ab_apply]

/-- The three index maps over the grid: block (t, 0) at point t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the two input arrays. -/
theorem flushed_eq (c : Dev nD) (t : Fin cfg1.N) :
    (Frm.dat1 (F := Ideal) V c).flushed 2 t
      = ((cfg1.win 2).blk t).view.read (Elt Ideal) (scale1 (V c (Pipeline.arrRef spec1 0)) (V c (Pipeline.arrRef spec1 1))) := by
  show (cfg1.win 2).cut (grid1.coords t) ((Frm.dat1 (F := Ideal) V c).after 2 t) = _
  rw [after1_2]
  unfold out1_2
  rw [View.canon_unit_zero zero_off2]
  simp only [View.ld_unit_zero (S := S9000x128) zero_off2, View.ld_unit_zero (S := S9000x1) zero_off2]
  obtain ⟨e0, e1, e2, e3, e4, e5⟩ := idx_facts t
  refine funext fun (j : S9000x128.Idx) => ?_
  obtain ⟨p, q, rfl⟩ : ∃ (p : Fin 9000) (q : Fin 128), j = ix2 p q := ⟨j 0, j 1, eq_ix2 j⟩
  show k1_pay1 (iblk1 V c 0 t) (iblk1 V c 1 t) (ix2 p q)
    = scale1 (V c (Pipeline.arrRef spec1 0)) (V c (Pipeline.arrRef spec1 1)) (((cfg1.win 2).blk t).view.emb (ix2 p q))
  rw [pay_apply]
  have hp : p.val < 9000 := p.isLt
  have hq : q.val < 128 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 9000 + 1 * p.val = win1_2.index t (0 : Fin 2) * 9000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 9000 + 1 * p.val = win1_2.index t (0 : Fin 2) * 9000 + 1 * p.val; omega
    | ⟨1, _⟩ => show win1_1.index t (1 : Fin 2) * 1 + 1 * 0 = 0; omega
  have key : ∀ (g : S900000x128.Idx → EReal) (n : S900000x1.Idx → EReal),
      g (((cfg1.win 0).blk t).view.emb (ix2 p q)) * n (((cfg1.win 1).blk t).view.emb (ix2 p (0 : Fin 1)))
        = scale1 g n (((cfg1.win 2).blk t).view.emb (ix2 p q)) := by
    intro g n
    rw [h0, h1]
    rfl
  exact key (V c (Pipeline.arrRef spec1 0)) (V c (Pipeline.arrRef spec1 1))

/-- An index of the array is in point t's block iff each coordinate is in the block's range on its axis. -/
theorem mem_blk (t : Fin cfg1.N) (i : S900000x128.Idx) :
    i ∈ ((cfg1.win 2).blk t).view.set ↔ ∀ a : Fin 2, win1_2.index t a * S9000x128.size a ≤ (i a).val
      ∧ (i a).val < win1_2.index t a * S9000x128.size a + S9000x128.size a := by
  show i ∈ ((View.whole main_v33).slice (win1_2.rect t)).set ↔ _
  rw [View.set_slice_whole, Rect.mem_set_unit]
  exact Iff.rfl

/-- The blocks tile the array: row r is in the block of point r / 9000. -/
theorem cover (i : S900000x128.Idx) :
    ∃ t : Fin cfg1.N, (cfg1.win 2).flush t = true ∧ i ∈ ((cfg1.win 2).blk t).view.set := by
  have hi0 : (i 0).val < 900000 := (i 0).isLt
  have hi1 : (i 1).val < 128 := (i 1).isLt
  have hN : cfg1.N = 100 := N_1
  obtain ⟨t, ht⟩ : ∃ t : Fin cfg1.N, t.val = (i 0).val / 9000 := ⟨⟨(i 0).val / 9000, by rw [hN]; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 9000 ≤ (i 0).val ∧ (i 0).val < win1_2.index t (0 : Fin 2) * 9000 + 9000
    omega
  | ⟨1, _⟩ =>
    show win1_2.index t (1 : Fin 2) * 128 ≤ (i 1).val ∧ (i 1).val < win1_2.index t (1 : Fin 2) * 128 + 128
    omega

end R1

/-- The output array after all grid points is the whole-array function of the two input arrays. -/
theorem arr1 (c : Dev nD) : (Frm.dat1 (F := Ideal) V c).arrAt 2 cfg1.N
    = scale1 (V c (Pipeline.arrRef spec1 0)) (V c (Pipeline.arrRef spec1 1)) :=
  (Frm.dat1 (F := Ideal) V c).arrAt_eq_of_cover 2 (scale1 (V c (Pipeline.arrRef spec1 0)) (V c (Pipeline.arrRef spec1 1)))
    (fun t _ => R1.flushed_eq V c t) R1.cover

end Cert.KernelIdeal.Val

end
-- ==== Proof.KI.Stage1.lean ====
/-
  Layer 1 of the network up to the scaled rows, kernel against reference: the first product is the reference's
  dot_general; the row gather after it, whose marks are all set under the index range, is the reference's gather of
  the same table at the same wrapped row indices; the norm column is the reference's norm vector; so the scaled
  rows are the reference's multiply of the gathered rows by the twice-broadcast norm.
-/
import proofs.«424645_j84567906058949_2_alg».proof.Proof.KI.Run
import proofs.«424645_j84567906058949_2_alg».proof.Proof.KI.Val0
import proofs.«424645_j84567906058949_2_alg».proof.Proof.KI.Val1
import proofs.«424645_j84567906058949_2_alg».proof.Proof.KI.TakeMask
import proofs.«424645_j84567906058949_2_alg».proof.Proof.KI.Prefix
import proofs.«424645_j84567906058949_2_alg».proof.Proof.Ref.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage

open Cert.KernelIdeal Cert.KernelIdeal.Gen Cert.KernelIdeal.Frm Cert.KernelIdeal.Val
open Idealize.ShloMosaic Idealize.ShloMosaic.TcCoe Idealize.SL.Sem
open Idealize.ShloMosaic.ValueIdx

variable (m : (ℓ : Loc nD τ sig) → Buf (Elt Ideal) ℓ) (c : Dev nD)
variable {x0 : (⟨S100000x128, .f32⟩ : BufTy).Contents (Elt Ideal)} {x1 : IVec S2x800000 32}
  {x3 : (⟨S128x128, .f32⟩ : BufTy).Contents (Elt Ideal)} {x4 : (⟨S128, .f32⟩ : BufTy).Contents (Elt Ideal)}
  {x5 : (⟨S128x2, .f32⟩ : BufTy).Contents (Elt Ideal)} {x6 : (⟨S2, .f32⟩ : BufTy).Contents (Elt Ideal)}

namespace L1

/-- Contents moved to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

set_option maxHeartbeats 1000000 in
/-- The row gather's stretch of host operations read at its result, over any contents: the table's rows gathered at the
    wrapped row indices, kept where the mark is set, the filler elsewhere. -/
theorem take_read {F : FTy → Type} [FloatOps F] (W : Valuation τ sig (Elt F)) :
    StableHlo.after (hostOps1 (F := F)) W (Proc.devRef .tc main_v31)
      = select (broadcastInDim S900000x128 ![0] bcast_S900000_S900000x128_0 (okOf (wrapOf (W (Proc.devRef .tc main_v3)))))
          (Host.gather gather_S100000x128_S900000x1_S900000x128_1_0_n_n_0_1_1128 (W (Proc.devRef .tc main_v30))
            (wrapOf (W (Proc.devRef .tc main_v3))))
          (broadcastInDim S900000x128 ![] bcast_S_S900000x128 (constant (F := F) S_ .f32 0x7FC00000#32)) := by
  after_results_simp
  simp only [ofBuf_toBuf]
  have e3 : (StableHlo.TRef.of main_v3 : StableHlo.TRef sig ⟨S900000, .i32⟩).ofBuf (W (Proc.devRef .tc main_v3))
      = W (Proc.devRef .tc main_v3) := rfl
  have e30 : (StableHlo.TRef.of main_v30 : StableHlo.TRef sig ⟨S100000x128, .f32⟩).ofBuf (W (Proc.devRef .tc main_v30))
      = W (Proc.devRef .tc main_v30) := rfl
  have e31 : ∀ v : (⟨S900000x128, .f32⟩ : BufTy).Contents (Elt F),
      (StableHlo.TRef.of main_v31 : StableHlo.TRef sig ⟨S900000x128, .f32⟩).toBuf v = v := fun v => rfl
  simp only [e3, e30, e31]
  unfold okOf wrapOf
  rfl

/-- The gather record printed once in each program: the same gather on equal operands. -/
theorem gather_same {F : FTy → Type} [FloatOps F] (t : (⟨S100000x128, .f32⟩ : BufTy).Contents (Elt F)) (i : IVec S900000x1 32) :
    Host.gather gather_S100000x128_S900000x1_S900000x128_1_0_n_n_0_1_1128 t i
      = Host.gather Cert.ReferenceIdeal.gather_S100000x128_S900000x1_S900000x128_1_0_n_n_0_1_1128 t i := rfl

/-- The first product: the kernel's output array is the reference's dot_general of the same two arguments. -/
theorem prod_eq (h0 : Frm.U3 m c main_arg0 = x0) (h3 : Frm.U3 m c main_arg3 = x3) :
    Frm.U4 m c main_v30 = Cert.ReferenceIdeal.Read.val_main_v30 (F := Ideal) x0 x3 := by
  rw [U4_out, arr0 (atRefs (U3 m)) c]
  show mm0 (U3 m c main_arg0) (U3 m c main_arg3) = _
  rw [h0, h3]
  refine funext fun (i : S100000x128.Idx) => ?_
  obtain ⟨p, q, rfl⟩ : ∃ (p : Fin 100000) (q : Fin 128), i = ix2 p q := ⟨i 0, i 1, eq_ix2 i⟩
  rw [mm0_apply]
  refine Eq.trans ?_ (Cert.ReferenceIdeal.Read.val_main_v30_apply x0 x3 (ix2 p q)).symm
  refine Finset.sum_congr rfl fun k _ => ?_
  have el : Cert.ReferenceIdeal.Read.lidx_main_v30 (ix2 p q) k = ix2 p k :=
    funext fun a => by match a with | ⟨0, _⟩ => rfl | ⟨1, _⟩ => rfl
  have er : Cert.ReferenceIdeal.Read.ridx_main_v30 (ix2 p q) k = ix2 k q :=
    funext fun a => by match a with | ⟨0, _⟩ => rfl | ⟨1, _⟩ => rfl
  rw [el, er]

/-- The gathered rows: under the index range every mark is set, so the kernel's masked gather is the reference's gather
    of the same table at the same wrapped row indices. -/
theorem gathered (h0 : Frm.U3 m c main_arg0 = x0) (h3 : Frm.U3 m c main_arg3 = x3) (hrow : Frm.U3 m c main_v3 = Val.rowOf x1)
    (hin : ∀ i : Fin 800000, 0 ≤ (x1 (ix2 (0 : Fin 2) i)).toInt ∧ (x1 (ix2 (0 : Fin 2) i)).toInt < 100000) :
    Frm.U6 m c main_v31 = Cert.ReferenceIdeal.Read.val_main_v37 (F := Ideal) x0 x1 x3 := by
  rw [U6_of m c main_v31 (by decide)]
  show StableHlo.after hostOps1 (Frm.U4 m c) (Proc.devRef .tc main_v31) = _
  rw [take_read]
  have e3 : Frm.U4 m c (Proc.devRef .tc main_v3) = Val.rowOf x1 := (U4_of m c main_v3 (by decide)).trans hrow
  have e30 : Frm.U4 m c (Proc.devRef .tc main_v30) = Cert.ReferenceIdeal.Read.val_main_v30 (F := Ideal) x0 x3 := prod_eq m c h0 h3
  rw [e3, e30, ok_all x1 hin, select_all128, gather_same]
  unfold Cert.ReferenceIdeal.Read.val_main_v37
  rw [ref_v36]

/-- The norm column the scaling reads: its row r is the reference's norm vector at r. -/
theorem norm_read (hnorm : Frm.U3 m c main_v29 = Cert.ReferenceIdeal.Read.val_main_v29 (F := Ideal) x1) (r : Fin 900000) :
    (Frm.U6 m c main_v32 : S900000x1.Idx → EReal) (ix2 r (0 : Fin 1)) = Cert.ReferenceIdeal.Read.val_main_v29 (F := Ideal) x1 (ix1 r) := by
  have e : (Frm.U6 m c main_v32 : S900000x1.Idx → EReal)
      = shapeCast S900000x1 (Frm.U5 m c main_v29 : S900000.Idx → EReal) shapeCasts_S900000_S900000x1 := by
    show StableHlo.after hostOps1_1 (U5 m c) (Proc.devRef .tc main_v32) = _
    after_results
    rfl
  rw [e, U5_of m c main_v29 (by decide), U4_of m c main_v29 (by decide), hnorm]
  exact Pre.shapeCast_a_a1_apply _ _ r 0

/-- The scaled rows: the kernel's product of the gathered rows with the norm column is the reference's multiply of
    the gathered rows by the twice-broadcast norm. -/
theorem scaled (hg : Frm.U6 m c main_v31 = Cert.ReferenceIdeal.Read.val_main_v37 (F := Ideal) x0 x1 x3)
    (hnorm : Frm.U3 m c main_v29 = Cert.ReferenceIdeal.Read.val_main_v29 (F := Ideal) x1) :
    Frm.U7 m c main_v33 = Cert.ReferenceIdeal.Read.val_main_v40 (F := Ideal) x0 x1 x3 := by
  rw [U7_out, arr1 (atRefs (U6 m)) c]
  show scale1 (U6 m c main_v31) (U6 m c main_v32) = _
  refine funext fun (i : S900000x128.Idx) => ?_
  obtain ⟨r, j, rfl⟩ : ∃ (r : Fin 900000) (j : Fin 128), i = ix2 r j := ⟨i 0, i 1, eq_ix2 i⟩
  rw [scale1_apply, norm_read m c hnorm r, hg]
  refine Eq.trans ?_ (Cert.ReferenceIdeal.Read.val_main_v40_apply x0 x1 x3 (ix2 r j)).symm
  rw [Cert.ReferenceIdeal.Read.val_main_v39_apply, Cert.ReferenceIdeal.Read.val_main_v38_apply]
  have e : Cert.ReferenceIdeal.Read.idx_main_v38 (Cert.ReferenceIdeal.Read.idx_main_v39 (ix2 r j)) = ix1 r :=
    funext fun a => by match a with | ⟨0, _⟩ => rfl
  rw [e]
  rfl

end L1

/-- Layer 1 up to the scaled rows: the kernel program's array after its second region is the reference's multiply. -/
theorem layer1a (h0 : Frm.U3 m c main_arg0 = x0) (h3 : Frm.U3 m c main_arg3 = x3) (h4 : Frm.U3 m c main_arg4 = x4)
    (h5 : Frm.U3 m c main_arg5 = x5) (h6 : Frm.U3 m c main_arg6 = x6) (hrow : Frm.U3 m c main_v3 = Val.rowOf x1)
    (hcol : Frm.U3 m c main_v6 = Cert.ReferenceIdeal.Read.val_main_v6 x1)
    (hnorm : Frm.U3 m c main_v29 = Cert.ReferenceIdeal.Read.val_main_v29 (F := Ideal) x1)
    (hin : ∀ i : Fin 800000, 0 ≤ (x1 (ix2 (0 : Fin 2) i)).toInt ∧ (x1 (ix2 (0 : Fin 2) i)).toInt < 100000) :
    Frm.U7 m c main_v33 = Cert.ReferenceIdeal.Read.val_main_v40 (F := Ideal) x0 x1 x3 :=
  L1.scaled m c (L1.gathered m c h0 h3 hrow hin) hnorm

end Cert.KernelIdeal.Stage

end
-- ==== Proof.KI.Val2.lean ====
/-
  Kernel region 2: the array its output window ends holding, as one function of its two input arrays.
  Every grid point adds the one bias row to each row of its block of the first input, takes the maximum with zero, and
  writes the block back; the blocks tile the rows, so the whole array is that function index by index.
-/
import proofs.«424645_j84567906058949_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-- Row r, column j ↦ the maximum of a (r, j) + b (0, j) and zero. -/
def biasrelu2 (a : S100000x128.Idx → EReal) (b : S1x128.Idx → EReal) : S100000x128.Idx → EReal :=
  fun i => max (a i + b (ix2 (0 : Fin 1) (i 1 : Fin 128))) 0

theorem biasrelu2_apply (a : S100000x128.Idx → EReal) (b : S1x128.Idx → EReal) (r : Fin 100000) (j : Fin 128) :
    biasrelu2 a b (ix2 r j) = max (a (ix2 r j) + b (ix2 (0 : Fin 1) j)) 0 := rfl

namespace R2

/-- The rectangles' zero offsets, as the constant function. -/
theorem hz : (![0, 0] : Fin 2 → Nat) = fun _ => 0 := funext fun a => by fin_cases a <;> rfl

/-- The body's value at an index of the block. -/
theorem out_apply (x0 : Vec Ideal S10000x128 .f32) (x1 : Vec Ideal S1x128 .f32) (p : Fin 10000) (q : Fin 128) :
    out2_2 (F := Ideal) x0 x1 (ix2 p q) = max (x0 (ix2 p q) + x1 (ix2 (0 : Fin 1) q)) 0 := by
  unfold out2_2
  rw [View.canon_unit_zero hz]
  simp only [View.ld_unit_zero (S := S10000x128) hz, View.ld_unit_zero (S := S1x128) hz]
  unfold k2_pay1
  rw [maximumf_apply, addf_apply, broadcast_apply, shapeCast_self, shapeCast_self, broadcastTo_1b_ab_apply]
  show max _ (Ideal.ofBits .f32 0x00000000#32) = _
  rw [Ideal.ofBits_zero_f32]

/-- The printed index maps over the grid: the first input's block moves with the output's, down the rows;
    the bias row's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value read where the output's index says. -/
theorem read_at (A0 : S100000x128.Idx → EReal) (A1 : S1x128.Idx → EReal) (i0 i2 : S100000x128.Idx) (i1 : S1x128.Idx)
    (h0 : i0 = i2) (h1 : i1 = ix2 (0 : Fin 1) (i2 1 : Fin 128)) : max (A0 i0 + A1 i1) 0 = biasrelu2 A0 A1 i2 := by
  subst h0 h1; rfl

variable (V : (c : Dev nD) → (b : Ref sig .tc) → Buf (Elt Ideal) ((c : Thread nD τ).loc b))

/-- What point t writes back is block t of the whole-array function of the two input arrays. -/
theorem flushed_eq (c : Dev nD) (t : Fin cfg2.N) :
    (dat2 (F := Ideal) V c).flushed 2 t = ((cfg2.win 2).blk t).view.read (Elt Ideal) (biasrelu2 (V c (Pipeline.arrRef spec2 0)) (V c (Pipeline.arrRef spec2 1))) := by
  show (cfg2.win 2).cut (grid2.coords t) ((dat2 V c).after 2 t) = _
  rw [after2_2]
  obtain ⟨e0, e1, e2, e3, e4, e5⟩ := idx_facts t
  funext j
  obtain ⟨p, q, rfl⟩ : ∃ (p : Fin 10000) (q : Fin 128), j = ix2 p q := ⟨j 0, j 1, eq_ix2 j⟩
  show out2_2 (iblk2 V c 0 t) (iblk2 V c 1 t) (ix2 p q) = _
  rw [out_apply]
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) q) = ix2 (0 : Fin 1) ((((cfg2.win 2).blk t).view.emb (ix2 p q)) 1 : Fin 128) := by
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  exact read_at (V c (Pipeline.arrRef spec2 0)) (V c (Pipeline.arrRef spec2 1)) _ _ _ h0 h1

/-- An index of the array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v38).slice (win2_2.rect t)).set ↔ _
  rw [View.set_slice_whole, Rect.mem_set_unit]
  exact Iff.rfl

/-- The blocks tile the rows: row r is in the block of point r / 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by have := N_2; show _ < grid2.N; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

end R2

variable (V : (c : Dev nD) → (b : Ref sig .tc) → Buf (Elt Ideal) ((c : Thread nD τ).loc b))

/-- The output array after all the grid's points: the whole-array function of the two input arrays. -/
theorem arr2 (c : Dev nD) :
    (Frm.dat2 (F := Ideal) V c).arrAt 2 cfg2.N = biasrelu2 (V c (Pipeline.arrRef spec2 0)) (V c (Pipeline.arrRef spec2 1)) :=
  (dat2 (F := Ideal) V c).arrAt_eq_of_cover 2 (biasrelu2 (V c (Pipeline.arrRef spec2 0)) (V c (Pipeline.arrRef spec2 1)))
    (fun t _ => R2.flushed_eq V c t) R2.cover

end Cert.KernelIdeal.Val

end
-- ==== Proof.KI.Stage1b.lean ====
/-
  The tail of the first layer: from the scaled messages to the output of the rectifier.
  The host sums the scaled messages into their target rows, as the reference does with the same operation on the
  same operands, and lays the bias out as one row; the third kernel region adds that row to every row of the sums
  and takes the maximum with zero, which is the reference's broadcast bias added and its rectifier, index by index.
-/
import proofs.«424645_j84567906058949_2_alg».proof.Proof.KI.Run
import proofs.«424645_j84567906058949_2_alg».proof.Proof.KI.Val2
import proofs.«424645_j84567906058949_2_alg».proof.Proof.Ref.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stage

open Cert.KernelIdeal Cert.KernelIdeal.Gen Cert.KernelIdeal.Frm Cert.KernelIdeal.Val
open Idealize.ShloMosaic Idealize.ShloMosaic.TcCoe Idealize.SL.Sem Idealize.ShloMosaic.StableHlo
open Idealize.ShloMosaic.ValueIdx

namespace L1b

section Generic
variable {F : FTy → Type} [FloatOps F]

/-- The host's sum of the messages into their target rows, over any contents. -/
theorem sums_of (W : Valuation τ sig (Elt F)) :
    StableHlo.after hostOps2 W (Proc.devRef .tc main_v36)
      = Host.scatterAdd scatter_S100000x128_S900000x1_S900000x128_1_0_0_1
          (broadcastInDim S100000x128 ![] bcast_S_S100000x128 (constant S_ .f32 0x00000000#32))
          (broadcastInDim S900000x1 ![0] bcast_S900000_S900000x1_0 (W main_v6)) (W main_v33) := by
  after_results

/-- The bias laid out as one row, over any contents. -/
theorem row_of (W : Valuation τ sig (Elt F)) :
    StableHlo.after hostOps2 W (Proc.devRef .tc main_v37) = shapeCast S1x128 (W main_arg4) shapeCasts_S128_S1x128 := by
  after_results
  rfl

/-- The same sum is the reference's, on the reference's column indices and scaled messages. -/
theorem sums_ref (x0 : (⟨S100000x128, .f32⟩ : BufTy).Contents (Elt F)) (x1 : IVec S2x800000 32) (x3 : (⟨S128x128, .f32⟩ : BufTy).Contents (Elt F)) :
    Host.scatterAdd scatter_S100000x128_S900000x1_S900000x128_1_0_0_1
        (broadcastInDim S100000x128 ![] bcast_S_S100000x128 (constant S_ .f32 0x00000000#32))
        (broadcastInDim S900000x1 ![0] bcast_S900000_S900000x1_0 (Cert.ReferenceIdeal.Read.val_main_v6 (F := F) x1))
        (Cert.ReferenceIdeal.Read.val_main_v40 (F := F) x0 x1 x3)
      = Cert.ReferenceIdeal.Read.val_main_v43 (F := F) x0 x1 x3 := rfl

end Generic

variable (m : (ℓ : Loc nD τ sig) → Buf (Elt Ideal) ℓ) (c : Dev nD)

/-- Neither the first two regions nor the host operations between them write the column indices or the bias. -/
theorem col_kept : Frm.U7 m c main_v6 = Frm.U3 m c main_v6 :=
  (Frm.U7_of m c main_v6 (by decide)).trans <| (Frm.U6_of m c main_v6 (by decide)).trans <| (Frm.U5_of m c main_v6 (by decide)).trans (Frm.U4_of m c main_v6 (by decide))
theorem bias_kept : Frm.U7 m c main_arg4 = Frm.U3 m c main_arg4 :=
  (Frm.U7_of m c main_arg4 (by decide)).trans <| (Frm.U6_of m c main_arg4 (by decide)).trans <| (Frm.U5_of m c main_arg4 (by decide)).trans (Frm.U4_of m c main_arg4 (by decide))

variable {x0 : (⟨S100000x128, .f32⟩ : BufTy).Contents (Elt Ideal)} {x1 : IVec S2x800000 32}
  {x3 : (⟨S128x128, .f32⟩ : BufTy).Contents (Elt Ideal)} {x4 : (⟨S128, .f32⟩ : BufTy).Contents (Elt Ideal)}

/-- The sums entering the third region are the reference's. -/
theorem sums_eq (hcol : Frm.U3 m c main_v6 = Cert.ReferenceIdeal.Read.val_main_v6 (F := Ideal) x1)
    (h33 : Frm.U7 m c main_v33 = Cert.ReferenceIdeal.Read.val_main_v40 (F := Ideal) x0 x1 x3) :
    Frm.U8 m c main_v36 = Cert.ReferenceIdeal.Read.val_main_v43 (F := Ideal) x0 x1 x3 := by
  refine (sums_of (Frm.U7 m c)).trans ?_
  rw [col_kept, hcol, h33]
  exact sums_ref x0 x1 x3

/-- The bias row entering the third region, read at a column. -/
theorem row_eq (h4 : Frm.U3 m c main_arg4 = x4) (j : Fin 128) :
    Frm.U8 m c main_v37 (ix2 (0 : Fin 1) j) = x4 (ix1 j) := by
  have h : Frm.U8 m c main_v37 = shapeCast S1x128 (Frm.U7 m c main_arg4) shapeCasts_S128_S1x128 := row_of (Frm.U7 m c)
  rw [h, bias_kept, h4]
  exact shapeCast_a_1a_apply _ _ (0 : Fin 1) j

/-- The reference's broadcast bias reads the bias at the column. -/
theorem ref_bias_idx (r : Fin 100000) (j : Fin 128) :
    Cert.ReferenceIdeal.Read.idx_main_v44 (Cert.ReferenceIdeal.Read.idx_main_v45 (ix2 r j)) = ix1 j :=
  funext fun a => by match a with | ⟨0, _⟩ => rfl

end L1b

variable (m : (ℓ : Loc nD τ sig) → Buf (Elt Ideal) ℓ) (c : Dev nD)
variable {x0 : (⟨S100000x128, .f32⟩ : BufTy).Contents (Elt Ideal)} {x1 : IVec S2x800000 32}
  {x3 : (⟨S128x128, .f32⟩ : BufTy).Contents (Elt Ideal)} {x4 : (⟨S128, .f32⟩ : BufTy).Contents (Elt Ideal)}

/-- The first layer's output: the third region leaves the reference's rectified sums. -/
theorem layer1b (h4 : Frm.U3 m c main_arg4 = x4) (hcol : Frm.U3 m c main_v6 = Cert.ReferenceIdeal.Read.val_main_v6 (F := Ideal) x1)
    (h33 : Frm.U7 m c main_v33 = Cert.ReferenceIdeal.Read.val_main_v40 (F := Ideal) x0 x1 x3) :
    Frm.U9 m c main_v38 = Cert.ReferenceIdeal.Read.val_main_v47 (F := Ideal) x0 x1 x3 x4 := by
  rw [Frm.U9_out, Val.arr2 (atRefs (Frm.U8 m)) c]
  show Val.biasrelu2 (Frm.U8 m c main_v36) (Frm.U8 m c main_v37) = _
  rw [L1b.sums_eq m c hcol h33]
  funext i
  obtain ⟨r, j, rfl⟩ : ∃ (r : Fin 100000) (j : Fin 128), i = ix2 r j := ⟨i 0, i 1, eq_ix2 i⟩
  rw [Val.biasrelu2_apply, L1b.row_eq m c h4,
    Cert.ReferenceIdeal.Read.val_main_v47_apply, Cert.ReferenceIdeal.Read.val_main_v46_apply, Cert.ReferenceIdeal.Read.val_main_v45_apply,
    Cert.ReferenceIdeal.Read.val_main_v44_apply, Cert.ReferenceIdeal.Read.val_main_call1_v0_apply, Cert.ReferenceIdeal.Read.val_main_call1_cst_apply,
    L1b.ref_bias_idx]
  show max _ (0 : EReal) = max _ (Ideal.ofBits .f32 0x00000000#32)
  rw [Ideal.ofBits_zero_f32]
  rfl

end Cert.KernelIdeal.Stage

end
-- ==== Proof.KI.Layers.lean ====
/-
  Layer 1 of the network, kernel against reference, put together: from the arguments to the scaled messages (the matrix
  product, the gather of source rows — the kernel's mask all true where every index is in range —, the edge weights), and
  from the scaled messages through the scatter-add and the bias to the rectifier's output.
-/
import proofs.«424645_j84567906058949_2_alg».proof.Proof.KI.Stage1
import proofs.«424645_j84567906058949_2_alg».proof.Proof.KI.Stage1b

set_option maxRecDepth 16384

noncomputable section

namespace Cert.KernelIdeal.Stage

open Cert.KernelIdeal Cert.KernelIdeal.Gen Cert.KernelIdeal.Frm Cert.KernelIdeal.Val
open Idealize.ShloMosaic Idealize.ShloMosaic.TcCoe Idealize.SL.Sem Idealize.ShloMosaic.ValueIdx

variable (m : (ℓ : Loc nD τ sig) → Buf (Elt Ideal) ℓ) (c : Dev nD)
  {x0 : (⟨S100000x128, .f32⟩ : BufTy).Contents (Elt Ideal)} {x1 : IVec S2x800000 32}
  {x3 : (⟨S128x128, .f32⟩ : BufTy).Contents (Elt Ideal)} {x4 : (⟨S128, .f32⟩ : BufTy).Contents (Elt Ideal)}
  {x5 : (⟨S128x2, .f32⟩ : BufTy).Contents (Elt Ideal)} {x6 : (⟨S2, .f32⟩ : BufTy).Contents (Elt Ideal)}

/-- The rectifier's output of layer 1 is the reference's. -/
theorem layer1 (h0 : Frm.U3 m c main_arg0 = x0) (h3 : Frm.U3 m c main_arg3 = x3) (h4 : Frm.U3 m c main_arg4 = x4)
    (h5 : Frm.U3 m c main_arg5 = x5) (h6 : Frm.U3 m c main_arg6 = x6) (hrow : Frm.U3 m c main_v3 = Val.rowOf x1)
    (hcol : Frm.U3 m c main_v6 = Cert.ReferenceIdeal.Read.val_main_v6 (F := Ideal) x1)
    (hnorm : Frm.U3 m c main_v29 = Cert.ReferenceIdeal.Read.val_main_v29 (F := Ideal) x1)
    (hin : ∀ i : Fin 800000, 0 ≤ (x1 (ix2 (0 : Fin 2) i)).toInt ∧ (x1 (ix2 (0 : Fin 2) i)).toInt < 100000) :
    Frm.U9 m c main_v38 = Cert.ReferenceIdeal.Read.val_main_v47 (F := Ideal) x0 x1 x3 x4 :=
  layer1b m c h4 hcol (layer1a m c h0 h3 h4 h5 h6 hrow hcol hnorm hin)

end Cert.KernelIdeal.Stage

end
-- ==== Proof.KI.Val3.lean ====
/-
  Kernel region 3, read as a value: the output array after all ten grid points is the row-by-column product of the
  first input array [100000,128] with the second [128,2]. The body's value at an index of its block is the sum over
  the contracted index of the products of the loaded blocks; each grid point's output block is that block of the whole
  product, since the first input's block at point t is rows 10000 t … 10000 t + 9999 and the second input is loaded
  whole; the ten row blocks cover the array.
-/
import proofs.«424645_j84567906058949_2_alg».proof.Proof.KI.Reg3
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.Pipeline (Dat)
open Idealize.ShloMosaic.ValueIdx

/-- The row-by-column product of a [100000,128] array with a [128,2] array: row p, column q is the sum over k of
    x[p,k] * w[k,q]. -/
def mm3 (x : S100000x128.Idx → EReal) (w : S128x2.Idx → EReal) : S100000x2.Idx → EReal :=
  fun i => ∑ k : Fin 128, x (ix2 (⟨(i 0).val, (i 0).isLt⟩ : Fin 100000) k) * w (ix2 k (⟨(i 1).val, (i 1).isLt⟩ : Fin 2))

theorem mm3_apply (x : S100000x128.Idx → EReal) (w : S128x2.Idx → EReal) (p : Fin 100000) (q : Fin 2) :
    mm3 x w (ix2 p q) = ∑ k : Fin 128, x (ix2 p k) * w (ix2 k q) := rfl

namespace R3

theorem zero2 : (![0, 0] : Fin 2 → Nat) = fun _ => 0 := funext fun a => by fin_cases a <;> rfl

/-- The four coordinates of the product's operand indices: the left operand is read at the output's row and the
    contracted index, the right operand at the contracted index and the output's column. -/
theorem lhs_0 (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl
theorem lhs_1 (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q
theorem rhs_0 (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q
theorem rhs_1 (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-- The body's value at row p, column q of its block: the sum over k of the products of the first block's row p with
    the second block's column q. -/
theorem pay_apply (x0 : Vec Ideal S10000x128 .f32) (x1 : Vec Ideal S128x2 .f32) (p : Fin 10000) (q : Fin 2) :
    k3_pay1 x0 x1 (ix2 p q) = ∑ k : Fin 128, x0 (ix2 p k) * x1 (ix2 k q) := by
  unfold k3_pay1
  simp only [matmul, shapeCast_self]
  rw [Ideal.matmul_constant_zero_apply, ← Equiv.sum_comp (contrEquiv1 dot_S10000x128_S128x2_S10000x2_1_0_0_1_n_n 128 rfl rfl).symm]
  refine Finset.sum_congr rfl fun k _ => ?_
  have hk := contrEquiv1_symm_val dot_S10000x128_S128x2_S10000x2_1_0_0_1_n_n 128 rfl rfl k
  have el : dot_S10000x128_S128x2_S10000x2_1_0_0_1_n_n.lhsIdx (ix2 p q) ((contrEquiv1 dot_S10000x128_S128x2_S10000x2_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x2_S10000x2_1_0_0_1_n_n.rhsIdx (ix2 p q) ((contrEquiv1 dot_S10000x128_S128x2_S10000x2_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The block index maps over the grid: at point t the first input and the output are at row block t, column block 0;
    the second input is whole. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block of the product: when the first block's row p is row P of x and the second block is w, the body's value at
    row p, column q is the product's at row P, column q. -/
theorem blk_apply (X : S100000x128.Idx → EReal) (W : S128x2.Idx → EReal)
    (x0 : Vec Ideal S10000x128 .f32) (x1 : Vec Ideal S128x2 .f32) (p : Fin 10000) (q : Fin 2) (P : Fin 100000)
    (h0 : ∀ k : Fin 128, x0 (ix2 p k) = X (ix2 P k)) (h1 : ∀ k : Fin 128, x1 (ix2 k q) = W (ix2 k q)) :
    k3_pay1 x0 x1 (ix2 p q) = mm3 X W (ix2 P q) := by
  rw [pay_apply, mm3_apply]
  exact Finset.sum_congr rfl fun k _ => by rw [h0 k, h1 k]

/-- What point t writes back is block t of the product of the two input arrays. -/
theorem flushed (V : (c : Dev nD) → (b : Ref sig .tc) → Buf (Elt Ideal) ((c : Thread nD τ).loc b)) (c : Dev nD) (t : Fin cfg3.N) :
    (Frm.dat3 (F := Ideal) V c).flushed 2 t
      = ((cfg3.win 2).blk t).view.read (Elt Ideal) (mm3 (V c (Pipeline.arrRef spec3 0)) (V c (Pipeline.arrRef spec3 1))) := by
  show (cfg3.win 2).cut (grid3.coords t) ((Frm.dat3 (F := Ideal) V c).after 2 t) = _
  rw [after3_2]
  unfold out3_2
  rw [View.canon_unit_zero zero2]
  simp only [View.ld_unit_zero (S := S10000x128) zero2, View.ld_unit_zero (S := S128x2) zero2]
  obtain ⟨e0, e1, e2, e3, e4, e5⟩ := idx t
  have hN : cfg3.N = 10 := N_3
  have ht : t.val < 10 := hN ▸ t.isLt
  refine funext fun (j : S10000x2.Idx) => ?_
  obtain ⟨p, q, rfl⟩ : ∃ (p : Fin 10000) (q : Fin 2), j = ix2 p q := ⟨j 0, j 1, eq_ix2 j⟩
  have hP : t.val * 10000 + p.val < 100000 := by have := p.isLt; omega
  have hemb : ((cfg3.win 2).blk t).view.emb (ix2 p q) = ix2 (⟨t.val * 10000 + p.val, hP⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 2 + 1 * q.val = q.val; omega
  show k3_pay1 (iblk3 V c 0 t) (iblk3 V c 1 t) (ix2 p q) = mm3 _ _ (((cfg3.win 2).blk t).view.emb (ix2 p q))
  rw [hemb]
  refine blk_apply _ _ (iblk3 V c 0 t) (iblk3 V c 1 t) p q ⟨_, hP⟩ (fun k => ?_) (fun k => ?_)
  · show V c (Pipeline.arrRef spec3 0) (((cfg3.win 0).blk t).view.emb (ix2 p k)) = V c (Pipeline.arrRef spec3 0) (ix2 (⟨t.val * 10000 + p.val, hP⟩ : Fin 100000) k)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 128 + 1 * k.val = k.val; omega
  · show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 2 + 1 * q.val = q.val; omega

/-- An index of the output array is in point t's block iff each coordinate is in the block's range on its axis. -/
theorem mem_blk (t : Fin cfg3.N) (i : S100000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v39).slice (win3_2.rect t)).set ↔ _
  rw [View.set_slice_whole, Rect.mem_set_unit]
  exact Iff.rfl

/-- Every index of the output array is in some point's block: row r is in the block of point r / 10000. -/
theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, e4, e5⟩ := idx t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 2 ≤ (i 1).val ∧ (i 1).val < win3_2.index t (1 : Fin 2) * 2 + 2; omega

end R3

/-- The output array after all ten points is the product of the two input arrays. -/
theorem arr3 (V : (c : Dev nD) → (b : Ref sig .tc) → Buf (Elt Ideal) ((c : Thread nD τ).loc b)) (c : Dev nD) :
    (Frm.dat3 (F := Ideal) V c).arrAt 2 cfg3.N = mm3 (V c (Pipeline.arrRef spec3 0)) (V c (Pipeline.arrRef spec3 1)) :=
  (Frm.dat3 (F := Ideal) V c).arrAt_eq_of_cover 2 (mm3 (V c (Pipeline.arrRef spec3 0)) (V c (Pipeline.arrRef spec3 1)))
    (fun t _ => R3.flushed V c t) R3.cover

end Cert.KernelIdeal.Val

end
-- ==== Proof.KI.Val4.lean ====
/-
  Kernel region 4 (the row-scaling kernel): the output array after all grid points, as one function of the two
  input arrays. Every element of row r of the first array is multiplied by the one entry of row r of the second
  (a column of per-row scales). The body's value at an index of a block; each point writes block t of that
  whole-array function; the blocks tile the array; so the array ends holding the function.
-/
import proofs.«424645_j84567906058949_2_alg».proof.Proof.KI.Reg4
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-- The whole-array function: row r, column j of the first array times the row's one scale. -/
def scale4 (g : S900000x2.Idx → EReal) (n : S900000x1.Idx → EReal) : S900000x2.Idx → EReal :=
  fun i => g i * n (ix2 (i 0) (0 : Fin 1))

theorem scale4_apply (g : S900000x2.Idx → EReal) (n : S900000x1.Idx → EReal) (r : Fin 900000) (j : Fin 2) :
    scale4 g n (ix2 r j) = g (ix2 r j) * n (ix2 r (0 : Fin 1)) := rfl

variable (V : (c : Dev nD) → (b : Ref sig .tc) → Buf (Elt Ideal) ((c : Thread nD τ).loc b))

namespace R4

/-- The zero offsets of a whole-block rectangle, as a constant function. -/
theorem zero_off2 : (![0, 0] : Fin 2 → Nat) = fun _ => 0 := funext fun a => by fin_cases a <;> rfl

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at (p, q) of a block: the first block there times the second block's entry of row p. -/
theorem pay_apply (x0 : Vec Ideal S9000x2 .f32) (x1 : Vec Ideal S9000x1 .f32) (p : Fin 9000) (q : Fin 2) :
    k4_pay1 x0 x1 (ix2 p q) = x0 (ix2 p q) * x1 (ix2 p (0 : Fin 1)) := by
  unfold k4_pay1
  simp only [shapeCast_self]
  rw [mulf_apply, broadcastTo_a1_ab_apply]

/-- The three index maps over the grid: block (t, 0) at point t. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the whole-array function of the two input arrays. -/
theorem flushed_eq (c : Dev nD) (t : Fin cfg4.N) :
    (Frm.dat4 (F := Ideal) V c).flushed 2 t
      = ((cfg4.win 2).blk t).view.read (Elt Ideal) (scale4 (V c (Pipeline.arrRef spec4 0)) (V c (Pipeline.arrRef spec4 1))) := by
  show (cfg4.win 2).cut (grid4.coords t) ((Frm.dat4 (F := Ideal) V c).after 2 t) = _
  rw [after4_2]
  unfold out4_2
  rw [View.canon_unit_zero zero_off2]
  simp only [View.ld_unit_zero (S := S9000x2) zero_off2, View.ld_unit_zero (S := S9000x1) zero_off2]
  obtain ⟨e0, e1, e2, e3, e4, e5⟩ := idx_facts t
  refine funext fun (j : S9000x2.Idx) => ?_
  obtain ⟨p, q, rfl⟩ : ∃ (p : Fin 9000) (q : Fin 2), j = ix2 p q := ⟨j 0, j 1, eq_ix2 j⟩
  show k4_pay1 (iblk4 V c 0 t) (iblk4 V c 1 t) (ix2 p q)
    = scale4 (V c (Pipeline.arrRef spec4 0)) (V c (Pipeline.arrRef spec4 1)) (((cfg4.win 2).blk t).view.emb (ix2 p q))
  rw [pay_apply]
  have hp : p.val < 9000 := p.isLt
  have hq : q.val < 2 := q.isLt
  have h0 : ((cfg4.win 0).blk t).view.emb (ix2 p q) = ((cfg4.win 2).blk t).view.emb (ix2 p q) := by
    funext a; apply Fin.ext
    match a with
    | ⟨0, _⟩ => show win4_0.index t (0 : Fin 2) * 9000 + 1 * p.val = win4_2.index t (0 : Fin 2) * 9000 + 1 * p.val; omega
    | ⟨1, _⟩ => show win4_0.index t (1 : Fin 2) * 2 + 1 * q.val = win4_2.index t (1 : Fin 2) * 2 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 9000 + 1 * p.val = win4_2.index t (0 : Fin 2) * 9000 + 1 * p.val; omega
    | ⟨1, _⟩ => show win4_1.index t (1 : Fin 2) * 1 + 1 * 0 = 0; omega
  have key : ∀ (g : S900000x2.Idx → EReal) (n : S900000x1.Idx → EReal),
      g (((cfg4.win 0).blk t).view.emb (ix2 p q)) * n (((cfg4.win 1).blk t).view.emb (ix2 p (0 : Fin 1)))
        = scale4 g n (((cfg4.win 2).blk t).view.emb (ix2 p q)) := by
    intro g n
    rw [h0, h1]
    rfl
  exact key (V c (Pipeline.arrRef spec4 0)) (V c (Pipeline.arrRef spec4 1))

/-- An index of the array is in point t's block iff each coordinate is in the block's range on its axis. -/
theorem mem_blk (t : Fin cfg4.N) (i : S900000x2.Idx) :
    i ∈ ((cfg4.win 2).blk t).view.set ↔ ∀ a : Fin 2, win4_2.index t a * S9000x2.size a ≤ (i a).val
      ∧ (i a).val < win4_2.index t a * S9000x2.size a + S9000x2.size a := by
  show i ∈ ((View.whole main_v42).slice (win4_2.rect t)).set ↔ _
  rw [View.set_slice_whole, Rect.mem_set_unit]
  exact Iff.rfl

/-- The blocks tile the array: row r is in the block of point r / 9000. -/
theorem cover (i : S900000x2.Idx) :
    ∃ t : Fin cfg4.N, (cfg4.win 2).flush t = true ∧ i ∈ ((cfg4.win 2).blk t).view.set := by
  have hi0 : (i 0).val < 900000 := (i 0).isLt
  have hi1 : (i 1).val < 2 := (i 1).isLt
  have hN : cfg4.N = 100 := N_4
  obtain ⟨t, ht⟩ : ∃ t : Fin cfg4.N, t.val = (i 0).val / 9000 := ⟨⟨(i 0).val / 9000, by rw [hN]; omega⟩, rfl⟩
  obtain ⟨e0, e1, e2, e3, e4, e5⟩ := idx_facts t
  refine ⟨t, flush4_2 t, ?_⟩
  rw [mem_blk]
  intro a
  match a with
  | ⟨0, _⟩ =>
    show win4_2.index t (0 : Fin 2) * 9000 ≤ (i 0).val ∧ (i 0).val < win4_2.index t (0 : Fin 2) * 9000 + 9000
    omega
  | ⟨1, _⟩ =>
    show win4_2.index t (1 : Fin 2) * 2 ≤ (i 1).val ∧ (i 1).val < win4_2.index t (1 : Fin 2) * 2 + 2
    omega

end R4

/-- The output array after all grid points is the whole-array function of the two input arrays. -/
theorem arr4 (c : Dev nD) : (Frm.dat4 (F := Ideal) V c).arrAt 2 cfg4.N
    = scale4 (V c (Pipeline.arrRef spec4 0)) (V c (Pipeline.arrRef spec4 1)) :=
  (Frm.dat4 (F := Ideal) V c).arrAt_eq_of_cover 2 (scale4 (V c (Pipeline.arrRef spec4 0)) (V c (Pipeline.arrRef spec4 1)))
    (fun t _ => R4.flushed_eq V c t) R4.cover

end Cert.KernelIdeal.Val

end
-- ==== Proof.KI.Val5.lean ====
/-
  Kernel region 5: the array its output window ends holding, as one function of its two input arrays.
  Every grid point adds the one bias row to each row of its block of the first input and
  writes the block back; the blocks tile the rows, so the whole array is that function index by index.
-/
import proofs.«424645_j84567906058949_2_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-- Row r, column j ↦ a (r, j) + b (0, j). -/
def bias5 (a : S100000x2.Idx → EReal) (b : S1x2.Idx → EReal) : S100000x2.Idx → EReal :=
  fun i => a i + b (ix2 (0 : Fin 1) (i 1 : Fin 2))

theorem bias5_apply (a : S100000x2.Idx → EReal) (b : S1x2.Idx → EReal) (r : Fin 100000) (j : Fin 2) :
    bias5 a b (ix2 r j) = a (ix2 r j) + b (ix2 (0 : Fin 1) j) := rfl

namespace R5

/-- The rectangles' zero offsets, as the constant function. -/
theorem hz : (![0, 0] : Fin 2 → Nat) = fun _ => 0 := funext fun a => by fin_cases a <;> rfl

/-- The body's value at an index of the block. -/
theorem out_apply (x0 : Vec Ideal S10000x2 .f32) (x1 : Vec Ideal S1x2 .f32) (p : Fin 10000) (q : Fin 2) :
    out5_2 (F := Ideal) x0 x1 (ix2 p q) = x0 (ix2 p q) + x1 (ix2 (0 : Fin 1) q) := by
  unfold out5_2
  rw [View.canon_unit_zero hz]
  simp only [View.ld_unit_zero (S := S10000x2) hz, View.ld_unit_zero (S := S1x2) hz]
  unfold k5_pay1
  rw [addf_apply, shapeCast_self, shapeCast_self, broadcastTo_1b_ab_apply]

/-- The printed index maps over the grid: the first input's block moves with the output's, down the rows;
    the bias row's block stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's value read where the output's index says. -/
theorem read_at (A0 : S100000x2.Idx → EReal) (A1 : S1x2.Idx → EReal) (i0 i2 : S100000x2.Idx) (i1 : S1x2.Idx)
    (h0 : i0 = i2) (h1 : i1 = ix2 (0 : Fin 1) (i2 1 : Fin 2)) : A0 i0 + A1 i1 = bias5 A0 A1 i2 := by
  subst h0 h1; rfl

variable (V : (c : Dev nD) → (b : Ref sig .tc) → Buf (Elt Ideal) ((c : Thread nD τ).loc b))

/-- What point t writes back is block t of the whole-array function of the two input arrays. -/
theorem flushed_eq (c : Dev nD) (t : Fin cfg5.N) :
    (dat5 (F := Ideal) V c).flushed 2 t = ((cfg5.win 2).blk t).view.read (Elt Ideal) (bias5 (V c (Pipeline.arrRef spec5 0)) (V c (Pipeline.arrRef spec5 1))) := by
  show (cfg5.win 2).cut (grid5.coords t) ((dat5 V c).after 2 t) = _
  rw [after5_2]
  obtain ⟨e0, e1, e2, e3, e4, e5⟩ := idx_facts t
  funext j
  obtain ⟨p, q, rfl⟩ : ∃ (p : Fin 10000) (q : Fin 2), j = ix2 p q := ⟨j 0, j 1, eq_ix2 j⟩
  show out5_2 (iblk5 V c 0 t) (iblk5 V c 1 t) (ix2 p q) = _
  rw [out_apply]
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 2 + 1 * q.val = win5_2.index t (1 : Fin 2) * 2 + 1 * q.val; omega
  have h1 : ((cfg5.win 1).blk t).view.emb (ix2 (0 : Fin 1) q) = ix2 (0 : Fin 1) ((((cfg5.win 2).blk t).view.emb (ix2 p q)) 1 : Fin 2) := by
    funext a; apply Fin.ext
    match a with
    | ⟨0, _⟩ => show win5_1.index t (0 : Fin 2) * 1 + 1 * 0 = 0; omega
    | ⟨1, _⟩ => show win5_1.index t (1 : Fin 2) * 2 + 1 * q.val = win5_2.index t (1 : Fin 2) * 2 + 1 * q.val; omega
  exact read_at (V c (Pipeline.arrRef spec5 0)) (V c (Pipeline.arrRef spec5 1)) _ _ _ h0 h1

/-- An index of the array is in point t's block iff each coordinate is in the block's range on its axis. -/
theorem mem_blk (t : Fin cfg5.N) (i : S100000x2.Idx) :
    i ∈ ((cfg5.win 2).blk t).view.set ↔ ∀ a : Fin 2, win5_2.index t a * S10000x2.size a ≤ (i a).val ∧ (i a).val < win5_2.index t a * S10000x2.size a + S10000x2.size a := by
  show i ∈ ((View.whole main_v47).slice (win5_2.rect t)).set ↔ _
  rw [View.set_slice_whole, Rect.mem_set_unit]
  exact Iff.rfl

/-- The blocks tile the rows: row r is in the block of point r / 10000. -/
theorem cover (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  obtain ⟨t, ht⟩ : ∃ t : Fin cfg5.N, t.val = (i 0).val / 10000 :=
    ⟨⟨(i 0).val / 10000, by have := N_5; show _ < grid5.N; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 2 ≤ (i 1).val ∧ (i 1).val < win5_2.index t (1 : Fin 2) * 2 + 2; omega

end R5

variable (V : (c : Dev nD) → (b : Ref sig .tc) → Buf (Elt Ideal) ((c : Thread nD τ).loc b))

/-- The output array after all the grid's points: the whole-array function of the two input arrays. -/
theorem arr5 (c : Dev nD) :
    (Frm.dat5 (F := Ideal) V c).arrAt 2 cfg5.N = bias5 (V c (Pipeline.arrRef spec5 0)) (V c (Pipeline.arrRef spec5 1)) :=
  (dat5 (F := Ideal) V c).arrAt_eq_of_cover 2 (bias5 (V c (Pipeline.arrRef spec5 0)) (V c (Pipeline.arrRef spec5 1)))
    (fun t _ => R5.flushed_eq V c t) R5.cover

end Cert.KernelIdeal.Val

end
-- ==== Proof.KI.Stage2.lean ====
/-
  Layer 2 of the network, kernel against reference: from the rectified activations to the biased sum.
  The activations times the second weight matrix (a product of a [100000,128] array with a [128,2] array);
  the rows the edges name, taken from that product (the take's marks are all set under the index range, so it
  is the bare gather); each taken row scaled by its edge's norm; the scaled rows added up per target row into
  zeros; the bias row added to every row. Stage by stage the kernel's buffer holds what the reference computes.
-/
import proofs.«424645_j84567906058949_2_alg».proof.Proof.KI.Run
import proofs.«424645_j84567906058949_2_alg».proof.Proof.KI.Val3
import proofs.«424645_j84567906058949_2_alg».proof.Proof.KI.Val4
import proofs.«424645_j84567906058949_2_alg».proof.Proof.KI.Val5
import proofs.«424645_j84567906058949_2_alg».proof.Proof.KI.TakeMask
import proofs.«424645_j84567906058949_2_alg».proof.Proof.KI.Prefix
import proofs.«424645_j84567906058949_2_alg».proof.Proof.Ref.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stage

open Cert.KernelIdeal Cert.KernelIdeal.Gen Cert.KernelIdeal.Frm Cert.KernelIdeal.Val
open Idealize.ShloMosaic Idealize.ShloMosaic.TcCoe Idealize.SL.Sem
open Idealize.ShloMosaic.ValueIdx

variable (m : (ℓ : Loc nD τ sig) → Buf (Elt Ideal) ℓ) (c : Dev nD)
variable {x0 : (⟨S100000x128, .f32⟩ : BufTy).Contents (Elt Ideal)} {x1 : IVec S2x800000 32}
  {x3 : (⟨S128x128, .f32⟩ : BufTy).Contents (Elt Ideal)} {x4 : (⟨S128, .f32⟩ : BufTy).Contents (Elt Ideal)}
  {x5 : (⟨S128x2, .f32⟩ : BufTy).Contents (Elt Ideal)} {x6 : (⟨S2, .f32⟩ : BufTy).Contents (Elt Ideal)}

namespace L2

/-- Contents moved to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

set_option maxHeartbeats 1000000 in
/-- The take's host operations read at its result, over any contents: the gathered rows where the start index is in
    range, the filler elsewhere; the start indices are the row indices with the negative ones moved up. -/
theorem take_read {F : FTy → Type} [FloatOps F] (W : Valuation τ sig (Elt F)) :
    StableHlo.after (hostOps4 (F := F)) W (Proc.devRef .tc main_v40)
      = select (broadcastInDim S900000x2 ![0] bcast_S900000_S900000x2_0 (okOf (wrapOf (W (Proc.devRef .tc main_v3)))))
          (Host.gather gather_S100000x2_S900000x1_S900000x2_1_0_n_n_0_1_12 (W (Proc.devRef .tc main_v39))
            (wrapOf (W (Proc.devRef .tc main_v3))))
          (broadcastInDim S900000x2 ![] bcast_S_S900000x2 (constant (F := F) S_ .f32 0x7FC00000#32)) := by
  after_results_simp
  simp only [ofBuf_toBuf]
  have e3 : (StableHlo.TRef.of main_v3 : StableHlo.TRef sig ⟨S900000, .i32⟩).ofBuf (W (Proc.devRef .tc main_v3))
      = W (Proc.devRef .tc main_v3) := rfl
  have e39 : (StableHlo.TRef.of main_v39 : StableHlo.TRef sig ⟨S100000x2, .f32⟩).ofBuf (W (Proc.devRef .tc main_v39))
      = W (Proc.devRef .tc main_v39) := rfl
  have e40 : ∀ v : (⟨S900000x2, .f32⟩ : BufTy).Contents (Elt F),
      (StableHlo.TRef.of main_v40 : StableHlo.TRef sig ⟨S900000x2, .f32⟩).toBuf v = v := fun v => rfl
  simp only [e3, e39, e40]
  unfold okOf wrapOf
  rfl

/-- Stage 1: the activations times the second weight matrix. -/
theorem prod (h5 : Frm.U3 m c main_arg5 = x5)
    (h38 : Frm.U9 m c main_v38 = Cert.ReferenceIdeal.Read.val_main_v47 (F := Ideal) x0 x1 x3 x4) :
    Frm.U10 m c main_v39 = Cert.ReferenceIdeal.Read.val_main_v48 (F := Ideal) x0 x1 x3 x4 x5 := by
  rw [U10_out, arr3]
  have e0 : atRefs (Frm.U9 m) c (Pipeline.arrRef spec3 0) = Cert.ReferenceIdeal.Read.val_main_v47 (F := Ideal) x0 x1 x3 x4 := h38
  have e1 : atRefs (Frm.U9 m) c (Pipeline.arrRef spec3 1) = x5 := by
    show Frm.U9 m c main_arg5 = x5
    rw [U9_of m c main_arg5 (by decide), U8_of m c main_arg5 (by decide), U7_of m c main_arg5 (by decide),
      U6_of m c main_arg5 (by decide), U5_of m c main_arg5 (by decide), U4_of m c main_arg5 (by decide), h5]
  rw [e0, e1]
  refine funext fun (i : S100000x2.Idx) => ?_
  obtain ⟨p, q, rfl⟩ : ∃ (p : Fin 100000) (q : Fin 2), i = ix2 p q := ⟨i 0, i 1, eq_ix2 i⟩
  rw [mm3_apply]
  refine Eq.trans ?_ (Cert.ReferenceIdeal.Read.val_main_v48_apply x0 x1 x3 x4 x5 (ix2 p q)).symm
  refine Finset.sum_congr rfl fun k _ => ?_
  have el : Cert.ReferenceIdeal.Read.lidx_main_v48 (ix2 p q) k = ix2 p k :=
    funext fun a => by match a with | ⟨0, _⟩ => rfl | ⟨1, _⟩ => rfl
  have er : Cert.ReferenceIdeal.Read.ridx_main_v48 (ix2 p q) k = ix2 k q :=
    funext fun a => by match a with | ⟨0, _⟩ => rfl | ⟨1, _⟩ => rfl
  rw [el, er]

/-- Stage 2: the rows the edges name, taken from the product. -/
theorem taken (hrow : Frm.U3 m c main_v3 = Val.rowOf x1)
    (hin : ∀ i : Fin 800000, 0 ≤ (x1 (ix2 (0 : Fin 2) i)).toInt ∧ (x1 (ix2 (0 : Fin 2) i)).toInt < 100000)
    (h39 : Frm.U10 m c main_v39 = Cert.ReferenceIdeal.Read.val_main_v48 (F := Ideal) x0 x1 x3 x4 x5) :
    Frm.U12 m c main_v40 = Cert.ReferenceIdeal.Read.val_main_v55 (F := Ideal) x0 x1 x3 x4 x5 := by
  rw [U12_of m c main_v40 (by decide)]
  show StableHlo.after hostOps4 (Frm.U10 m c) (Proc.devRef .tc main_v40) = _
  rw [take_read]
  have e3 : Frm.U10 m c (Proc.devRef .tc main_v3) = Val.rowOf x1 := by
    show Frm.U10 m c main_v3 = Val.rowOf x1
    rw [U10_of m c main_v3 (by decide), U9_of m c main_v3 (by decide), U8_of m c main_v3 (by decide),
      U7_of m c main_v3 (by decide), U6_of m c main_v3 (by decide), U5_of m c main_v3 (by decide),
      U4_of m c main_v3 (by decide), hrow]
  have e39 : Frm.U10 m c (Proc.devRef .tc main_v39) = Cert.ReferenceIdeal.Read.val_main_v48 (F := Ideal) x0 x1 x3 x4 x5 := h39
  rw [e3, e39, ok_all x1 hin, select_all2]
  unfold Cert.ReferenceIdeal.Read.val_main_v55
  rw [ref_v54]
  rfl

/-- Stage 3: the edges' norms as a column. -/
theorem norms (hnorm : Frm.U3 m c main_v29 = Cert.ReferenceIdeal.Read.val_main_v29 (F := Ideal) x1) (r : Fin 900000) :
    (Frm.U12 m c main_v41 : S900000x1.Idx → EReal) (ix2 r (0 : Fin 1))
      = (Cert.ReferenceIdeal.Read.val_main_v29 (F := Ideal) x1 : S900000.Idx → EReal) (ix1 r) := by
  have e : (Frm.U12 m c main_v41 : S900000x1.Idx → EReal)
      = shapeCast S900000x1 (Frm.U11 m c main_v29 : S900000.Idx → EReal) shapeCasts_S900000_S900000x1 := by
    show StableHlo.after hostOps4_1 (Frm.U11 m c) (Proc.devRef .tc main_v41) = _
    after_results
    rfl
  have e29 : Frm.U11 m c main_v29 = Cert.ReferenceIdeal.Read.val_main_v29 (F := Ideal) x1 := by
    rw [
      U11_of m c main_v29 (by decide), U10_of m c main_v29 (by decide), U9_of m c main_v29 (by decide),
      U8_of m c main_v29 (by decide), U7_of m c main_v29 (by decide), U6_of m c main_v29 (by decide),
      U5_of m c main_v29 (by decide), U4_of m c main_v29 (by decide),
      hnorm]
  refine (congrFun e (ix2 r (0 : Fin 1))).trans ?_
  rw [e29]
  exact Pre.shapeCast_a_a1_apply _ _ r (0 : Fin 1)

/-- Stage 4: each taken row scaled by its edge's norm. -/
theorem scaled (h40 : Frm.U12 m c main_v40 = Cert.ReferenceIdeal.Read.val_main_v55 (F := Ideal) x0 x1 x3 x4 x5)
    (h41 : ∀ r : Fin 900000, (Frm.U12 m c main_v41 : S900000x1.Idx → EReal) (ix2 r (0 : Fin 1))
      = (Cert.ReferenceIdeal.Read.val_main_v29 (F := Ideal) x1 : S900000.Idx → EReal) (ix1 r)) :
    Frm.U13 m c main_v42 = Cert.ReferenceIdeal.Read.val_main_v58 (F := Ideal) x0 x1 x3 x4 x5 := by
  rw [U13_out, arr4]
  have e0 : atRefs (Frm.U12 m) c (Pipeline.arrRef spec4 0) = Cert.ReferenceIdeal.Read.val_main_v55 (F := Ideal) x0 x1 x3 x4 x5 := h40
  rw [e0]
  refine funext fun (i : S900000x2.Idx) => ?_
  obtain ⟨r, j, rfl⟩ : ∃ (r : Fin 900000) (j : Fin 2), i = ix2 r j := ⟨i 0, i 1, eq_ix2 i⟩
  rw [scale4_apply]
  refine Eq.trans ?_ (Cert.ReferenceIdeal.Read.val_main_v58_apply x0 x1 x3 x4 x5 (ix2 r j)).symm
  rw [Cert.ReferenceIdeal.Read.val_main_v57_apply, Cert.ReferenceIdeal.Read.val_main_v56_apply]
  have e1 : atRefs (Frm.U12 m) c (Pipeline.arrRef spec4 1) (ix2 r (0 : Fin 1))
      = (Cert.ReferenceIdeal.Read.val_main_v29 (F := Ideal) x1 : S900000.Idx → EReal) (ix1 r) := h41 r
  rw [e1]
  have ei : Cert.ReferenceIdeal.Read.idx_main_v56 (Cert.ReferenceIdeal.Read.idx_main_v57 (ix2 r j)) = ix1 r :=
    funext fun a => by match a with | ⟨0, _⟩ => rfl
  rw [ei]
  rfl

/-- Stage 5a: the scaled rows added up per target row into zeros. -/
theorem summed (hcol : Frm.U3 m c main_v6 = Cert.ReferenceIdeal.Read.val_main_v6 x1)
    (h42 : Frm.U13 m c main_v42 = Cert.ReferenceIdeal.Read.val_main_v58 (F := Ideal) x0 x1 x3 x4 x5) :
    Frm.U14 m c main_v45 = Cert.ReferenceIdeal.Read.val_main_v61 (F := Ideal) x0 x1 x3 x4 x5 := by
  have e : Frm.U14 m c main_v45 = Host.scatterAdd scatter_S100000x2_S900000x1_S900000x2_1_0_0_1
      (broadcastInDim S100000x2 ![] bcast_S_S100000x2 (constant (F := Ideal) S_ .f32 0x00000000#32))
      (broadcastInDim S900000x1 ![0] bcast_S900000_S900000x1_0 (Frm.U13 m c main_v6))
      (Frm.U13 m c main_v42) := by
    show StableHlo.after hostOps5 (Frm.U13 m c) (Proc.devRef .tc main_v45) = _
    after_results
  have e6 : Frm.U13 m c main_v6 = Cert.ReferenceIdeal.Read.val_main_v6 x1 := by
    rw [
      U13_of m c main_v6 (by decide), U12_of m c main_v6 (by decide), U11_of m c main_v6 (by decide),
      U10_of m c main_v6 (by decide), U9_of m c main_v6 (by decide), U8_of m c main_v6 (by decide),
      U7_of m c main_v6 (by decide), U6_of m c main_v6 (by decide), U5_of m c main_v6 (by decide),
      U4_of m c main_v6 (by decide),
      hcol]
  rw [e, e6, h42]
  unfold Cert.ReferenceIdeal.Read.val_main_v61 Cert.ReferenceIdeal.Read.val_main_v59 Cert.ReferenceIdeal.Read.val_main_cst_11 Cert.ReferenceIdeal.Read.val_main_v60
  rfl

/-- Stage 5b: the bias as a row. -/
theorem biasrow (h6 : Frm.U3 m c main_arg6 = x6) (j : Fin 2) :
    (Frm.U14 m c main_v46 : S1x2.Idx → EReal) (ix2 (0 : Fin 1) j) = (x6 : S2.Idx → EReal) (ix1 j) := by
  have e : (Frm.U14 m c main_v46 : S1x2.Idx → EReal)
      = shapeCast S1x2 (Frm.U13 m c main_arg6 : S2.Idx → EReal) shapeCasts_S2_S1x2 := by
    show StableHlo.after hostOps5 (Frm.U13 m c) (Proc.devRef .tc main_v46) = _
    after_results
    rfl
  have e6 : Frm.U13 m c main_arg6 = x6 := by
    rw [
      U13_of m c main_arg6 (by decide), U12_of m c main_arg6 (by decide), U11_of m c main_arg6 (by decide),
      U10_of m c main_arg6 (by decide), U9_of m c main_arg6 (by decide), U8_of m c main_arg6 (by decide),
      U7_of m c main_arg6 (by decide), U6_of m c main_arg6 (by decide), U5_of m c main_arg6 (by decide),
      U4_of m c main_arg6 (by decide),
      h6]
  refine (congrFun e (ix2 (0 : Fin 1) j)).trans ?_
  rw [e6]
  exact shapeCast_a_1a_apply _ _ (0 : Fin 1) j

/-- Stage 6: the bias row added to every row. -/
theorem biased (h45 : Frm.U14 m c main_v45 = Cert.ReferenceIdeal.Read.val_main_v61 (F := Ideal) x0 x1 x3 x4 x5)
    (h46 : ∀ j : Fin 2, (Frm.U14 m c main_v46 : S1x2.Idx → EReal) (ix2 (0 : Fin 1) j) = (x6 : S2.Idx → EReal) (ix1 j)) :
    Frm.U15 m c main_v47 = Cert.ReferenceIdeal.Read.val_main_v64 (F := Ideal) x0 x1 x3 x4 x5 x6 := by
  rw [U15_out, arr5]
  have e0 : atRefs (Frm.U14 m) c (Pipeline.arrRef spec5 0) = Cert.ReferenceIdeal.Read.val_main_v61 (F := Ideal) x0 x1 x3 x4 x5 := h45
  rw [e0]
  refine funext fun (i : S100000x2.Idx) => ?_
  obtain ⟨r, j, rfl⟩ : ∃ (r : Fin 100000) (j : Fin 2), i = ix2 r j := ⟨i 0, i 1, eq_ix2 i⟩
  rw [bias5_apply]
  refine Eq.trans ?_ (Cert.ReferenceIdeal.Read.val_main_v64_apply x0 x1 x3 x4 x5 x6 (ix2 r j)).symm
  rw [Cert.ReferenceIdeal.Read.val_main_v63_apply, Cert.ReferenceIdeal.Read.val_main_v62_apply]
  have e1 : atRefs (Frm.U14 m) c (Pipeline.arrRef spec5 1) (ix2 (0 : Fin 1) j) = (x6 : S2.Idx → EReal) (ix1 j) := h46 j
  rw [e1]
  have ei : Cert.ReferenceIdeal.Read.idx_main_v62 (Cert.ReferenceIdeal.Read.idx_main_v63 (ix2 r j)) = ix1 j :=
    funext fun a => by match a with | ⟨0, _⟩ => rfl
  rw [ei]
  rfl

end L2

/-- Layer 2 up to the scaling, kernel against reference: the buffer the scaling kernel writes holds the reference's
    scaled rows. -/
theorem layer2a (h0 : Frm.U3 m c main_arg0 = x0) (h3 : Frm.U3 m c main_arg3 = x3) (h4 : Frm.U3 m c main_arg4 = x4)
    (h5 : Frm.U3 m c main_arg5 = x5) (h6 : Frm.U3 m c main_arg6 = x6)
    (hrow : Frm.U3 m c main_v3 = Val.rowOf x1)
    (hcol : Frm.U3 m c main_v6 = Cert.ReferenceIdeal.Read.val_main_v6 x1)
    (hnorm : Frm.U3 m c main_v29 = Cert.ReferenceIdeal.Read.val_main_v29 (F := Ideal) x1)
    (hin : ∀ i : Fin 800000, 0 ≤ (x1 (ix2 (0 : Fin 2) i)).toInt ∧ (x1 (ix2 (0 : Fin 2) i)).toInt < 100000)
    (h38 : Frm.U9 m c main_v38 = Cert.ReferenceIdeal.Read.val_main_v47 (F := Ideal) x0 x1 x3 x4) :
    Frm.U13 m c main_v42 = Cert.ReferenceIdeal.Read.val_main_v58 (F := Ideal) x0 x1 x3 x4 x5 :=
  L2.scaled m c (L2.taken m c hrow hin (L2.prod m c h5 h38)) (L2.norms m c hnorm)

/-- Layer 2, kernel against reference: the buffer the bias kernel writes holds the reference's biased sum. -/
theorem layer2 (h0 : Frm.U3 m c main_arg0 = x0) (h3 : Frm.U3 m c main_arg3 = x3) (h4 : Frm.U3 m c main_arg4 = x4)
    (h5 : Frm.U3 m c main_arg5 = x5) (h6 : Frm.U3 m c main_arg6 = x6)
    (hrow : Frm.U3 m c main_v3 = Val.rowOf x1)
    (hcol : Frm.U3 m c main_v6 = Cert.ReferenceIdeal.Read.val_main_v6 x1)
    (hnorm : Frm.U3 m c main_v29 = Cert.ReferenceIdeal.Read.val_main_v29 (F := Ideal) x1)
    (hin : ∀ i : Fin 800000, 0 ≤ (x1 (ix2 (0 : Fin 2) i)).toInt ∧ (x1 (ix2 (0 : Fin 2) i)).toInt < 100000)
    (h38 : Frm.U9 m c main_v38 = Cert.ReferenceIdeal.Read.val_main_v47 (F := Ideal) x0 x1 x3 x4) :
    Frm.U15 m c main_v47 = Cert.ReferenceIdeal.Read.val_main_v64 (F := Ideal) x0 x1 x3 x4 x5 x6 :=
  L2.biased m c
    (L2.summed m c hcol (L2.scaled m c (L2.taken m c hrow hin (L2.prod m c h5 h38)) (L2.norms m c hnorm)))
    (L2.biasrow m c h6)

end Cert.KernelIdeal.Stage

end
-- ==== Proof.KI.Final.lean ====
/-
  The kernel program's result array is the reference program's result.
  The last kernel region leaves, at graph g and column f, the pooling specification applied to the rows it was entered
  with and to the nodes' id words; the reference's last stage is the same specification applied to the reference's rows
  and the same id words. The rows agree because the two layers before the pooling agree stage by stage under the
  precondition (every row index of the edge list lies in range), and the id words are the third argument on both sides.
-/
import proofs.«424645_j84567906058949_2_alg».proof.Proof.KI.Run
import proofs.«424645_j84567906058949_2_alg».proof.Proof.KI.TakeMask
import proofs.«424645_j84567906058949_2_alg».proof.Proof.Ref.PoolRef
import proofs.«424645_j84567906058949_2_alg».proof.Proof.KI.Val6
import proofs.«424645_j84567906058949_2_alg».proof.Proof.KI.Prefix
import proofs.«424645_j84567906058949_2_alg».proof.Proof.KI.Layers
import proofs.«424645_j84567906058949_2_alg».proof.Proof.KI.Stage2
import Idealize.ShloMosaic.Lib.ValueIdx

set_option maxRecDepth 16384

noncomputable section

namespace Cert.KernelIdeal.Stage

open Cert.KernelIdeal Cert.KernelIdeal.Gen Cert.KernelIdeal.Frm Cert.KernelIdeal.Val Idealize.ShloMosaic Idealize.ShloMosaic.TcCoe ValueIdx

/-- The kernel program's result array is the reference's result, under the precondition. -/
theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) :
    Frm.U17 m c main_v49 = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hin := Val.row_inrange_of_pre (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) hpre
  have l1 := layer1 m c (pre_arg0 m c) (pre_arg3 m c) (pre_arg4 m c) (pre_arg5 m c) (pre_arg6 m c) (pre_v3 m c) (pre_v6 m c)
    (pre_v29 m c) hin
  have l2 := layer2 m c (pre_arg0 m c) (pre_arg3 m c) (pre_arg4 m c) (pre_arg5 m c) (pre_arg6 m c) (pre_v3 m c) (pre_v6 m c)
    (pre_v29 m c) hin l1
  show (Frm.U17 m c main_v49 : S16x2.Idx → EReal) = _
  funext i
  obtain ⟨g, f, rfl⟩ : ∃ (g : Fin 16) (f : Fin 2), i = ix2 g f := ⟨i 0, i 1, eq_ix2 i⟩
  rw [Frm.U17_out, Val.arr6 (atRefs (U16 m)) c g f, Cert.ReferenceIdeal.PoolRef.ref_pool]
  have hrows : (fun (r : Fin 100000) (f' : Fin 2) => atRefs (U16 m) c (Pipeline.arrRef spec6 0) (ix2 r f'))
      = fun r f' => Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ix2 r f') := by
    funext r f'
    show Frm.U16 m c main_v47 (ix2 r f') = _
    rw [st_v47_keep m c, l2]
  have hids : (fun (r : Fin 100000) => atRefs (U16 m) c (Pipeline.arrRef spec6 1) (ix2 r (0 : Fin 1)))
      = fun r => (m ((c.tc : Thread nD τ).loc main_arg2)) (ix1 r) := funext fun r => st_v48 m c r
  rw [hrows, hids]

end Cert.KernelIdeal.Stage
end
-- ==== Proof.lean ====
/-
  The certificate's claim. Kernel (at the word level) and its idealization print the same program: its frame is the run
  of seven kernel regions among stretches of host operations, each region a pipeline over the proof data of its body,
  and no item writes an argument. The reference's frame is its run with the result dropped. The ideal pass rewrote
  nothing. At the ideal instance the kernel program's result is what its pooling region leaves, the reference's is its
  last stage, and under the precondition — every float input finite, every source-node index in range — the two are one
  function of the arguments: the matrix products, the edge scalings, the scatter-adds, the bias and the rectifier
  agree stage by stage, the kernel's masked gather is the bare gather where every index is in range, and the pooling by
  one-hot products over blocks of nodes is the scatter-add over all nodes.
-/
import proofs.«424645_j84567906058949_2_alg».proof.Defs
import proofs.«424645_j84567906058949_2_alg».proof.Proof.Gen.Kernel
import proofs.«424645_j84567906058949_2_alg».proof.Proof.Gen.KernelIdeal
import proofs.«424645_j84567906058949_2_alg».proof.Proof.Gen.ReferenceIdeal
import proofs.«424645_j84567906058949_2_alg».proof.Proof.Gen.Pre_finite_inputs
import proofs.«424645_j84567906058949_2_alg».proof.Proof.KB.Run
import proofs.«424645_j84567906058949_2_alg».proof.Proof.KI.RunVal
import proofs.«424645_j84567906058949_2_alg».proof.Proof.Ref.Read
import proofs.«424645_j84567906058949_2_alg».proof.Proof.KI.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run, the kernel's to its pooling region's write-back and
    the reference's to its last stage, and under the precondition these are one array. -/
theorem algebraic : Cert.algebraic_KernelIdeal_ReferenceIdeal := by
  intro m ρ m' ρ' hpre hagree
  refine ⟨fun c => Cert.KernelIdeal.Frm.U17 m c Cert.KernelIdeal.main_v49, Cert.KernelIdeal.Frm.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2]
  exact (Cert.KernelIdeal.Stage.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
